-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![768, 512]⟩ ⟨2, ![768, 16384]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S768x512 : Shape := ⟨2, ![768, 512]⟩
abbrev S512 : Shape := ⟨1, ![512]⟩
abbrev S_ : Shape := ⟨0, ![]⟩

class Facts : Prop where
  bcast_S_S768x512 : S_.BroadcastsInDim S768x512 (![] : Fin 0 → Fin S768x512.rank)
  reducesTo_S768x512_S_d0_1 : S768x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S768x512 .f32) (main_arg1 : FVec F S512 .f32) (main_arg2 : FVec F S512 .f32) : IVec S_ 1 :=
  let main_v0 : FVec F S768x512 .f32 := Host.absf main_arg0
  let main_cst : FVec F S_ .f32 := constant S_ .f32 0x7F800000#32
  let main_v1 : FVec F S768x512 .f32 := broadcastInDim S768x512 ![] bcast_S_S768x512 main_cst
  let main_v2 : IVec S768x512 1 := cmpf .olt main_v0 main_v1
  let main_c : IVec S_ 1 := constantI S_ 1 1#1
  let main_v3 : IVec S_ 1 := (fun x v => Host.reduce IntOp.andi x v reducesTo_S768x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Pre_finite_inputs_ReferenceIdeal.lean ====
abbrev S768x16384 : Shape := ⟨2, ![768, 16384]⟩
abbrev S16384 : Shape := ⟨1, ![16384]⟩
abbrev S_ : Shape := ⟨0, ![]⟩

class Facts : Prop where
  bcast_S_S768x16384 : S_.BroadcastsInDim S768x16384 (![] : Fin 0 → Fin S768x16384.rank)
  reducesTo_S768x16384_S_d0_1 : S768x16384.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S768x16384 .f32) (main_arg1 : FVec F S16384 .f32) (main_arg2 : FVec F S16384 .f32) : IVec S_ 1 :=
  let main_v0 : FVec F S768x16384 .f32 := Host.absf main_arg0
  let main_cst : FVec F S_ .f32 := constant S_ .f32 0x7F800000#32
  let main_v1 : FVec F S768x16384 .f32 := broadcastInDim S768x16384 ![] bcast_S_S768x16384 main_cst
  let main_v2 : IVec S768x16384 1 := cmpf .olt main_v0 main_v1
  let main_c : IVec S_ 1 := constantI S_ 1 1#1
  let main_v3 : IVec S_ 1 := (fun x v => Host.reduce IntOp.andi x v reducesTo_S768x16384_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S768x512 : Shape := ⟨2, ![768, 512]⟩
abbrev S512 : Shape := ⟨1, ![512]⟩
abbrev S4x2x768 : Shape := ⟨3, ![4, 2, 768]⟩
abbrev S8x2x768 : Shape := ⟨3, ![8, 2, 768]⟩
abbrev S4 : Shape := ⟨1, ![4]⟩
abbrev S8 : Shape := ⟨1, ![8]⟩
abbrev S_ : Shape := ⟨0, ![]⟩
abbrev S768 : Shape := ⟨1, ![768]⟩
abbrev S1x1x768 : Shape := ⟨3, ![1, 1, 768]⟩
abbrev S1 : Shape := ⟨1, ![1]⟩
abbrev S1x2x768 : Shape := ⟨3, ![1, 2, 768]⟩
abbrev S2x768 : Shape := ⟨2, ![2, 768]⟩
abbrev S768x2 : Shape := ⟨2, ![768, 2]⟩
abbrev S768x1 : Shape := ⟨2, ![768, 1]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S768x512, .f32⟩
  | .hbm, ⟨1, _⟩ => ⟨S512, .f32⟩
  | .hbm, ⟨2, _⟩ => ⟨S512, .f32⟩
  | .hbm, ⟨3, _⟩ => ⟨S768x512, .f32⟩
  | .local _ .vmem, ⟨0, _⟩ => ⟨S768x512, .f32⟩
  | .local _ .vmem, ⟨1, _⟩ => ⟨S512, .f32⟩
  | .local _ .vmem, ⟨2, _⟩ => ⟨S512, .f32⟩
  | .local _ .vmem, ⟨3, _⟩ => ⟨S768x512, .f32⟩
  | .local _ .vmem, ⟨4, _⟩ => ⟨S4x2x768, .f32⟩
  | .local _ .vmem, ⟨5, _⟩ => ⟨S8x2x768, .f32⟩
  | _, _ => ⟨S768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 2 28 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.xori v2 c8_i32
  let c1_i32_1 : BitVec 32 := 1#32
  let v5 : BitVec 32 := Scalar.muli v4 c1_i32_1
  let v6 : BitVec 32 := Scalar.addi c0_i32 v5
  v6.toNat
def k0_dev2 (d0 : Dev nD) : Nat :=
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_3 : BitVec 32 := 1#32
  let v8 : BitVec 32 := Scalar.muli v7 c1_i32_3
  let v9 : BitVec 32 := Scalar.addi c0_i32_4 v8
  v9.toNat
def k0_dev3 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v10 : BitVec 32 := Scalar.xori v2 c24_i32
  let c1_i32_6 : BitVec 32 := 1#32
  let v11 : BitVec 32 := Scalar.muli v10 c1_i32_6
  let v12 : BitVec 32 := Scalar.addi c0_i32_7 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_8 : BitVec 32 := 1#32
  let v13 : BitVec 32 := Scalar.xori v2 c1_i32_8
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v16 : BitVec 32 := Scalar.xori v2 c2_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v19 : BitVec 32 := Scalar.xori v2 c3_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v22 : BitVec 32 := Scalar.xori v2 c4_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v25 : BitVec 32 := Scalar.xori v2 c5_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v28 : BitVec 32 := Scalar.xori v2 c6_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v31 : BitVec 32 := Scalar.xori v2 c7_i32
  let c1_i32_28 : BitVec 32 := 1#32
  let v32 : BitVec 32 := Scalar.muli v31 c1_i32_28
  let v33 : BitVec 32 := Scalar.addi c0_i32_29 v32
  v33.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_38 : BitVec 32 := 8#32
  let v45 : BitVec 32 := Scalar.xori v2 c8_i32_38
  let c1_i32_43 : BitVec 32 := 1#32
  let v46 : BitVec 32 := Scalar.muli v45 c1_i32_43
  let v47 : BitVec 32 := Scalar.addi c0_i32_44 v46
  v47.toNat
def k0_dev12 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_49 : BitVec 32 := 16#32
  let v56 : BitVec 32 := Scalar.xori v2 c16_i32_49
  let c1_i32_54 : BitVec 32 := 1#32
  let v57 : BitVec 32 := Scalar.muli v56 c1_i32_54
  let v58 : BitVec 32 := Scalar.addi c0_i32_55 v57
  v58.toNat
def k0_dev13 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_60 : BitVec 32 := 24#32
  let v67 : BitVec 32 := Scalar.xori v2 c24_i32_60
  let c1_i32_65 : BitVec 32 := 1#32
  let v68 : BitVec 32 := Scalar.muli v67 c1_i32_65
  let v69 : BitVec 32 := Scalar.addi c0_i32_66 v68
  v69.toNat
def k0_dev14 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_137 : BitVec 32 := 1#32
  let v125 : BitVec 32 := Scalar.xori v2 c1_i32_137
  let c1_i32_142 : BitVec 32 := 1#32
  let v126 : BitVec 32 := Scalar.muli v125 c1_i32_142
  let v127 : BitVec 32 := Scalar.addi c0_i32_143 v126
  v127.toNat
def k0_dev15 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_148 : BitVec 32 := 2#32
  let v136 : BitVec 32 := Scalar.xori v2 c2_i32_148
  let c1_i32_153 : BitVec 32 := 1#32
  let v137 : BitVec 32 := Scalar.muli v136 c1_i32_153
  let v138 : BitVec 32 := Scalar.addi c0_i32_154 v137
  v138.toNat
def k0_dev16 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_159 : BitVec 32 := 3#32
  let v147 : BitVec 32 := Scalar.xori v2 c3_i32_159
  let c1_i32_164 : BitVec 32 := 1#32
  let v148 : BitVec 32 := Scalar.muli v147 c1_i32_164
  let v149 : BitVec 32 := Scalar.addi c0_i32_165 v148
  v149.toNat
def k0_dev17 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_170 : BitVec 32 := 4#32
  let v158 : BitVec 32 := Scalar.xori v2 c4_i32_170
  let c1_i32_175 : BitVec 32 := 1#32
  let v159 : BitVec 32 := Scalar.muli v158 c1_i32_175
  let v160 : BitVec 32 := Scalar.addi c0_i32_176 v159
  v160.toNat
def k0_dev18 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_181 : BitVec 32 := 5#32
  let v169 : BitVec 32 := Scalar.xori v2 c5_i32_181
  let c1_i32_186 : BitVec 32 := 1#32
  let v170 : BitVec 32 := Scalar.muli v169 c1_i32_186
  let v171 : BitVec 32 := Scalar.addi c0_i32_187 v170
  v171.toNat
def k0_dev19 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_192 : BitVec 32 := 6#32
  let v180 : BitVec 32 := Scalar.xori v2 c6_i32_192
  let c1_i32_197 : BitVec 32 := 1#32
  let v181 : BitVec 32 := Scalar.muli v180 c1_i32_197
  let v182 : BitVec 32 := Scalar.addi c0_i32_198 v181
  v182.toNat
def k0_dev20 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_203 : BitVec 32 := 7#32
  let v191 : BitVec 32 := Scalar.xori v2 c7_i32_203
  let c1_i32_208 : BitVec 32 := 1#32
  let v192 : BitVec 32 := Scalar.muli v191 c1_i32_208
  let v193 : BitVec 32 := Scalar.addi c0_i32_209 v192
  v193.toNat
abbrev stage0_0 : Fin 1 → Memref sig .tc .vmem S768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S768x512_S768x512_0_0 : ∀ a, (![0, 0] : Fin 2 → Nat) a + S768x512.size a ≤ S768x512.size a
  h_S768x512 : 0 < S768x512.numel
  shapeCasts_S768x512_S768x512 : S768x512.ShapeCasts S768x512
  reduces_S768x512_S768 : S768x512.Reduces [1] S768
  inb_S4x2x768_S1x1x768_0_0_0 : ∀ a, (![0, 0, 0] : Fin 3 → Nat) a + S1x1x768.size a ≤ S4x2x768.size a
  h_S1x1x768 : 0 < S1x1x768.numel
  shapeCasts_S1x1x768_S768 : S1x1x768.ShapeCasts S768
  shapeCasts_S768_S1x1x768 : S768.ShapeCasts S1x1x768
  inb_S4x2x768_S1x1x768_0_1_0 : ∀ a, (![0, 1, 0] : Fin 3 → Nat) a + S1x1x768.size a ≤ S4x2x768.size a
  hamt_3 : (3#32 : BitVec 32).msb = false
  inb_S4_S1_1 : ∀ a, (![1] : Fin 1 → Nat) a + S1.size a ≤ S4.size a
  squeezes_S1_S_ : S1.Squeezes S_
  inb_S4x2x768_S1x2x768_1_0_0 : ∀ a, (![1, 0, 0] : Fin 3 → Nat) a + S1x2x768.size a ≤ S4x2x768.size a
  squeezes_S1x2x768_S2x768 : S1x2x768.Squeezes S2x768
  inb_S4x2x768_S1x2x768_0_0_0 : ∀ a, (![0, 0, 0] : Fin 3 → Nat) a + S1x2x768.size a ≤ S4x2x768.size a
  inb_S4_S1_2 : ∀ a, (![2] : Fin 1 → Nat) a + S1.size a ≤ S4.size a
  inb_S4x2x768_S1x2x768_2_0_0 : ∀ a, (![2, 0, 0] : Fin 3 → Nat) a + S1x2x768.size a ≤ S4x2x768.size a
  inb_S4_S1_3 : ∀ a, (![3] : Fin 1 → Nat) a + S1.size a ≤ S4.size a
  inb_S4x2x768_S1x2x768_3_0_0 : ∀ a, (![3, 0, 0] : Fin 3 → Nat) a + S1x2x768.size a ≤ S4x2x768.size a
  inb_S4x2x768_S4x2x768_0_0_0 : ∀ a, (![0, 0, 0] : Fin 3 → Nat) a + S4x2x768.size a ≤ S4x2x768.size a
  h_S4x2x768 : 0 < S4x2x768.numel
  reduces_S4x2x768_S2x768 : S4x2x768.Reduces [0] S2x768
  inb_S8x2x768_S1x2x768_0_0_0 : ∀ a, (![0, 0, 0] : Fin 3 → Nat) a + S1x2x768.size a ≤ S8x2x768.size a
  h_S1x2x768 : 0 < S1x2x768.numel
  shapeCasts_S1x2x768_S2x768 : S1x2x768.ShapeCasts S2x768
  shapeCasts_S2x768_S1x2x768 : S2x768.ShapeCasts S1x2x768
  hamt_7 : (7#32 : BitVec 32).msb = false
  inb_S8_S1_1 : ∀ a, (![1] : Fin 1 → Nat) a + S1.size a ≤ S8.size a
  inb_S8x2x768_S1x2x768_1_0_0 : ∀ a, (![1, 0, 0] : Fin 3 → Nat) a + S1x2x768.size a ≤ S8x2x768.size a
  inb_S8_S1_2 : ∀ a, (![2] : Fin 1 → Nat) a + S1.size a ≤ S8.size a
  inb_S8x2x768_S1x2x768_2_0_0 : ∀ a, (![2, 0, 0] : Fin 3 → Nat) a + S1x2x768.size a ≤ S8x2x768.size a
  inb_S8_S1_3 : ∀ a, (![3] : Fin 1 → Nat) a + S1.size a ≤ S8.size a
  inb_S8x2x768_S1x2x768_3_0_0 : ∀ a, (![3, 0, 0] : Fin 3 → Nat) a + S1x2x768.size a ≤ S8x2x768.size a
  inb_S8_S1_4 : ∀ a, (![4] : Fin 1 → Nat) a + S1.size a ≤ S8.size a
  inb_S8x2x768_S1x2x768_4_0_0 : ∀ a, (![4, 0, 0] : Fin 3 → Nat) a + S1x2x768.size a ≤ S8x2x768.size a
  inb_S8_S1_5 : ∀ a, (![5] : Fin 1 → Nat) a + S1.size a ≤ S8.size a
  inb_S8x2x768_S1x2x768_5_0_0 : ∀ a, (![5, 0, 0] : Fin 3 → Nat) a + S1x2x768.size a ≤ S8x2x768.size a
  inb_S8_S1_6 : ∀ a, (![6] : Fin 1 → Nat) a + S1.size a ≤ S8.size a
  inb_S8x2x768_S1x2x768_6_0_0 : ∀ a, (![6, 0, 0] : Fin 3 → Nat) a + S1x2x768.size a ≤ S8x2x768.size a
  inb_S8_S1_7 : ∀ a, (![7] : Fin 1 → Nat) a + S1.size a ≤ S8.size a
  inb_S8x2x768_S1x2x768_7_0_0 : ∀ a, (![7, 0, 0] : Fin 3 → Nat) a + S1x2x768.size a ≤ S8x2x768.size a
  inb_S8x2x768_S8x2x768_0_0_0 : ∀ a, (![0, 0, 0] : Fin 3 → Nat) a + S8x2x768.size a ≤ S8x2x768.size a
  h_S8x2x768 : 0 < S8x2x768.numel
  reduces_S8x2x768_S2x768 : S8x2x768.Reduces [0] S2x768
  transposes_S2x768_p1_0_S768x2 : S2x768.Transposes [1, 0] S768x2
  slices_S768x2_o0_0_S768x1 : S768x2.Slices ![0, 0] S768x1
  slices_S768x2_o0_1_S768x1 : S768x2.Slices ![0, 1] S768x1
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S768x1_S768x512 : S768x1.Broadcasts S768x512
  broadcasts_S1x512_S768x512 : S1x512.Broadcasts S768x512
  hcc0_scratch6 : 0 + S_.numel ≤ 2
  hcc0_scratch2 : 4 + S4.numel ≤ 28
  hcc0_scratch3 : 8 + S4.numel ≤ 28
  hcc0_scratch4 : 12 + S8.numel ≤ 28
  hcc0_scratch5 : 20 + S8.numel ≤ 28
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch6 : Sems sig S_ := SemArray.consecutive 0 S_ hcc0_scratch6
abbrev cc0_scratch2 : DmaSems sig S4 := SemArray.consecutive 4 S4 hcc0_scratch2
abbrev cc0_scratch3 : DmaSems sig S4 := SemArray.consecutive 8 S4 hcc0_scratch3
abbrev cc0_scratch4 : DmaSems sig S8 := SemArray.consecutive 12 S8 hcc0_scratch4
abbrev cc0_scratch5 : DmaSems sig S8 := SemArray.consecutive 20 S8 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S768x16384 : Shape := ⟨2, ![768, 16384]⟩
abbrev S16384 : Shape := ⟨1, ![16384]⟩
abbrev S_ : Shape := ⟨0, ![]⟩
abbrev S768 : Shape := ⟨1, ![768]⟩
abbrev S768x1 : Shape := ⟨2, ![768, 1]⟩
abbrev S1x16384 : Shape := ⟨2, ![1, 16384]⟩

abbrev nBuf : Space → Nat
  | .hbm => 47
  | .vmem => 0
  | .smem => 0
  | _ => 0

abbrev bufTy : (tb : Table) → Fin (tcTables nBuf tb) → BufTy
  | .hbm, ⟨0, _⟩ => ⟨S768x16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S768, .f32⟩
  | .hbm, ⟨5, _⟩ => ⟨S768x1, .f32⟩
  | .hbm, ⟨6, _⟩ => ⟨S_, .f32⟩
  | .hbm, ⟨7, _⟩ => ⟨S768x1, .f32⟩
  | .hbm, ⟨8, _⟩ => ⟨S768x1, .f32⟩
  | .hbm, ⟨9, _⟩ => ⟨S_, .i32⟩
  | .hbm, ⟨10, _⟩ => ⟨S_, .f32⟩
  | .hbm, ⟨11, _⟩ => ⟨S768, .f32⟩
  | .hbm, ⟨12, _⟩ => ⟨S768x1, .f32⟩
  | .hbm, ⟨13, _⟩ => ⟨S_, .f32⟩
  | .hbm, ⟨14, _⟩ => ⟨S768x1, .f32⟩
  | .hbm, ⟨15, _⟩ => ⟨S768x1, .f32⟩
  | .hbm, ⟨16, _⟩ => ⟨S768x16384, .f32⟩
  | .hbm, ⟨17, _⟩ => ⟨S768x16384, .f32⟩
  | .hbm, ⟨18, _⟩ => ⟨S768x16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S768, .f32⟩
  | .hbm, ⟨24, _⟩ => ⟨S768x1, .f32⟩
  | .hbm, ⟨25, _⟩ => ⟨S768x1, .f32⟩
  | .hbm, ⟨26, _⟩ => ⟨S768x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S768x1, .f32⟩
  | .hbm, ⟨32, _⟩ => ⟨S768x1, .f32⟩
  | .hbm, ⟨33, _⟩ => ⟨S768x16384, .f32⟩
  | .hbm, ⟨34, _⟩ => ⟨S768x16384, .f32⟩
  | .hbm, ⟨35, _⟩ => ⟨S1x16384, .f32⟩
  | .hbm, ⟨36, _⟩ => ⟨S768x16384, .f32⟩
  | .hbm, ⟨37, _⟩ => ⟨S768x16384, .f32⟩
  | .hbm, ⟨38, _⟩ => ⟨S_, .f32⟩
  | .hbm, ⟨39, _⟩ => ⟨S768x1, .f32⟩
  | .hbm, ⟨40, _⟩ => ⟨S768x1, .f32⟩
  | .hbm, ⟨41, _⟩ => ⟨S768x1, .f32⟩
  | .hbm, ⟨42, _⟩ => ⟨S768x16384, .f32⟩
  | .hbm, ⟨43, _⟩ => ⟨S768x16384, .f32⟩
  | .hbm, ⟨44, _⟩ => ⟨S1x16384, .f32⟩
  | .hbm, ⟨45, _⟩ => ⟨S768x16384, .f32⟩
  | .hbm, ⟨46, _⟩ => ⟨S768x16384, .f32⟩
  | _, _ => ⟨S768x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]

class Facts₀ : Prop where
  reducesTo_S768x16384_S768_d1 : S768x16384.ReducesTo [1] S768
  h_S_ : 0 < S_.numel
  bcast_S768_S768x1_0 : S768.BroadcastsInDim S768x1 (![0] : Fin 1 → Fin S768x1.rank)
  bcast_S_S768x1 : S_.BroadcastsInDim S768x1 (![] : Fin 0 → Fin S768x1.rank)
  bcast_S768x1_S768x16384_0_1 : S768x1.BroadcastsInDim S768x16384 (![0, 1] : Fin 2 → Fin S768x16384.rank)
  bcast_S16384_S1x16384_1 : S16384.BroadcastsInDim S1x16384 (![1] : Fin 1 → Fin S1x16384.rank)
  bcast_S1x16384_S768x16384_0_1 : S1x16384.BroadcastsInDim S768x16384 (![0, 1] : Fin 2 → Fin S768x16384.rank)

variable [Facts₀]

class Facts : Prop extends Facts₀ where

variable [Facts]
-- ==== Proof.Peers.lean ====
/-
  The peers of a device on the 32-device mesh. The kernel reaches its peers by flipping bits of its own
  position: the three peers that differ in the two high bits (offsets 8, 16, 24) and the seven that differ in the
  three low bits (offsets 1 … 7). Flipping is an involution, and flipping low and high bits together reaches every device.
-/
import Mathlib.Data.Nat.Bitwise
import Mathlib.Data.Fintype.Basic

namespace Cert.LN

/-- Device `c` with the bits of `o` flipped. -/
def xorD (c o : Fin 32) : Fin 32 := ⟨c.val ^^^ o.val, Nat.xor_lt_two_pow (n := 5) c.isLt o.isLt⟩

/-- The peer that differs from `c` in the high bits by `8 * f` (`f = 0` is `c` itself). -/
def xz (c : Fin 32) (f : Fin 4) : Fin 32 := xorD c ⟨8 * f.val, by omega⟩

/-- The peer that differs from `c` in the low bits by `e` (`e = 0` is `c` itself). -/
def xp (c : Fin 32) (e : Fin 8) : Fin 32 := xorD c ⟨e.val, by omega⟩

theorem xorD_xorD (c o : Fin 32) : xorD (xorD c o) o = c := by revert c o; decide
theorem xz_xz (c : Fin 32) (f : Fin 4) : xz (xz c f) f = c := xorD_xorD _ _
theorem xp_xp (c : Fin 32) (e : Fin 8) : xp (xp c e) e = c := xorD_xorD _ _
theorem xz_zero (c : Fin 32) : xz c 0 = c := by revert c; decide
theorem xp_zero (c : Fin 32) : xp c 0 = c := by revert c; decide

end Cert.LN
-- ==== Proof.Spec.lean ====
/-
  Layer normalisation of a [768, 16384] array along its rows, written twice over plain index functions on the
  extended reals.

  `refForm`: the two-pass form. The row mean is the row sum over 16384; the variance is the mean of the squared
  deviations from that mean; the result is `g · (x − mean) / sqrt (var + eps) + b`.

  `kerForm`: the form the 32 devices compute. Device `d` holds columns `512 d … 512 d + 511`. It sums its own
  512 columns of each row (and of the squares), adds the sums of the three peers that differ from it in the high
  bits, then adds what the seven peers that differ in the low bits obtained the same way. The mean is that total
  times 2⁻¹⁴, the variance the total of squares times 2⁻¹⁴ minus the mean squared, and the result
  `g · ((x − mean) · rsqrt (var + eps)) + b`.

  For finite entries the two agree: the 4 × 8 peers are all 32 devices, so the nested sums are the whole row's; the
  mean of squared deviations is the mean of squares minus the squared mean; the variance is not negative, so
  `var + eps` is a positive real, where `rsqrt` is the reciprocal of `sqrt` and the quotient is the product with it.
-/
import Idealize.ShloMosaic.PureOps.Ideal
import proofs.«900545_g7700000000000546_dist_layernorm_colshard_i_m768_n512_v7x_i32_f32_1_alg».proof.Proof.Peers

noncomputable section

namespace Cert.LN

open Idealize.ShloMosaic

/-- The three float constants of the two programs, as the words they are printed with. -/
def epsW : EReal := Ideal.ofBits .f32 0x3727C5AC#32
def invNW : EReal := Ideal.ofBits .f32 0x38800000#32
def nW : EReal := Ideal.ofBits .f32 0x46800000#32

/-- Column `k` of device `d`'s block is column `512 d + k` of the whole array. -/
def col (d : Fin 32) (k : Fin 512) : Fin 16384 := ⟨d.val * 512 + k.val, by omega⟩

/-- The reference's row mean. -/
def refMean (x : Fin 768 → Fin 16384 → EReal) (r : Fin 768) : EReal := Ideal.div (∑ k : Fin 16384, x r k) nW
/-- The reference's row variance: the mean of the squared deviations. -/
def refVar (x : Fin 768 → Fin 16384 → EReal) (r : Fin 768) : EReal :=
  Ideal.div (∑ k : Fin 16384, (x r k - refMean x r) * (x r k - refMean x r)) nW
/-- The reference's result at row `r`, column `k`. -/
def refForm (x : Fin 768 → Fin 16384 → EReal) (g b : Fin 16384 → EReal) (r : Fin 768) (k : Fin 16384) : EReal :=
  Ideal.div (g k * (x r k - refMean x r)) (Ideal.sqrt (refVar x r + epsW)) + b k

/-- Device `d`'s sum of its 512 columns of row `r`, and of their squares. -/
def s1 (X : Fin 32 → Fin 768 → Fin 512 → EReal) (d : Fin 32) (r : Fin 768) : EReal := ∑ k : Fin 512, X d r k
def s2 (X : Fin 32 → Fin 768 → Fin 512 → EReal) (d : Fin 32) (r : Fin 768) : EReal := ∑ k : Fin 512, X d r k * X d r k
/-- The sums of the four devices that agree with `d` in the low bits. -/
def z1 (X : Fin 32 → Fin 768 → Fin 512 → EReal) (d : Fin 32) (r : Fin 768) : EReal := ∑ f : Fin 4, s1 X (xz d f) r
def z2 (X : Fin 32 → Fin 768 → Fin 512 → EReal) (d : Fin 32) (r : Fin 768) : EReal := ∑ f : Fin 4, s2 X (xz d f) r
/-- The totals device `c` ends with: what the eight devices that agree with it in the high bits each obtained. -/
def t1 (X : Fin 32 → Fin 768 → Fin 512 → EReal) (c : Fin 32) (r : Fin 768) : EReal := ∑ e : Fin 8, z1 X (xp c e) r
def t2 (X : Fin 32 → Fin 768 → Fin 512 → EReal) (c : Fin 32) (r : Fin 768) : EReal := ∑ e : Fin 8, z2 X (xp c e) r
def kerMean (X : Fin 32 → Fin 768 → Fin 512 → EReal) (c : Fin 32) (r : Fin 768) : EReal := t1 X c r * invNW
def kerVar (X : Fin 32 → Fin 768 → Fin 512 → EReal) (c : Fin 32) (r : Fin 768) : EReal :=
  t2 X c r * invNW - kerMean X c r * kerMean X c r
/-- Device `c`'s result at row `r`, column `j` of its block. -/
def kerForm (X : Fin 32 → Fin 768 → Fin 512 → EReal) (G B : Fin 32 → Fin 512 → EReal) (c : Fin 32) (r : Fin 768) (j : Fin 512) : EReal :=
  G c j * ((X c r j - kerMean X c r) * Ideal.rsqrt (kerVar X c r + epsW)) + B c j

end Cert.LN

end
-- ==== Proof.PreFin.lean ====
/-
  Finiteness of the argument arrays, read out of the precondition, and where an entry of a device's block lies in
  the whole array.

  The precondition is the conjunction of three tests "every entry has absolute value below plus infinity", one per
  argument buffer of a device. An extended real whose absolute value is below plus infinity is a real number. Device
  `c` holds columns `512 c … 512 c + 511` of a [768, 16384] array (entries `512 c … 512 c + 511` of a [16384] array), and
  every column lies in exactly one device's block, so what holds of every entry of every block holds of every
  entry of the whole array.
-/
import proofs.«900545_g7700000000000546_dist_layernorm_colshard_i_m768_n512_v7x_i32_f32_1_alg».proof.Defs
import proofs.«900545_g7700000000000546_dist_layernorm_colshard_i_m768_n512_v7x_i32_f32_1_alg».proof.Proof.Gen.Pre_finite_inputs_Kernel
import proofs.«900545_g7700000000000546_dist_layernorm_colshard_i_m768_n512_v7x_i32_f32_1_alg».proof.Proof.Spec
import Idealize.ShloMosaic.Lib.ReduceAll
import Idealize.ShloMosaic.Lib.ValueIdx
import Idealize.ShloMosaic.Lib.Layout
import Idealize.ShloMosaic.PureOps.Ideal

noncomputable section

namespace Cert.PreFin

open Idealize.ShloMosaic Idealize.SL.Sem

/-- The scalar shape has one index. -/
instance : Subsingleton Cert.Pre_finite_inputs_Kernel.S_.Idx := ⟨fun a b => funext fun d => d.elim0⟩

/-- The word `0x7F800000` is plus infinity. -/
theorem inf_word : Ideal.ofBits .f32 0x7F800000#32 = (⊤ : EReal) := by
  simp [Ideal.ofBits, Ideal.ieee]

/-- An extended real whose absolute value compares below plus infinity is a real number. -/
theorem real_of_abs_lt (x : EReal)
    (h : Ideal.cmp .olt (max x (-x)) (Ideal.ofBits .f32 0x7F800000#32) = 1#1) : ∃ v : ℝ, x = (v : EReal) := by
  rw [inf_word] at h
  induction x using EReal.rec with
  | bot => simp [Ideal.cmp] at h
  | coe v => exact ⟨v, rfl⟩
  | top => simp [Ideal.cmp] at h

/-- One test of the precondition: if the conjunction over all entries of "absolute value below plus infinity" is
    one, every entry is a real number. -/
theorem all_real {S : Shape} {axes : List (Fin S.rank)} (x : FVec Ideal S .f32)
    (bc : Cert.Pre_finite_inputs_Kernel.S_.BroadcastsInDim S (![] : Fin 0 → Fin S.rank))
    (red : S.ReducesTo axes Cert.Pre_finite_inputs_Kernel.S_) (hu : 0 < Cert.Pre_finite_inputs_Kernel.S_.numel)
    (e : Host.reduce IntOp.andi
          (cmpf .olt (Host.absf x)
            (broadcastInDim S ![] bc (constant (F := Ideal) Cert.Pre_finite_inputs_Kernel.S_ .f32 0x7F800000#32)))
          (constantI Cert.Pre_finite_inputs_Kernel.S_ 1 1#1) red hu ValueIdx.ix0 = 1#1) :
    ∀ i, ∃ v : ℝ, x i = (v : EReal) := by
  intro i
  have hi := Host.reduce_andi_all _ _ red hu ValueIdx.ix0 e i
  exact real_of_abs_lt (x i) hi

/-- Under the precondition every entry of every argument buffer of every device is a real number. -/
theorem block_finite (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ v : ℝ, m ((c.tc : Thread _ _).loc Cert.KernelIdeal.main_arg0) i = (v : EReal))
    ∧ (∀ i, ∃ v : ℝ, m ((c.tc : Thread _ _).loc Cert.KernelIdeal.main_arg1) i = (v : EReal))
    ∧ (∀ i, ∃ v : ℝ, m ((c.tc : Thread _ _).loc Cert.KernelIdeal.main_arg2) i = (v : EReal)) := by
  have h0 := congrFun (h c) ValueIdx.ix0
  dsimp only [Cert.Pre_finite_inputs_Kernel.fn] at h0
  obtain ⟨h01, h2⟩ := IntOp.andi_eq_one.1 h0
  obtain ⟨h0', h1⟩ := IntOp.andi_eq_one.1 h01
  exact ⟨all_real _ _ _ _ h0', all_real _ _ _ _ h1, all_real _ _ _ _ h2⟩

/-- Row `r`, column `k` of device `c`'s block of a [768, 16384] array cut along its columns is row `r`, column
    `512 c + k` of the whole array. -/
theorem block2_apply {α : Type} (c : Fin 32) (v : (⟨2, ![768, 16384]⟩ : Shape).Idx → α) (r : Fin 768) (k : Fin 512) :
    (Layout.block ⟨2, ![768, 512]⟩ ⟨2, ![768, 16384]⟩ 1 32 c v) (ValueIdx.ix2 r k) = v (ValueIdx.ix2 r (Cert.LN.col c k)) := by
  rw [Layout.block_apply]
  refine congrArg v (funext fun a => ?_)
  match a with
  | ⟨0, _⟩ => exact Fin.ext rfl
  | ⟨1, _⟩ => exact Fin.ext rfl

/-- Entry `k` of device `c`'s block of a [16384] array is entry `512 c + k` of the whole array. -/
theorem block1_apply {α : Type} (c : Fin 32) (v : (⟨1, ![16384]⟩ : Shape).Idx → α) (k : Fin 512) :
    (Layout.block ⟨1, ![512]⟩ ⟨1, ![16384]⟩ 0 32 c v) (ValueIdx.ix1 k) = v (ValueIdx.ix1 (Cert.LN.col c k)) := by
  rw [Layout.block_apply]
  refine congrArg v (funext fun a => ?_)
  match a with
  | ⟨0, _⟩ => exact Fin.ext rfl

/-- Every column of the whole array is a column of some device's block. -/
theorem col_surj (k : Fin 16384) : ∃ (c : Fin 32) (j : Fin 512), k = Cert.LN.col c j :=
  ⟨⟨k.val / 512, by omega⟩, ⟨k.val % 512, by omega⟩, Fin.ext (by show k.val = k.val / 512 * 512 + k.val % 512; omega)⟩

/-- If every entry of every device's block is a real number, so is every entry of the whole [768, 16384] array. -/
theorem whole_finite (x : (⟨2, ![768, 16384]⟩ : Shape).Idx → EReal)
    (hx : ∀ c : Fin 32, ∀ i, ∃ v : ℝ, (Layout.block ⟨2, ![768, 512]⟩ ⟨2, ![768, 16384]⟩ 1 32 c x) i = (v : EReal)) :
    ∀ r k, ∃ v : ℝ, x (ValueIdx.ix2 r k) = (v : EReal) := by
  intro r k
  obtain ⟨c, j, rfl⟩ := col_surj k
  have := hx c (ValueIdx.ix2 r j)
  rwa [block2_apply] at this

/-- If every entry of every device's block is a real number, so is every entry of the whole [16384] array. -/
theorem whole_finite1 (g : (⟨1, ![16384]⟩ : Shape).Idx → EReal)
    (hg : ∀ c : Fin 32, ∀ i, ∃ v : ℝ, (Layout.block ⟨1, ![512]⟩ ⟨1, ![16384]⟩ 0 32 c g) i = (v : EReal)) :
    ∀ k, ∃ v : ℝ, g (ValueIdx.ix1 k) = (v : EReal) := by
  intro k
  obtain ⟨c, j, rfl⟩ := col_surj k
  have := hg c (ValueIdx.ix1 j)
  rwa [block1_apply] at this

/-- Under the precondition, when each device's argument buffers are its blocks of the whole arrays, every entry of
    the three whole arrays is a real number. -/
theorem whole_args_finite
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal m)
    (hagree : ∀ c : Dev Cert.KernelIdeal.nD,
      m ((c.tc : Thread Cert.KernelIdeal.nD Cert.KernelIdeal.τ).loc Cert.KernelIdeal.main_arg0) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg2))) :
    (∀ (r : Fin 768) (k : Fin 16384), ∃ v : ℝ, m' (((0 : Dev Cert.ReferenceIdeal.nD).tc : Thread Cert.ReferenceIdeal.nD Cert.ReferenceIdeal.τ).loc Cert.ReferenceIdeal.main_arg0) (ValueIdx.ix2 r k) = (v : EReal))
    ∧ (∀ k : Fin 16384, ∃ v : ℝ, m' (((0 : Dev Cert.ReferenceIdeal.nD).tc : Thread Cert.ReferenceIdeal.nD Cert.ReferenceIdeal.τ).loc Cert.ReferenceIdeal.main_arg1) (ValueIdx.ix1 k) = (v : EReal))
    ∧ (∀ k : Fin 16384, ∃ v : ℝ, m' (((0 : Dev Cert.ReferenceIdeal.nD).tc : Thread Cert.ReferenceIdeal.nD Cert.ReferenceIdeal.τ).loc Cert.ReferenceIdeal.main_arg2) (ValueIdx.ix1 k) = (v : EReal)) := by
  refine ⟨whole_finite _ fun c i => ?_, whole_finite1 _ fun c i => ?_, whole_finite1 _ fun c i => ?_⟩
  · have := (block_finite m h c).1 i
    rwa [(hagree c).1] at this
  · have := (block_finite m h c).2.1 i
    rwa [(hagree c).2.1] at this
  · have := (block_finite m h c).2.2 i
    rwa [(hagree c).2.2] at this

end Cert.PreFin

end
-- ==== Proof.KVal.lean ====
/-
  What a device's two exchange buffers and its result hold, as functions of every device's block of `x`.

  Slot `f` of the first buffer holds the row sums (row 0) and the row sums of squares (row 1) of the block of the peer
  that differs in the high bits by `8 f`; slot 0 is the device's own. Slot `e` of the second buffer holds, for the peer
  that differs in the low bits by `e`, the sum of that peer's four first-buffer slots. The result is the normalised
  block computed from the sum of the eight second-buffer slots.
-/
import proofs.«900545_g7700000000000546_dist_layernorm_colshard_i_m768_n512_v7x_i32_f32_1_alg».proof.Proof.Gen.KernelIdeal.Skeleton
import proofs.«900545_g7700000000000546_dist_layernorm_colshard_i_m768_n512_v7x_i32_f32_1_alg».proof.Proof.Peers
import proofs.«900545_g7700000000000546_dist_layernorm_colshard_i_m768_n512_v7x_i32_f32_1_alg».proof.Proof.Spec
import Idealize.ShloMosaic.Lib.ValueIdx

noncomputable section

namespace Cert.KernelIdeal.KVal

open Cert.KernelIdeal Cert.KernelIdeal.Gen Cert.LN
open Idealize.ShloMosaic Idealize.ShloMosaic.ValueIdx

variable {F : FTy → Type} [FloatOps F]

/-- The first exchange buffer of device `c` once its three landings are in. -/
def C1 (X : Dev nD → Vec F S768x512 .f32) (c : Dev nD) : Vec F S4x2x768 .f32 := fun i =>
  if (i 1).val = 0 then k0_pay3 (X (xz c (i 0))) (ix3 0 0 (i 2)) else k0_pay4 (X (xz c (i 0))) (ix3 0 0 (i 2))

/-- The second exchange buffer of device `c` once its seven landings are in. -/
def C2 (X : Dev nD → Vec F S768x512 .f32) (c : Dev nD) : Vec F S8x2x768 .f32 := fun i =>
  k0_pay5 (C1 X (xp c (i 0))) (ix3 0 (i 1) (i 2))

/-- The block device `c` writes to its result. -/
def OUT (X : Dev nD → Vec F S768x512 .f32) (G B : Dev nD → Vec F S512 .f32) (c : Dev nD) : FVec F S768x512 .f32 :=
  k0_pay1 (k0_pay2 (X c)) (k0_pay6 (C2 X c)) (k0_pay7 (C2 X c)) (G c) (B c)

end Cert.KernelIdeal.KVal

end
-- ==== Proof.KValApply.lean ====
/-
  The result block of a device read entry by entry.

  Each payload of the kernel is read at an index given by its coordinates: the cast of the block to its own shape is
  the block; the two lane reductions are the row sums of the block and of its squares; the reduction over the four
  slots of the first buffer and over the eight slots of the second are the sums over the slots; the transpose swaps
  the two coordinates; the mean is the first column of the transposed totals times 2⁻¹⁴; and the last payload is
  `g · ((x − mean) · rsqrt (total of squares · 2⁻¹⁴ − mean² + eps)) + b` entry by entry. Put together with what the two
  buffers hold, the result at row `r`, column `j` is the devices' form of the specification.
-/
import proofs.«900545_g7700000000000546_dist_layernorm_colshard_i_m768_n512_v7x_i32_f32_1_alg».proof.Proof.KVal
import Idealize.ShloMosaic.Lib.ValueLayout
import Idealize.ShloMosaic.PureOps.Ideal.Laws

noncomputable section

namespace Cert.KernelIdeal.KVal

open Cert.KernelIdeal Cert.KernelIdeal.Gen Cert.LN
open Idealize.ShloMosaic Idealize.ShloMosaic.ValueIdx
open scoped BigOperators

/-! ## Indices -/

/-- Row `r` with column `k` put back on the reduced axis is the entry `(r, k)`. -/
theorem lift_row (h : S768x512.Reduces [1] S768) (r : Fin 768) (k : Fin 512) :
    h.lift (ix1 r) k = ix2 r k := by
  funext a
  refine Fin.ext ?_
  match a with
  | ⟨0, _⟩ => rfl
  | ⟨1, _⟩ => rfl

/-- Entry `(a, r)` with slot `f` of four put back on the reduced axis is `(f, a, r)`. -/
theorem lift_slot4 (h : S4x2x768.Reduces [0] S2x768) (a : Fin 2) (r : Fin 768) (f : Fin 4) :
    h.lift (ix2 a r) f = ix3 f a r := by
  funext x
  refine Fin.ext ?_
  match x with
  | ⟨0, _⟩ => rfl
  | ⟨1, _⟩ => rfl
  | ⟨2, _⟩ => rfl

/-- Entry `(a, r)` with slot `e` of eight put back on the reduced axis is `(e, a, r)`. -/
theorem lift_slot8 (h : S8x2x768.Reduces [0] S2x768) (a : Fin 2) (r : Fin 768) (e : Fin 8) :
    h.lift (ix2 a r) e = ix3 e a r := by
  funext x
  refine Fin.ext ?_
  match x with
  | ⟨0, _⟩ => rfl
  | ⟨1, _⟩ => rfl
  | ⟨2, _⟩ => rfl

/-- One column broadcast over many: an `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 512 entries cast to itself, then to one row, then laid along each of the 768 rows reads, at `(r, j)`, its entry `j`. -/
theorem row_apply (g : Vec Ideal S512 .f32) (h0 : S512.ShapeCasts S512) (h1 : S512.ShapeCasts S1x512)
    (h2 : S1x512.Broadcasts S768x512) (r : Fin 768) (j : Fin 512) :
    broadcastTo S768x512 (shapeCast S1x512 (shapeCast S512 g h0) h1) h2 (ix2 r j) = g (ix1 j) := by
  refine (broadcastTo_1b_ab_apply _ h2 r j).trans ?_
  refine (shapeCast_a_1a_apply _ h1 (0 : Fin 1) j).trans ?_
  rw [shapeCast_self]

/-! ## The payloads at an index -/

/-- The block cast to its own shape is the block. -/
theorem pay2_eq (v : Vec Ideal S768x512 .f32) : k0_pay2 v = v := by
  unfold k0_pay2
  exact shapeCast_self v _

/-- The first lane reduction at row `r`: the sum of the block's row `r`. -/
theorem pay3_apply (v : Vec Ideal S768x512 .f32) (r : Fin 768) :
    k0_pay3 v (ix3 (0 : Fin 1) (0 : Fin 1) r) = ∑ k : Fin 512, v (ix2 r k) := by
  unfold k0_pay3
  rw [pay2_eq]
  refine (shapeCast_apply _ _ _ (ix1 r) ?_).trans ?_
  · rw [Shape.rowMajor_val_three, Shape.rowMajor_val_one]
    show r.val = ((0 * 1 + 0) * 768 + r.val)
    omega
  · refine (Ideal.multiReduction_add_single _ _ _ _ _ (ix1 r)).trans ?_
    refine Finset.sum_congr rfl fun k _ => ?_
    exact congrArg v (lift_row _ r k)

/-- The second lane reduction at row `r`: the sum of the squares of the block's row `r`. -/
theorem pay4_apply (v : Vec Ideal S768x512 .f32) (r : Fin 768) :
    k0_pay4 v (ix3 (0 : Fin 1) (0 : Fin 1) r) = ∑ k : Fin 512, v (ix2 r k) * v (ix2 r k) := by
  unfold k0_pay4
  rw [pay2_eq]
  refine (shapeCast_apply _ _ _ (ix1 r) ?_).trans ?_
  · rw [Shape.rowMajor_val_three, Shape.rowMajor_val_one]
    show r.val = ((0 * 1 + 0) * 768 + r.val)
    omega
  · refine (Ideal.multiReduction_add_single _ _ _ _ _ (ix1 r)).trans ?_
    refine Finset.sum_congr rfl fun k _ => ?_
    rw [lift_row _ r k]
    rfl

/-- The reduction of the first buffer over its four slots, at `(a, r)`. -/
theorem pay5_apply (v : Vec Ideal S4x2x768 .f32) (a : Fin 2) (r : Fin 768) :
    k0_pay5 v (ix3 (0 : Fin 1) a r) = ∑ f : Fin 4, v (ix3 f a r) := by
  unfold k0_pay5
  refine (shapeCast_ab_1ab_apply _ _ (0 : Fin 1) a r).trans ?_
  refine (Ideal.multiReduction_add_single _ _ _ _ _ (ix2 a r)).trans ?_
  refine Finset.sum_congr rfl fun f _ => ?_
  exact congrArg v (lift_slot4 _ a r f)

/-- The reduction of the second buffer over its eight slots, transposed, at `(r, a)`. -/
theorem pay6_apply (v : Vec Ideal S8x2x768 .f32) (r : Fin 768) (a : Fin 2) :
    k0_pay6 v (ix2 r a) = ∑ e : Fin 8, v (ix3 e a r) := by
  unfold k0_pay6
  refine (transpose_ix2_apply _ _ r a).trans ?_
  refine (Ideal.multiReduction_add_single _ _ _ _ _ (ix2 a r)).trans ?_
  refine Finset.sum_congr rfl fun e _ => ?_
  exact congrArg v (lift_slot8 _ a r e)

/-- The mean at row `r`: the first column of the transposed totals times 2⁻¹⁴. -/
theorem pay7_apply (v : Vec Ideal S8x2x768 .f32) (r : Fin 768) :
    k0_pay7 v (ix2 r (0 : Fin 1)) = k0_pay6 v (ix2 r (0 : Fin 2)) * invNW := by
  unfold k0_pay7
  rw [mulf_apply, broadcast_apply]
  refine congrArg (· * _) ?_
  exact slice2_axis1_apply 0 _ _ r (0 : Fin 1) (0 : Fin 2) rfl

/-- The normalised block at `(r, j)`, from the block `x`, the transposed totals `s`, the mean `m`, the scale `g` and the shift `b`. -/
theorem pay1_apply (x : FVec Ideal S768x512 .f32) (s : FVec Ideal S768x2 .f32) (m : FVec Ideal S768x1 .f32)
    (g b : Vec Ideal S512 .f32) (r : Fin 768) (j : Fin 512) :
    k0_pay1 x s m g b (ix2 r j)
      = g (ix1 j) * ((x (ix2 r j) - m (ix2 r (0 : Fin 1)))
          * Ideal.rsqrt (s (ix2 r (1 : Fin 2)) * invNW - m (ix2 r (0 : Fin 1)) * m (ix2 r (0 : Fin 1)) + epsW))
        + b (ix1 j) := by
  unfold k0_pay1
  rw [addf_apply, mulf_apply, mulf_apply, subf_apply, row_apply, row_apply, broadcastTo_a1_ab_apply,
    broadcastTo_a1_ab_apply]
  refine congrArg (fun t => g (ix1 j) * ((x (ix2 r j) - m (ix2 r (0 : Fin 1))) * t) + b (ix1 j)) ?_
  show Ideal.rsqrt _ = _
  refine congrArg Ideal.rsqrt ?_
  refine congrArg (fun t => t * invNW - m (ix2 r (0 : Fin 1)) * m (ix2 r (0 : Fin 1)) + epsW) ?_
  exact slice2_axis1_apply 1 s _ r (0 : Fin 1) (1 : Fin 2) rfl

/-! ## The two buffers at an index -/

/-- Row 0 of slot `f` of the first buffer: the row sums of the block of the peer `xz d f`. -/
theorem C1_apply0 (X : Dev nD → Vec Ideal S768x512 .f32) (d : Dev nD) (f : Fin 4) (r : Fin 768) :
    C1 X d (ix3 f (0 : Fin 2) r) = ∑ k : Fin 512, X (xz d f) (ix2 r k) := by
  unfold C1
  refine (if_pos ?_).trans ?_
  · rfl
  · exact pay3_apply _ r

/-- Row 1 of slot `f` of the first buffer: the row sums of squares of the block of the peer `xz d f`. -/
theorem C1_apply1 (X : Dev nD → Vec Ideal S768x512 .f32) (d : Dev nD) (f : Fin 4) (r : Fin 768) :
    C1 X d (ix3 f (1 : Fin 2) r) = ∑ k : Fin 512, X (xz d f) (ix2 r k) * X (xz d f) (ix2 r k) := by
  unfold C1
  refine (if_neg ?_).trans ?_
  · exact Nat.one_ne_zero
  · exact pay4_apply _ r

/-- Slot `e` of the second buffer: the sum of the four first-buffer slots of the peer `xp c e`. -/
theorem C2_apply (X : Dev nD → Vec Ideal S768x512 .f32) (c : Dev nD) (e : Fin 8) (a : Fin 2) (r : Fin 768) :
    C2 X c (ix3 e a r) = ∑ f : Fin 4, C1 X (xp c e) (ix3 f a r) := by
  unfold C2
  exact pay5_apply _ a r

/-- The first column of the transposed totals is the total of the row sums over the 8 × 4 peers. -/
theorem pay6_C2_0 (X : Dev nD → Vec Ideal S768x512 .f32) (c : Dev nD) (r : Fin 768) :
    k0_pay6 (C2 X c) (ix2 r (0 : Fin 2)) = t1 (fun d r k => X d (ix2 r k)) c r := by
  rw [pay6_apply]
  unfold t1 z1 s1
  refine Finset.sum_congr rfl fun e _ => ?_
  rw [C2_apply]
  refine Finset.sum_congr rfl fun f _ => ?_
  exact C1_apply0 X (xp c e) f r

/-- The second column of the transposed totals is the total of the row sums of squares over the 8 × 4 peers. -/
theorem pay6_C2_1 (X : Dev nD → Vec Ideal S768x512 .f32) (c : Dev nD) (r : Fin 768) :
    k0_pay6 (C2 X c) (ix2 r (1 : Fin 2)) = t2 (fun d r k => X d (ix2 r k)) c r := by
  rw [pay6_apply]
  unfold t2 z2 s2
  refine Finset.sum_congr rfl fun e _ => ?_
  rw [C2_apply]
  refine Finset.sum_congr rfl fun f _ => ?_
  exact C1_apply1 X (xp c e) f r

/-! ## The result block at an index -/

/-- On the extended reals the result block, entry by entry, is the devices' form of the specification. -/
theorem OUT_apply' (X : Dev nD → Vec Ideal S768x512 .f32) (G B : Dev nD → Vec Ideal S512 .f32) (c : Dev nD) (r : Fin 768) (j : Fin 512) :
    OUT X G B c (ix2 r j)
      = kerForm (fun d r k => X d (ix2 r k)) (fun d k => G d (ix1 k)) (fun d k => B d (ix1 k)) c r j := by
  unfold OUT
  rw [pay1_apply, pay7_apply, pay6_C2_0, pay6_C2_1, pay2_eq]
  rfl

end Cert.KernelIdeal.KVal

end
-- ==== Proof.RefRun.lean ====
/-
  The two-pass layer normalisation as a straight line of host operations, and what it leaves.

  The program computes the row mean, calls an outlined variance function (which itself calls an outlined
  select), and finishes with the scaled, shifted quotient. Unfolding the two functions at their calls gives one
  line of forty-four operations, each writing its own buffer. Every weakly fair execution runs that line to
  its end, and the result buffer then holds the composed term of the three arguments: the stages below.
-/
import proofs.«900545_g7700000000000546_dist_layernorm_colshard_i_m768_n512_v7x_i32_f32_1_alg».proof.Proof.Gen.ReferenceIdeal
import Idealize.ShloMosaic.Lib.StableHlo.Run
import Idealize.ShloMosaic.PureOps.Ideal

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-! ## The stages of the composed term -/

/-- The row sums of an array, from the zero word, as a column. -/
def rowSum (y : Vec F S768x16384 .f32) : Vec F S768x1 .f32 :=
  broadcastInDim S768x1 ![0] bcast_S768_S768x1_0
    (Host.reduceAdd y (constant S_ .f32 0x00000000#32) reducesTo_S768x16384_S768_d1 h_S_)

/-- The row means: the row sums over the word of 16384. -/
def meanCol (x : Vec F S768x16384 .f32) : Vec F S768x1 .f32 :=
  Host.divf (rowSum x) (broadcastInDim S768x1 ![] bcast_S_S768x1 (constant S_ .f32 0x46800000#32))

/-- The deviations from the row mean. -/
def devs (x : Vec F S768x16384 .f32) : Vec F S768x16384 .f32 :=
  subf x (broadcastInDim S768x16384 ![0, 1] bcast_S768x1_S768x16384_0_1 (meanCol x))

/-- The variance function's divisor: the word of 16384 less the integer zero converted. -/
def count : Vec F S_ .f32 :=
  subf (constant S_ .f32 0x46800000#32) (sitofp .f32 (constantI S_ 32 0#32))

/-- The row variances: the mean of the squared deviations where the divisor is positive, else the NaN word. -/
def varCol (x : Vec F S768x16384 .f32) : Vec F S768x1 .f32 :=
  select (broadcastInDim S768x1 ![] bcast_S_S768x1 (cmpf .ogt (count (F := F)) (constant S_ .f32 0x00000000#32)))
    (Host.divf (rowSum (mulf (devs x) (devs x))) (broadcastInDim S768x1 ![] bcast_S_S768x1 count))
    (broadcastInDim S768x1 ![] bcast_S_S768x1 (id (constant S_ .f32 0x7FC00000#32)))

/-- A row vector repeated down the 768 rows. -/
def rows (g : Vec F S16384 .f32) : Vec F S768x16384 .f32 :=
  broadcastInDim S768x16384 ![0, 1] bcast_S1x16384_S768x16384_0_1
    (broadcastInDim S1x16384 ![1] bcast_S16384_S1x16384_1 g)

/-- The result: the scaled deviations over the root of the variance plus the eps word, shifted. -/
def refTerm (x : Vec F S768x16384 .f32) (g b : Vec F S16384 .f32) : Vec F S768x16384 .f32 :=
  addf
    (Host.divf (mulf (rows g) (devs x))
      (broadcastInDim S768x16384 ![0, 1] bcast_S768x1_S768x16384_0_1
        (Host.sqrt (addf (varCol x) (broadcastInDim S768x1 ![] bcast_S_S768x1 (constant S_ .f32 0x3727C5AC#32))))))
    (rows b)

/-- The composed term at the ideal values. -/
def refOut (x : Vec Ideal S768x16384 .f32) (g b : Vec Ideal S16384 .f32) : FVec Ideal S768x16384 .f32 :=
  refTerm (F := Ideal) x g b

/-! ## The program is a straight line -/

/-- The operations in order: seven of the main function (the zero, the row sums, the mean, the integer zero), the
    variance function's twenty at its call (over that call's buffers), the select function's three at its call
    inside it, and the main function's last fourteen. -/
abbrev ops : List (HloOp τ sig (Elt F)) :=
  [ nullary main_cst (constant S_ .f32 0x00000000#32),
    binary main_arg0 main_cst main_v0 ((fun x v => Host.reduceAdd x v reducesTo_S768x16384_S768_d1 h_S_) : (⟨S768x16384, .f32⟩ : BufTy).Contents (Elt F) → (⟨S_, .f32⟩ : BufTy).Contents (Elt F) → (⟨S768, .f32⟩ : BufTy).Contents (Elt F)),
    unary main_v0 main_v1 (broadcastInDim S768x1 ![0] bcast_S768_S768x1_0 : (⟨S768, .f32⟩ : BufTy).Contents (Elt F) → (⟨S768x1, .f32⟩ : BufTy).Contents (Elt F)),
    nullary main_cst_0 (constant S_ .f32 0x46800000#32),
    unary main_cst_0 main_v2 (broadcastInDim S768x1 ![] bcast_S_S768x1 : (⟨S_, .f32⟩ : BufTy).Contents (Elt F) → (⟨S768x1, .f32⟩ : BufTy).Contents (Elt F)),
    binary main_v1 main_v2 main_v3 (Host.divf : (⟨S768x1, .f32⟩ : BufTy).Contents (Elt F) → (⟨S768x1, .f32⟩ : BufTy).Contents (Elt F) → (⟨S768x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S768x16384_S768_d1 h_S_),
    TRef.unary main_call0.v0 main_call0.v1 (broadcastInDim S768x1 ![0] bcast_S768_S768x1_0),
    TRef.nullary main_call0.cst_0 (constant S_ .f32 0x46800000#32),
    TRef.unary main_call0.cst_0 main_call0.v2 (broadcastInDim S768x1 ![] bcast_S_S768x1),
    TRef.binary main_call0.v1 main_call0.v2 main_call0.v3 Host.divf,
    TRef.unary main_call0.v3 main_call0.v4 (broadcastInDim S768x16384 ![0, 1] bcast_S768x1_S768x16384_0_1),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S768x16384_S768_d1 h_S_),
    TRef.unary main_call0.v9 main_call0.v10 (broadcastInDim S768x1 ![0] bcast_S768_S768x1_0),
    TRef.unary main_call0.v8 main_call0.v11 (broadcastInDim S768x1 ![] bcast_S_S768x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S768x1 ![] bcast_S_S768x1),
    TRef.ternary main_call0.v13 main_call0.v12 main_call0.call0.v1 main_call0.call0.v2 (fun p a b => select (broadcastInDim S768x1 ![] bcast_S_S768x1 p) a b),
    unary main_v3 main_v5 (broadcastInDim S768x16384 ![0, 1] bcast_S768x1_S768x16384_0_1 : (⟨S768x1, .f32⟩ : BufTy).Contents (Elt F) → (⟨S768x16384, .f32⟩ : BufTy).Contents (Elt F)),
    binary main_arg0 main_v5 main_v6 (subf : (⟨S768x16384, .f32⟩ : BufTy).Contents (Elt F) → (⟨S768x16384, .f32⟩ : BufTy).Contents (Elt F) → (⟨S768x16384, .f32⟩ : BufTy).Contents (Elt F)),
    unary main_arg1 main_v7 (broadcastInDim S1x16384 ![1] bcast_S16384_S1x16384_1 : (⟨S16384, .f32⟩ : BufTy).Contents (Elt F) → (⟨S1x16384, .f32⟩ : BufTy).Contents (Elt F)),
    unary main_v7 main_v8 (broadcastInDim S768x16384 ![0, 1] bcast_S1x16384_S768x16384_0_1 : (⟨S1x16384, .f32⟩ : BufTy).Contents (Elt F) → (⟨S768x16384, .f32⟩ : BufTy).Contents (Elt F)),
    binary main_v8 main_v6 main_v9 (mulf : (⟨S768x16384, .f32⟩ : BufTy).Contents (Elt F) → (⟨S768x16384, .f32⟩ : BufTy).Contents (Elt F) → (⟨S768x16384, .f32⟩ : BufTy).Contents (Elt F)),
    nullary main_cst_1 (constant S_ .f32 0x3727C5AC#32),
    unary main_cst_1 main_v10 (broadcastInDim S768x1 ![] bcast_S_S768x1 : (⟨S_, .f32⟩ : BufTy).Contents (Elt F) → (⟨S768x1, .f32⟩ : BufTy).Contents (Elt F)),
    binary main_v4 main_v10 main_v11 (addf : (⟨S768x1, .f32⟩ : BufTy).Contents (Elt F) → (⟨S768x1, .f32⟩ : BufTy).Contents (Elt F) → (⟨S768x1, .f32⟩ : BufTy).Contents (Elt F)),
    unary main_v11 main_v12 (Host.sqrt : (⟨S768x1, .f32⟩ : BufTy).Contents (Elt F) → (⟨S768x1, .f32⟩ : BufTy).Contents (Elt F)),
    unary main_v12 main_v13 (broadcastInDim S768x16384 ![0, 1] bcast_S768x1_S768x16384_0_1 : (⟨S768x1, .f32⟩ : BufTy).Contents (Elt F) → (⟨S768x16384, .f32⟩ : BufTy).Contents (Elt F)),
    binary main_v9 main_v13 main_v14 (Host.divf : (⟨S768x16384, .f32⟩ : BufTy).Contents (Elt F) → (⟨S768x16384, .f32⟩ : BufTy).Contents (Elt F) → (⟨S768x16384, .f32⟩ : BufTy).Contents (Elt F)),
    unary main_arg2 main_v15 (broadcastInDim S1x16384 ![1] bcast_S16384_S1x16384_1 : (⟨S16384, .f32⟩ : BufTy).Contents (Elt F) → (⟨S1x16384, .f32⟩ : BufTy).Contents (Elt F)),
    unary main_v15 main_v16 (broadcastInDim S768x16384 ![0, 1] bcast_S1x16384_S768x16384_0_1 : (⟨S1x16384, .f32⟩ : BufTy).Contents (Elt F) → (⟨S768x16384, .f32⟩ : BufTy).Contents (Elt F)),
    binary main_v14 main_v16 main_v17 (addf : (⟨S768x16384, .f32⟩ : BufTy).Contents (Elt F) → (⟨S768x16384, .f32⟩ : BufTy).Contents (Elt F) → (⟨S768x16384, .f32⟩ : BufTy).Contents (Elt F)) ]

-- forty-four binds re-associated: the rewrite under the chain recurses once per statement
set_option maxRecDepth 1024 in
/-- The main function is that line: the two outlined functions unfolded at their calls and the sequencing
    re-associated, both sides are one chain of steps. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub ..⟩

/-! ## What the line leaves -/

attribute [local irreducible] Host.reduceAdd in
set_option maxRecDepth 8192 in
/-- The result buffer after the line is the composed term of the three arguments' starting contents. -/
theorem out_eq (V : Valuation τ sig (Elt F)) :
    after ops V (main_v17 : DevRef τ sig)
      = refTerm (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- From any memory with zero counters, every weakly fair execution of the main function terminates with the
    result buffer at the composed term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v17).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefSide

end
-- ==== Proof.BridgeConsts.lean ====
/-
  The three float constants of the layer normalisation, as the reals their words denote: the row length 16384 = 2¹⁴,
  its reciprocal 2⁻¹⁴, and a positive epsilon (10995116 · 2⁻⁴⁰, the single-precision neighbour of 10⁻⁵).
-/
import proofs.«900545_g7700000000000546_dist_layernorm_colshard_i_m768_n512_v7x_i32_f32_1_alg».proof.Proof.Spec

noncomputable section

namespace Cert.LN

open Idealize.ShloMosaic

/-- The epsilon's real value: significand 2²³ + 2606508 at exponent 110 − 127 − 23. -/
def epsR : ℝ := 10995116 * (2 : ℝ) ^ (-40 : ℤ)

theorem nW_eq : nW = ((16384 : ℝ) : EReal) := by
  simp [nW, Ideal.ofBits, Ideal.ieee, -EReal.coe_mul]; norm_num

theorem invNW_eq : invNW = ((1 / 16384 : ℝ) : EReal) := by
  simp [invNW, Ideal.ofBits, Ideal.ieee, -EReal.coe_mul]; norm_num

theorem epsW_eq : epsW = ((epsR : ℝ) : EReal) := by
  simp [epsW, epsR, Ideal.ofBits, Ideal.ieee, -EReal.coe_mul]

theorem epsR_pos : 0 < epsR := by
  unfold epsR; positivity

end Cert.LN

end
-- ==== Proof.RefRead.lean ====
/-
  The two-pass layer normalisation's composed term, read at a row and a column.

  Each stage is read at an index: a row sum from the zero word is the plain sum over the row; the mean is that sum
  over the word of 16384; the variance function's divisor, the word of 16384 less the integer zero converted, is the
  same word, and being positive it makes the select take the quotient and not the NaN word; the broadcasts read the
  row's or the column's entry. Together the result at (r, k) is the two-pass form of the specification.
-/
import proofs.«900545_g7700000000000546_dist_layernorm_colshard_i_m768_n512_v7x_i32_f32_1_alg».proof.Proof.RefRun
import proofs.«900545_g7700000000000546_dist_layernorm_colshard_i_m768_n512_v7x_i32_f32_1_alg».proof.Proof.BridgeConsts
import Idealize.ShloMosaic.Lib.IdealHost
import Idealize.ShloMosaic.Lib.Pipeline.Value

noncomputable section

namespace Cert.ReferenceIdeal.RefSide

open Cert.ReferenceIdeal Cert.ReferenceIdeal.Gen Idealize.ShloMosaic Idealize.ShloMosaic.ValueIdx Cert.LN

/-- The host's square root at an index is the extended reals' square root of the element. -/
theorem hostSqrt_apply {s : Shape} {φ : FTy} (a : FVec Ideal s φ) (i : s.Idx) : Host.sqrt a i = Ideal.sqrt (a i) := rfl

/-- The row sums from the zero word are the plain sums over the row. -/
theorem rowSum_apply (y : Vec Ideal S768x16384 .f32) (r : Fin 768) (j : Fin 1) :
    rowSum (F := Ideal) y (ix2 r j) = ∑ k : Fin 16384, y (ix2 r k) := by
  have hR : S768x16384.Reduces [1] S768 := by decide
  unfold rowSum
  rw [broadcastInDim_apply _ _ _ (ix2 r j) (ix1 r) (fun a => match a with | ⟨0, _⟩ => rfl)]
  rw [hostReduceAdd_apply, Ideal.hostReduceAdd_single _ hR, constant_apply, Ideal.ofBits_zero_f32, zero_add]
  refine Finset.sum_congr rfl fun k _ => congrArg y ?_
  exact funext fun a => match a with | ⟨0, _⟩ => Fin.ext rfl | ⟨1, _⟩ => Fin.ext rfl

/-- The mean column at row r is the row sum over the word of 16384. -/
theorem meanCol_apply (x : Vec Ideal S768x16384 .f32) (r : Fin 768) (j : Fin 1) :
    meanCol (F := Ideal) x (ix2 r j) = refMean (fun r k => x (ix2 r k)) r := by
  unfold meanCol refMean
  rw [hostDivf_apply, rowSum_apply, broadcastInDim_scalar_apply, constant_apply]
  rfl

/-- The deviation at (r, k) is the entry less the row's mean. -/
theorem devs_apply (x : Vec Ideal S768x16384 .f32) (r : Fin 768) (k : Fin 16384) :
    devs (F := Ideal) x (ix2 r k) = x (ix2 r k) - refMean (fun r k => x (ix2 r k)) r := by
  unfold devs
  rw [subf_apply, broadcastInDim_apply _ _ _ (ix2 r k) (ix2 r (0 : Fin 1))
    (fun a => match a with | ⟨0, _⟩ => rfl | ⟨1, _⟩ => rfl), meanCol_apply]

/-- The variance function's divisor is the word of 16384: the integer zero converts to zero. -/
theorem count_apply : count (F := Ideal) ix0 = nW := by
  show nW - (((0#32 : BitVec 32).toInt : ℝ) : EReal) = nW
  rw [show (0#32 : BitVec 32).toInt = 0 from rfl, Int.cast_zero, EReal.coe_zero, sub_zero]

/-- The divisor is positive, so the comparison's bit is set. -/
theorem count_pos : cmpf (F := Ideal) .ogt (count (F := Ideal)) (constant S_ .f32 0x00000000#32) ix0 = 1#1 := by
  rw [cmpf_apply, count_apply, constant_apply, Ideal.ofBits_zero_f32]
  have h : (0 : EReal) < nW := by rw [nW_eq]; exact_mod_cast (by norm_num : (0 : ℝ) < 16384)
  show BitVec.ofBool (decide ((0 : EReal) < nW)) = 1#1
  rw [decide_eq_true h]
  rfl

/-- The variance column at row r is the mean of the squared deviations. -/
theorem varCol_apply (x : Vec Ideal S768x16384 .f32) (r : Fin 768) (j : Fin 1) :
    varCol (F := Ideal) x (ix2 r j) = refVar (fun r k => x (ix2 r k)) r := by
  unfold varCol refVar
  rw [select_apply, broadcastInDim_scalar_apply, count_pos, select_one, hostDivf_apply, rowSum_apply,
    broadcastInDim_scalar_apply, count_apply]
  refine congrArg (fun s => Ideal.div s nW) (Finset.sum_congr rfl fun k _ => ?_)
  rw [mulf_apply, devs_apply]

/-- A row vector repeated down the rows reads its column's entry. -/
theorem rows_apply (g : Vec Ideal S16384 .f32) (r : Fin 768) (k : Fin 16384) :
    rows (F := Ideal) g (ix2 r k) = g (ix1 k) := by
  unfold rows
  rw [broadcastInDim_apply _ _ _ (ix2 r k) (ix2 (0 : Fin 1) k) (fun a => match a with | ⟨0, _⟩ => rfl | ⟨1, _⟩ => rfl),
    broadcastInDim_apply _ _ _ (ix2 (0 : Fin 1) k) (ix1 k) (fun a => match a with | ⟨0, _⟩ => rfl)]

/-- The composed term at (r, k) is the two-pass form. -/
theorem refOut_apply (x : Vec Ideal S768x16384 .f32) (g b : Vec Ideal S16384 .f32) (r : Fin 768) (k : Fin 16384) :
    refOut x g b (ValueIdx.ix2 r k)
      = Cert.LN.refForm (fun r k => x (ValueIdx.ix2 r k)) (fun k => g (ValueIdx.ix1 k)) (fun k => b (ValueIdx.ix1 k)) r k := by
  unfold refOut refTerm refForm
  rw [addf_apply, hostDivf_apply, mulf_apply, rows_apply, rows_apply, devs_apply,
    broadcastInDim_apply _ _ _ (ix2 r k) (ix2 r (0 : Fin 1)) (fun a => match a with | ⟨0, _⟩ => rfl | ⟨1, _⟩ => rfl),
    hostSqrt_apply, addf_apply, varCol_apply, broadcastInDim_scalar_apply, constant_apply]
  rfl

end Cert.ReferenceIdeal.RefSide

end
-- ==== Proof.Bridge.lean ====
/-
  The devices' layer normalisation equals the two-pass one on finite entries.

  Three facts carry it. The 8 × 4 peers of a device (flip the low bits, then the high bits) are all 32 devices, each
  once, and the 32 blocks of 512 columns are the 16384 columns, each once: so the nested sums a device ends with are
  the sums over the whole row. Sums, products and differences of finite entries are finite, so both forms are real
  expressions under one coercion. And over the reals the mean of the squared deviations from the mean is the mean of
  squares minus the squared mean; it is not negative, so adding a positive epsilon gives a positive real, whose
  reciprocal square root is the reciprocal of its square root and by which dividing is multiplying with that reciprocal.
-/
import Mathlib.Data.Fintype.BigOperators
import Mathlib.Algebra.BigOperators.Group.Finset.Defs
import Mathlib.Algebra.BigOperators.Group.Finset.Basic
import Mathlib.Algebra.BigOperators.Ring.Finset
import Mathlib.Algebra.Order.BigOperators.Group.Finset
import Mathlib.Data.EReal.Operations
import Mathlib.Analysis.Real.Sqrt
import proofs.«900545_g7700000000000546_dist_layernorm_colshard_i_m768_n512_v7x_i32_f32_1_alg».proof.Proof.BridgeConsts

noncomputable section

namespace Cert.LN

open Idealize.ShloMosaic

/-! ### The peers are all devices, the blocks are all columns -/

/-- Flipping low bits by `e` and then high bits by `8 f` reaches every device exactly once. -/
theorem peers_bijective (c : Fin 32) : Function.Bijective (fun p : Fin 8 × Fin 4 => xz (xp c p.1) p.2) := by
  revert c; decide

/-- Every column lies in exactly one device's block, at exactly one place. -/
theorem col_bijective : Function.Bijective (fun p : Fin 32 × Fin 512 => col p.1 p.2) := by
  constructor
  · rintro ⟨d, k⟩ ⟨d', k'⟩ h
    have h' : d.val * 512 + k.val = d'.val * 512 + k'.val := congrArg Fin.val h
    have hk := k.isLt
    have hk' := k'.isLt
    have hd : d.val = d'.val := by omega
    have hkk : k.val = k'.val := by omega
    exact Prod.ext (Fin.ext hd) (Fin.ext hkk)
  · intro m
    have hm := m.isLt
    refine ⟨(⟨m.val / 512, by omega⟩, ⟨m.val % 512, by omega⟩), Fin.ext ?_⟩
    show m.val / 512 * 512 + m.val % 512 = m.val
    omega

/-- Summing over a device's peers of peers and their blocks is summing over the whole row. -/
theorem sum_peers_cols {M : Type*} [AddCommMonoid M] (h : Fin 16384 → M) (c : Fin 32) :
    ∑ e : Fin 8, ∑ f : Fin 4, ∑ k : Fin 512, h (col (xz (xp c e) f) k) = ∑ k : Fin 16384, h k := by
  rw [← Fintype.sum_prod_type' (fun e f => ∑ k : Fin 512, h (col (xz (xp c e) f) k))]
  rw [(peers_bijective c).sum_comp (fun d => ∑ k : Fin 512, h (col d k))]
  rw [← Fintype.sum_prod_type' (fun d k => h (col d k))]
  exact col_bijective.sum_comp h

/-! ### Finite sums are finite -/

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ### The variance, over the reals -/

/-- The mean of the squared deviations from the mean is the mean of squares minus the squared mean. -/
theorem var_identity (y : Fin 16384 → ℝ) :
    (∑ k, (y k - (∑ k, y k) * (1 / 16384)) * (y k - (∑ k, y k) * (1 / 16384))) * (1 / 16384)
      = (∑ k, y k * y k) * (1 / 16384) - ((∑ k, y k) * (1 / 16384)) * ((∑ k, y k) * (1 / 16384)) := by
  generalize hμ : (∑ k, y k) * (1 / 16384 : ℝ) = μ
  have hexp : ∀ k, (y k - μ) * (y k - μ) = y k * y k - 2 * μ * y k + μ * μ := fun k => by ring
  simp only [hexp]
  rw [Finset.sum_add_distrib, Finset.sum_sub_distrib, ← Finset.mul_sum, Finset.sum_const, Finset.card_univ,
    Fintype.card_fin, nsmul_eq_mul]
  rw [← hμ]
  push_cast
  ring

theorem var_nonneg (y : Fin 16384 → ℝ) (μ : ℝ) : 0 ≤ (∑ k, (y k - μ) * (y k - μ)) * (1 / 16384) :=
  mul_nonneg (Finset.sum_nonneg fun k _ => mul_self_nonneg _) (by norm_num)

/-! ### The two forms as real expressions -/

section Forms

variable (xv : Fin 768 → Fin 16384 → ℝ) (gv bv : Fin 16384 → ℝ)

/-- The total a device ends with is the row sum. -/
theorem t1_coe (c : Fin 32) (r : Fin 768) :
    t1 (fun d r k => ((xv r (col d k) : ℝ) : EReal)) c r = ((∑ k, xv r k : ℝ) : EReal) :=
  (sum_peers_cols (fun k => ((xv r k : ℝ) : EReal)) c).trans (coe_sum _ _)

/-- The total of squares a device ends with is the row sum of squares. -/
theorem t2_coe (c : Fin 32) (r : Fin 768) :
    t2 (fun d r k => ((xv r (col d k) : ℝ) : EReal)) c r = ((∑ k, xv r k * xv r k : ℝ) : EReal) := by
  refine (sum_peers_cols (fun k => ((xv r k : ℝ) : EReal) * ((xv r k : ℝ) : EReal)) c).trans ?_
  simp only [← EReal.coe_mul]
  exact coe_sum _ _

/-- The devices' form on finite entries, as one real expression. -/
theorem ker_real (c : Fin 32) (r : Fin 768) (j : Fin 512) :
    kerForm (fun d r k => ((xv r (col d k) : ℝ) : EReal)) (fun d k => ((gv (col d k) : ℝ) : EReal))
        (fun d k => ((bv (col d k) : ℝ) : EReal)) c r j
      = ((gv (col c j) * ((xv r (col c j) - (∑ k, xv r k) * (1 / 16384)) *
            (Real.sqrt ((∑ k, xv r k * xv r k) * (1 / 16384)
              - (∑ k, xv r k) * (1 / 16384) * ((∑ k, xv r k) * (1 / 16384)) + epsR))⁻¹) + bv (col c j) : ℝ) : EReal) := by
  have hpos : 0 < (∑ k, xv r k * xv r k) * (1 / 16384)
      - (∑ k, xv r k) * (1 / 16384) * ((∑ k, xv r k) * (1 / 16384)) + epsR := by
    rw [← var_identity (xv r)]
    exact add_pos_of_nonneg_of_pos (var_nonneg _ _) epsR_pos
  unfold kerForm kerVar kerMean
  rw [t1_coe, t2_coe, invNW_eq, epsW_eq]
  simp only [← EReal.coe_mul, ← EReal.coe_sub, ← EReal.coe_add]
  rw [Ideal.rsqrt_coe, if_neg (not_lt.mpr hpos.le), if_neg hpos.ne']
  simp only [← EReal.coe_mul, ← EReal.coe_add]

/-- The two-pass form on finite entries, as one real expression. -/
theorem ref_real (r : Fin 768) (k : Fin 16384) :
    refForm (fun r k => ((xv r k : ℝ) : EReal)) (fun k => ((gv k : ℝ) : EReal)) (fun k => ((bv k : ℝ) : EReal)) r k
      = ((gv k * (xv r k - (∑ k, xv r k) * (1 / 16384)) *
            (1 / Real.sqrt ((∑ k, (xv r k - (∑ k, xv r k) * (1 / 16384)) * (xv r k - (∑ k, xv r k) * (1 / 16384)))
              * (1 / 16384) + epsR)) + bv k : ℝ) : EReal) := by
  have hpos : 0 < (∑ k, (xv r k - (∑ k, xv r k) * (1 / 16384)) * (xv r k - (∑ k, xv r k) * (1 / 16384)))
      * (1 / 16384) + epsR := add_pos_of_nonneg_of_pos (var_nonneg _ _) epsR_pos
  have hmean : refMean (fun r k => ((xv r k : ℝ) : EReal)) r = (((∑ k, xv r k) * (1 / 16384) : ℝ) : EReal) := by
    unfold refMean
    rw [nW_eq, Ideal.div_coe (by norm_num), coe_sum, ← EReal.coe_mul]
  have hvar : refVar (fun r k => ((xv r k : ℝ) : EReal)) r
      = (((∑ k, (xv r k - (∑ k, xv r k) * (1 / 16384)) * (xv r k - (∑ k, xv r k) * (1 / 16384))) * (1 / 16384) : ℝ) : EReal) := by
    unfold refVar
    rw [hmean, nW_eq, Ideal.div_coe (by norm_num)]
    simp only [← EReal.coe_sub, ← EReal.coe_mul]
    rw [coe_sum, ← EReal.coe_mul]
  unfold refForm
  rw [hvar, hmean, epsW_eq, ← EReal.coe_add, Ideal.sqrt_coe, if_neg (not_lt.mpr hpos.le),
    Ideal.div_coe (Real.sqrt_pos.mpr hpos).ne']
  simp only [← EReal.coe_sub, ← EReal.coe_mul, ← EReal.coe_add]

end Forms

/-! ### The bridge -/

/-- On finite entries the devices' result is their block of the two-pass result. -/
theorem ker_eq_ref' (x : Fin 768 → Fin 16384 → EReal) (g b : Fin 16384 → EReal)
    (hx : ∀ r k, ∃ v : ℝ, x r k = (v : EReal)) (hg : ∀ k, ∃ v : ℝ, g k = (v : EReal)) (hb : ∀ k, ∃ v : ℝ, b k = (v : EReal))
    (c : Fin 32) (r : Fin 768) (j : Fin 512) :
    kerForm (fun d r k => x r (col d k)) (fun d k => g (col d k)) (fun d k => b (col d k)) c r j
      = refForm x g b r (col c j) := by
  choose xv hxv using hx
  choose gv hgv using hg
  choose bv hbv using hb
  obtain rfl : x = fun r k => ((xv r k : ℝ) : EReal) := funext fun r => funext fun k => hxv r k
  obtain rfl : g = fun k => ((gv k : ℝ) : EReal) := funext hgv
  obtain rfl : b = fun k => ((bv k : ℝ) : EReal) := funext hbv
  refine (ker_real xv gv bv c r j).trans (Eq.trans ?_ (ref_real xv gv bv r (col c j)).symm)
  rw [var_identity (xv r)]
  congr 1
  ring

end Cert.LN

end
-- ==== Proof.Assemble.lean ====
/-
  The certificate's five claims, assembled from the pieces.

  The reference's run leaves the two-pass layer normalisation of its three arrays. The devices' run leaves, on
  device `c`, the devices' form computed from every device's blocks. Under the precondition every entry of the
  blocks, hence of the whole arrays, is a real number; there the devices' form at row `r`, column `j` of device `c`
  is the two-pass form at row `r`, column `512 c + j`: device `c`'s result is its block of the reference's result.
  The frames are the runs with what is not asked dropped. The devices' two runs are taken as hypotheses here.
-/
import proofs.«900545_g7700000000000546_dist_layernorm_colshard_i_m768_n512_v7x_i32_f32_1_alg».proof.Defs
import proofs.«900545_g7700000000000546_dist_layernorm_colshard_i_m768_n512_v7x_i32_f32_1_alg».proof.Proof.Gen.Kernel
import proofs.«900545_g7700000000000546_dist_layernorm_colshard_i_m768_n512_v7x_i32_f32_1_alg».proof.Proof.Gen.KernelIdeal
import proofs.«900545_g7700000000000546_dist_layernorm_colshard_i_m768_n512_v7x_i32_f32_1_alg».proof.Proof.Gen.ReferenceIdeal
import proofs.«900545_g7700000000000546_dist_layernorm_colshard_i_m768_n512_v7x_i32_f32_1_alg».proof.Proof.Gen.Pre_finite_inputs_Kernel
import proofs.«900545_g7700000000000546_dist_layernorm_colshard_i_m768_n512_v7x_i32_f32_1_alg».proof.Proof.Gen.Pre_finite_inputs_ReferenceIdeal
import proofs.«900545_g7700000000000546_dist_layernorm_colshard_i_m768_n512_v7x_i32_f32_1_alg».proof.Proof.PreFin
import proofs.«900545_g7700000000000546_dist_layernorm_colshard_i_m768_n512_v7x_i32_f32_1_alg».proof.Proof.KVal
import proofs.«900545_g7700000000000546_dist_layernorm_colshard_i_m768_n512_v7x_i32_f32_1_alg».proof.Proof.KValApply
import proofs.«900545_g7700000000000546_dist_layernorm_colshard_i_m768_n512_v7x_i32_f32_1_alg».proof.Proof.Spec
import proofs.«900545_g7700000000000546_dist_layernorm_colshard_i_m768_n512_v7x_i32_f32_1_alg».proof.Proof.RefRun
import proofs.«900545_g7700000000000546_dist_layernorm_colshard_i_m768_n512_v7x_i32_f32_1_alg».proof.Proof.RefRead
import proofs.«900545_g7700000000000546_dist_layernorm_colshard_i_m768_n512_v7x_i32_f32_1_alg».proof.Proof.Bridge
import Idealize.ShloMosaic.Lib.ValueIdx
import Idealize.ShloMosaic.Lib.Layout
import Idealize.ShloMosaic.PureOps.Ideal

noncomputable section

namespace Cert.Assemble

open Idealize.ShloMosaic Idealize.SL.Sem Idealize.ShloMosaic.ValueIdx

/-- The devices' run on the extended reals: every weakly fair execution terminates, device `c`'s result buffer
    holding the devices' form of every device's argument blocks, the argument buffers unchanged. -/
def HRunI : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = Cert.KernelIdeal.KVal.OUT (fun d => m ((d.tc : Thread Cert.KernelIdeal.nD Cert.KernelIdeal.τ).loc Cert.KernelIdeal.main_arg0)) (fun d => m ((d.tc : Thread Cert.KernelIdeal.nD Cert.KernelIdeal.τ).loc Cert.KernelIdeal.main_arg1)) (fun d => m ((d.tc : Thread Cert.KernelIdeal.nD Cert.KernelIdeal.τ).loc Cert.KernelIdeal.main_arg2)) c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

/-- The devices' run on the words: every weakly fair execution terminates with the argument buffers unchanged. -/
def HRunB : Prop :=
  ∀ (m : (ℓ : Loc Cert.Kernel.nD Cert.Kernel.τ Cert.Kernel.sig) → Buf (Elt Bits) ℓ) (ρ : Dev Cert.Kernel.nD → PrngReg),
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

/-- The reference runs and leaves its arguments unchanged: its run with the result dropped. -/
theorem frame_RI : Cert.frame_ReferenceIdeal :=
  fun m ρ _ => (θ_run Cert.ReferenceIdeal.defs _ _).mono (fun _ h c => (h c).2) (Cert.ReferenceIdeal.RefSide.run m ρ)

/-- The devices' program on the extended reals runs and leaves its arguments unchanged. -/
theorem frame_KI (hrunI : HRunI) : Cert.frame_KernelIdeal :=
  fun m ρ _ => (θ_run Cert.KernelIdeal.defs _ _).mono (fun _ h c => (h c).2) (hrunI m ρ)

/-- The devices' program on the words runs and leaves its arguments unchanged. -/
theorem frame_K (hrunB : HRunB) : Cert.frame_Kernel :=
  fun m ρ _ => hrunB m ρ

/-- Under the precondition, with each device's argument buffers its blocks of the whole arrays, the devices' form on
    device `c` is device `c`'s block of the two-pass form of the whole arrays. -/
theorem out_eq_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m ((c.tc : Thread Cert.KernelIdeal.nD Cert.KernelIdeal.τ).loc Cert.KernelIdeal.main_arg0) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg2))))
    (c : Dev Cert.KernelIdeal.nD) :
    Cert.KernelIdeal.KVal.OUT (fun d => m ((d.tc : Thread Cert.KernelIdeal.nD Cert.KernelIdeal.τ).loc Cert.KernelIdeal.main_arg0)) (fun d => m ((d.tc : Thread Cert.KernelIdeal.nD Cert.KernelIdeal.τ).loc Cert.KernelIdeal.main_arg1)) (fun d => m ((d.tc : Thread Cert.KernelIdeal.nD Cert.KernelIdeal.τ).loc Cert.KernelIdeal.main_arg2)) c
      = Layout.block ⟨2, ![768, 512]⟩ ⟨2, ![768, 16384]⟩ 1 32 c (Cert.ReferenceIdeal.RefSide.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2))) := by
  obtain ⟨hx, hg, hb⟩ := Cert.PreFin.whole_args_finite m m' hpre hagree
  funext i
  obtain ⟨r, j, rfl⟩ : ∃ (r : Fin 768) (j : Fin 512), i = ix2 r j := ⟨i 0, i 1, eq_ix2 i⟩
  refine (Cert.KernelIdeal.KVal.OUT_apply' _ _ _ c r j).trans ?_
  refine Eq.trans ?_ (Cert.PreFin.block2_apply c _ r j).symm
  rw [Cert.ReferenceIdeal.RefSide.refOut_apply]
  have hX : (fun (d : Dev Cert.KernelIdeal.nD) (r : Fin 768) (k : Fin 512) => m ((d.tc : Thread Cert.KernelIdeal.nD Cert.KernelIdeal.τ).loc Cert.KernelIdeal.main_arg0) (ix2 r k))
      = fun d r k => m' (((0 : Dev Cert.ReferenceIdeal.nD).tc : Thread Cert.ReferenceIdeal.nD Cert.ReferenceIdeal.τ).loc Cert.ReferenceIdeal.main_arg0) (ix2 r (Cert.LN.col d k)) := by
    funext d r k
    rw [(hagree d).1, Cert.PreFin.block2_apply]
  have hG : (fun (d : Dev Cert.KernelIdeal.nD) (k : Fin 512) => m ((d.tc : Thread Cert.KernelIdeal.nD Cert.KernelIdeal.τ).loc Cert.KernelIdeal.main_arg1) (ix1 k))
      = fun d k => m' (((0 : Dev Cert.ReferenceIdeal.nD).tc : Thread Cert.ReferenceIdeal.nD Cert.ReferenceIdeal.τ).loc Cert.ReferenceIdeal.main_arg1) (ix1 (Cert.LN.col d k)) := by
    funext d k
    rw [(hagree d).2.1, Cert.PreFin.block1_apply]
  have hB : (fun (d : Dev Cert.KernelIdeal.nD) (k : Fin 512) => m ((d.tc : Thread Cert.KernelIdeal.nD Cert.KernelIdeal.τ).loc Cert.KernelIdeal.main_arg2) (ix1 k))
      = fun d k => m' (((0 : Dev Cert.ReferenceIdeal.nD).tc : Thread Cert.ReferenceIdeal.nD Cert.ReferenceIdeal.τ).loc Cert.ReferenceIdeal.main_arg2) (ix1 (Cert.LN.col d k)) := by
    funext d k
    rw [(hagree d).2.2, Cert.PreFin.block1_apply]
  rw [hX, hG, hB]
  exact Cert.LN.ker_eq_ref' (fun r k => m' (((0 : Dev Cert.ReferenceIdeal.nD).tc : Thread Cert.ReferenceIdeal.nD Cert.ReferenceIdeal.τ).loc Cert.ReferenceIdeal.main_arg0) (ix2 r k)) (fun k => m' (((0 : Dev Cert.ReferenceIdeal.nD).tc : Thread Cert.ReferenceIdeal.nD Cert.ReferenceIdeal.τ).loc Cert.ReferenceIdeal.main_arg1) (ix1 k))
    (fun k => m' (((0 : Dev Cert.ReferenceIdeal.nD).tc : Thread Cert.ReferenceIdeal.nD Cert.ReferenceIdeal.τ).loc Cert.ReferenceIdeal.main_arg2) (ix1 k)) hx hg hb c r j

/-- The devices' result is, block by block, the reference's result; both run; the arguments of both end unchanged. -/
theorem algebraic (hrunI : HRunI) : Cert.algebraic_KernelIdeal_ReferenceIdeal :=
  fun m g m' g' hpre hagree =>
    ⟨Cert.ReferenceIdeal.RefSide.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)),
      (θ_run Cert.KernelIdeal.defs _ _).mono (fun _ h c => ⟨(h c).1.trans (out_eq_block m m' hpre hagree c), (h c).2⟩) (hrunI m g),
      (θ_run Cert.ReferenceIdeal.defs _ _).mono (fun _ h => h 0) (Cert.ReferenceIdeal.RefSide.run m' g')⟩

/-- Everything the certificate claims, from the devices' two runs. -/
theorem claim (hrunB : HRunB) (hrunI : HRunI) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_K hrunB, frame_KI hrunI, frame_RI, trivial, algebraic hrunI⟩

end Cert.Assemble

end
-- ==== Proof.Cells.lean ====
/-
  The exchange's places on one device: the peers each printed device chain names, the slots of the two exchange
  buffers, and the twenty-two semaphores — the entry semaphore shared with the three high-bit peers, the one shared
  with the seven low-bit peers, and a send and a receive semaphore per transfer.
-/
import proofs.«900545_g7700000000000546_dist_layernorm_colshard_i_m768_n512_v7x_i32_f32_1_alg».proof.Proof.Gen.KernelIdeal
import proofs.«900545_g7700000000000546_dist_layernorm_colshard_i_m768_n512_v7x_i32_f32_1_alg».proof.Proof.Gen.KernelIdeal.Skeleton
import proofs.«900545_g7700000000000546_dist_layernorm_colshard_i_m768_n512_v7x_i32_f32_1_alg».proof.Proof.Gen.KernelIdeal.Launch
import proofs.«900545_g7700000000000546_dist_layernorm_colshard_i_m768_n512_v7x_i32_f32_1_alg».proof.Proof.Gen.KernelIdeal.Points
import proofs.«900545_g7700000000000546_dist_layernorm_colshard_i_m768_n512_v7x_i32_f32_1_alg».proof.Proof.KVal
import Idealize.ShloMosaic.Lib.Pipeline.Launch
import Idealize.ShloMosaic.Lib.Pipeline.Kit
import Idealize.ShloMosaic.Lib.Tactic

noncomputable section

namespace Cert.KernelIdeal.LNP

open Cert.KernelIdeal Cert.KernelIdeal.Gen Cert.LN

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The peers -/

/-- The `i`-th high-bit peer of `c` (offsets 8, 16, 24), and the `i`-th low-bit peer (offsets 1 … 7). -/
abbrev pz (c : Dev nD) (i : Fin 3) : Dev nD := xz c i.succ
abbrev pp (c : Dev nD) (i : Fin 7) : Dev nD := xp c i.succ

theorem pz_pz (c : Dev nD) (i : Fin 3) : pz (pz c i) i = c := xz_xz c _
theorem pp_pp (c : Dev nD) (i : Fin 7) : pp (pp c i) i = c := xp_xp c _

/-- The printed device chains: three entry signals to the high-bit peers, seven to the low-bit peers, then the three
    and the seven transfers to the same peers. -/
theorem dev1_eq (c : Dev nD) : (⟨k0_dev1 c, k0_dev1_lt c⟩ : Dev nD) = pz c 0 := by revert c; decide +kernel
theorem dev2_eq (c : Dev nD) : (⟨k0_dev2 c, k0_dev2_lt c⟩ : Dev nD) = pz c 1 := by revert c; decide +kernel
theorem dev3_eq (c : Dev nD) : (⟨k0_dev3 c, k0_dev3_lt c⟩ : Dev nD) = pz c 2 := by revert c; decide +kernel
theorem dev4_eq (c : Dev nD) : (⟨k0_dev4 c, k0_dev4_lt c⟩ : Dev nD) = pp c 0 := by revert c; decide +kernel
theorem dev5_eq (c : Dev nD) : (⟨k0_dev5 c, k0_dev5_lt c⟩ : Dev nD) = pp c 1 := by revert c; decide +kernel
theorem dev6_eq (c : Dev nD) : (⟨k0_dev6 c, k0_dev6_lt c⟩ : Dev nD) = pp c 2 := by revert c; decide +kernel
theorem dev7_eq (c : Dev nD) : (⟨k0_dev7 c, k0_dev7_lt c⟩ : Dev nD) = pp c 3 := by revert c; decide +kernel
theorem dev8_eq (c : Dev nD) : (⟨k0_dev8 c, k0_dev8_lt c⟩ : Dev nD) = pp c 4 := by revert c; decide +kernel
theorem dev9_eq (c : Dev nD) : (⟨k0_dev9 c, k0_dev9_lt c⟩ : Dev nD) = pp c 5 := by revert c; decide +kernel
theorem dev10_eq (c : Dev nD) : (⟨k0_dev10 c, k0_dev10_lt c⟩ : Dev nD) = pp c 6 := by revert c; decide +kernel
theorem dev11_eq (c : Dev nD) : (⟨k0_dev11 c, k0_dev11_lt c⟩ : Dev nD) = pz c 0 := by revert c; decide +kernel
theorem dev12_eq (c : Dev nD) : (⟨k0_dev12 c, k0_dev12_lt c⟩ : Dev nD) = pz c 1 := by revert c; decide +kernel
theorem dev13_eq (c : Dev nD) : (⟨k0_dev13 c, k0_dev13_lt c⟩ : Dev nD) = pz c 2 := by revert c; decide +kernel
theorem dev14_eq (c : Dev nD) : (⟨k0_dev14 c, k0_dev14_lt c⟩ : Dev nD) = pp c 0 := by revert c; decide +kernel
theorem dev15_eq (c : Dev nD) : (⟨k0_dev15 c, k0_dev15_lt c⟩ : Dev nD) = pp c 1 := by revert c; decide +kernel
theorem dev16_eq (c : Dev nD) : (⟨k0_dev16 c, k0_dev16_lt c⟩ : Dev nD) = pp c 2 := by revert c; decide +kernel
theorem dev17_eq (c : Dev nD) : (⟨k0_dev17 c, k0_dev17_lt c⟩ : Dev nD) = pp c 3 := by revert c; decide +kernel
theorem dev18_eq (c : Dev nD) : (⟨k0_dev18 c, k0_dev18_lt c⟩ : Dev nD) = pp c 4 := by revert c; decide +kernel
theorem dev19_eq (c : Dev nD) : (⟨k0_dev19 c, k0_dev19_lt c⟩ : Dev nD) = pp c 5 := by revert c; decide +kernel
theorem dev20_eq (c : Dev nD) : (⟨k0_dev20 c, k0_dev20_lt c⟩ : Dev nD) = pp c 6 := by revert c; decide +kernel

/-! ## The exchange buffers and their slots -/

abbrev c1M : Memref sig .tc .vmem S4x2x768 .f32 := Memref.whole cc0_scratch0
abbrev c2M : Memref sig .tc .vmem S8x2x768 .f32 := Memref.whole cc0_scratch1

theorem inb1 (f : Fin 4) : ∀ a, (![f.val, 0, 0] : Fin 3 → Nat) a + S1x2x768.size a ≤ S4x2x768.size a := by
  intro a; have := f.isLt; fin_cases a <;> simp <;> omega
theorem inb2 (e : Fin 8) : ∀ a, (![e.val, 0, 0] : Fin 3 → Nat) a + S1x2x768.size a ≤ S8x2x768.size a := by
  intro a; have := e.isLt; fin_cases a <;> simp <;> omega

/-- The rectangle of slot `f` in the first exchange buffer, and of slot `e` in the second. -/
abbrev rs1 (f : Fin 4) : Rect S4x2x768 := Rect.unit (s := S4x2x768) ![f.val, 0, 0] S1x2x768.size (inb1 f)
abbrev rs2 (e : Fin 8) : Rect S8x2x768 := Rect.unit (s := S8x2x768) ![e.val, 0, 0] S1x2x768.size (inb2 e)

/-- Slot `f` of the first exchange buffer, as the [2, 768] memref a transfer names. -/
def sl1 (f : Fin 4) : Memref sig .tc .vmem S2x768 .f32 := (c1M.slice (rs1 f) (fun _ => rfl)).squeeze S2x768 squeezes_S1x2x768_S2x768
/-- Slot `e` of the second exchange buffer. -/
def sl2 (e : Fin 8) : Memref sig .tc .vmem S2x768 .f32 := (c2M.slice (rs2 e) (fun _ => rfl)).squeeze S2x768 squeezes_S1x2x768_S2x768

theorem sl1_0 : sl1 0 = (c1M.slice (Rect.unit (s := S4x2x768) ![0, 0, 0] S1x2x768.size inb_S4x2x768_S1x2x768_0_0_0) (fun _ => rfl)).squeeze S2x768 squeezes_S1x2x768_S2x768 := rfl
theorem sl1_1 : sl1 1 = (c1M.slice (Rect.unit (s := S4x2x768) ![1, 0, 0] S1x2x768.size inb_S4x2x768_S1x2x768_1_0_0) (fun _ => rfl)).squeeze S2x768 squeezes_S1x2x768_S2x768 := rfl
theorem sl1_2 : sl1 2 = (c1M.slice (Rect.unit (s := S4x2x768) ![2, 0, 0] S1x2x768.size inb_S4x2x768_S1x2x768_2_0_0) (fun _ => rfl)).squeeze S2x768 squeezes_S1x2x768_S2x768 := rfl
theorem sl1_3 : sl1 3 = (c1M.slice (Rect.unit (s := S4x2x768) ![3, 0, 0] S1x2x768.size inb_S4x2x768_S1x2x768_3_0_0) (fun _ => rfl)).squeeze S2x768 squeezes_S1x2x768_S2x768 := rfl
theorem sl2_0 : sl2 0 = (c2M.slice (Rect.unit (s := S8x2x768) ![0, 0, 0] S1x2x768.size inb_S8x2x768_S1x2x768_0_0_0) (fun _ => rfl)).squeeze S2x768 squeezes_S1x2x768_S2x768 := rfl
theorem sl2_1 : sl2 1 = (c2M.slice (Rect.unit (s := S8x2x768) ![1, 0, 0] S1x2x768.size inb_S8x2x768_S1x2x768_1_0_0) (fun _ => rfl)).squeeze S2x768 squeezes_S1x2x768_S2x768 := rfl
theorem sl2_2 : sl2 2 = (c2M.slice (Rect.unit (s := S8x2x768) ![2, 0, 0] S1x2x768.size inb_S8x2x768_S1x2x768_2_0_0) (fun _ => rfl)).squeeze S2x768 squeezes_S1x2x768_S2x768 := rfl
theorem sl2_3 : sl2 3 = (c2M.slice (Rect.unit (s := S8x2x768) ![3, 0, 0] S1x2x768.size inb_S8x2x768_S1x2x768_3_0_0) (fun _ => rfl)).squeeze S2x768 squeezes_S1x2x768_S2x768 := rfl
theorem sl2_4 : sl2 4 = (c2M.slice (Rect.unit (s := S8x2x768) ![4, 0, 0] S1x2x768.size inb_S8x2x768_S1x2x768_4_0_0) (fun _ => rfl)).squeeze S2x768 squeezes_S1x2x768_S2x768 := rfl
theorem sl2_5 : sl2 5 = (c2M.slice (Rect.unit (s := S8x2x768) ![5, 0, 0] S1x2x768.size inb_S8x2x768_S1x2x768_5_0_0) (fun _ => rfl)).squeeze S2x768 squeezes_S1x2x768_S2x768 := rfl
theorem sl2_6 : sl2 6 = (c2M.slice (Rect.unit (s := S8x2x768) ![6, 0, 0] S1x2x768.size inb_S8x2x768_S1x2x768_6_0_0) (fun _ => rfl)).squeeze S2x768 squeezes_S1x2x768_S2x768 := rfl
theorem sl2_7 : sl2 7 = (c2M.slice (Rect.unit (s := S8x2x768) ![7, 0, 0] S1x2x768.size inb_S8x2x768_S1x2x768_7_0_0) (fun _ => rfl)).squeeze S2x768 squeezes_S1x2x768_S2x768 := rfl

/-- A slot lies in its device's exchange buffer, whichever slot it is. -/
theorem sl1_loc (f : Fin 4) (d : Dev nD) : (sl1 f).view.loc (d : Thread nD τ) = (d : Thread nD τ).loc cc0_scratch0 := rfl
theorem sl2_loc (e : Fin 8) (d : Dev nD) : (sl2 e).view.loc (d : Thread nD τ) = (d : Thread nD τ).loc cc0_scratch1 := rfl

/-! ## The semaphores -/

/-- The entry semaphore shared with the high-bit peers (the runtime's, unscoped) and the one shared with the low-bit peers. -/
abbrev barS : Sem sig := (SemArray.scalar (sig.barrier 0 rfl) : Sems sig S_).sem
abbrev plS : Sem sig := cc0_scratch6.sem

/-- The send and receive semaphores of the first exchange's `i`-th transfer (slot `i + 1`), and of the second's. -/
def sd1 : Fin 3 → DmaSem sig
  | 0 => ((cc0_scratch2.slice (Rect.unit (s := S4) ![1] S1.size inb_S4_S1_1)).squeeze S_ squeezes_S1_S_).sem
  | 1 => ((cc0_scratch2.slice (Rect.unit (s := S4) ![2] S1.size inb_S4_S1_2)).squeeze S_ squeezes_S1_S_).sem
  | 2 => ((cc0_scratch2.slice (Rect.unit (s := S4) ![3] S1.size inb_S4_S1_3)).squeeze S_ squeezes_S1_S_).sem
def rc1 : Fin 3 → DmaSem sig
  | 0 => ((cc0_scratch3.slice (Rect.unit (s := S4) ![1] S1.size inb_S4_S1_1)).squeeze S_ squeezes_S1_S_).sem
  | 1 => ((cc0_scratch3.slice (Rect.unit (s := S4) ![2] S1.size inb_S4_S1_2)).squeeze S_ squeezes_S1_S_).sem
  | 2 => ((cc0_scratch3.slice (Rect.unit (s := S4) ![3] S1.size inb_S4_S1_3)).squeeze S_ squeezes_S1_S_).sem
def sd2 : Fin 7 → DmaSem sig
  | 0 => ((cc0_scratch4.slice (Rect.unit (s := S8) ![1] S1.size inb_S8_S1_1)).squeeze S_ squeezes_S1_S_).sem
  | 1 => ((cc0_scratch4.slice (Rect.unit (s := S8) ![2] S1.size inb_S8_S1_2)).squeeze S_ squeezes_S1_S_).sem
  | 2 => ((cc0_scratch4.slice (Rect.unit (s := S8) ![3] S1.size inb_S8_S1_3)).squeeze S_ squeezes_S1_S_).sem
  | 3 => ((cc0_scratch4.slice (Rect.unit (s := S8) ![4] S1.size inb_S8_S1_4)).squeeze S_ squeezes_S1_S_).sem
  | 4 => ((cc0_scratch4.slice (Rect.unit (s := S8) ![5] S1.size inb_S8_S1_5)).squeeze S_ squeezes_S1_S_).sem
  | 5 => ((cc0_scratch4.slice (Rect.unit (s := S8) ![6] S1.size inb_S8_S1_6)).squeeze S_ squeezes_S1_S_).sem
  | 6 => ((cc0_scratch4.slice (Rect.unit (s := S8) ![7] S1.size inb_S8_S1_7)).squeeze S_ squeezes_S1_S_).sem
def rc2 : Fin 7 → DmaSem sig
  | 0 => ((cc0_scratch5.slice (Rect.unit (s := S8) ![1] S1.size inb_S8_S1_1)).squeeze S_ squeezes_S1_S_).sem
  | 1 => ((cc0_scratch5.slice (Rect.unit (s := S8) ![2] S1.size inb_S8_S1_2)).squeeze S_ squeezes_S1_S_).sem
  | 2 => ((cc0_scratch5.slice (Rect.unit (s := S8) ![3] S1.size inb_S8_S1_3)).squeeze S_ squeezes_S1_S_).sem
  | 3 => ((cc0_scratch5.slice (Rect.unit (s := S8) ![4] S1.size inb_S8_S1_4)).squeeze S_ squeezes_S1_S_).sem
  | 4 => ((cc0_scratch5.slice (Rect.unit (s := S8) ![5] S1.size inb_S8_S1_5)).squeeze S_ squeezes_S1_S_).sem
  | 5 => ((cc0_scratch5.slice (Rect.unit (s := S8) ![6] S1.size inb_S8_S1_6)).squeeze S_ squeezes_S1_S_).sem
  | 6 => ((cc0_scratch5.slice (Rect.unit (s := S8) ![7] S1.size inb_S8_S1_7)).squeeze S_ squeezes_S1_S_).sem

/-- A device's twenty-two semaphores by role. -/
inductive CK : Type
  | bar | pl | s1 (i : Fin 3) | r1 (i : Fin 3) | s2 (i : Fin 7) | r2 (i : Fin 7)
  deriving DecidableEq, Fintype

def csem : CK → SemLoc sig
  | .bar => .reg barS | .pl => .reg plS
  | .s1 i => .dma (sd1 i) | .r1 i => .dma (rc1 i) | .s2 i => .dma (sd2 i) | .r2 i => .dma (rc2 i)

abbrev kcell (ck : Dev nD × CK) : GSem nD τ sig := ((ck.1 : Thread nD τ), csem ck.2)
abbrev cell (c : Dev nD) (k : CK) : GSem nD τ sig := ((c : Thread nD τ), csem k)

theorem csem_injective : Function.Injective csem := by decide

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

end Cert.KernelIdeal.LNP

end
-- ==== Proof.Sched.lean ====
/-
  The exchange as a schedule of rounds. Every semaphore has one round.

  The entry semaphore shared with the high-bit peers has three unit duties: peer `i` signals it once it has set aside
  slot `i + 1` of its first exchange buffer for this device to write, and hands that slot over. The one shared with
  the low-bit peers has seven, each handing over slot `i + 1` of the peer's second exchange buffer.

  A transfer pays two duties of its block's credit: on the sender's send semaphore, giving back the share of slot 0
  it read; on the receiver's receive semaphore, handing the receiver its slot holding what the sender's slot 0 held —
  the sender's row sums in the first exchange, the sum of the sender's four slots in the second.
-/
import proofs.«900545_g7700000000000546_dist_layernorm_colshard_i_m768_n512_v7x_i32_f32_1_alg».proof.Proof.Gen.KernelIdeal
import proofs.«900545_g7700000000000546_dist_layernorm_colshard_i_m768_n512_v7x_i32_f32_1_alg».proof.Proof.Gen.KernelIdeal.Skeleton
import proofs.«900545_g7700000000000546_dist_layernorm_colshard_i_m768_n512_v7x_i32_f32_1_alg».proof.Proof.Gen.KernelIdeal.Launch
import proofs.«900545_g7700000000000546_dist_layernorm_colshard_i_m768_n512_v7x_i32_f32_1_alg».proof.Proof.Gen.KernelIdeal.Points
import proofs.«900545_g7700000000000546_dist_layernorm_colshard_i_m768_n512_v7x_i32_f32_1_alg».proof.Proof.KVal
import proofs.«900545_g7700000000000546_dist_layernorm_colshard_i_m768_n512_v7x_i32_f32_1_alg».proof.Proof.Cells
import Idealize.ShloMosaic.Lib.Transfers
import Idealize.ShloMosaic.Lib.Pipeline.Launch
import Idealize.ShloMosaic.Lib.Pipeline.Kit
import Idealize.ShloMosaic.Lib.Tactic

noncomputable section

namespace Cert.KernelIdeal.LNP

open Cert.KernelIdeal Cert.KernelIdeal.Gen Cert.LN

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.Transfers (shareTok shareDrop)

/-! ## The resource algebra: the pipeline library's copy and the exchange's (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `d`'s blocks of `x`, `gamma`, `beta` as staged. -/
def xs (d : Dev nD) : (cc0_stg0_0 : Ref sig .tc).ty.Contents (Elt F) :=
  (win0_0.blk (0 : Fin 1)).view.read (Elt F) (m ((d : Thread nD τ).loc main_arg0))
def gs (d : Dev nD) : (cc0_stg1_0 : Ref sig .tc).ty.Contents (Elt F) :=
  (win0_1.blk (0 : Fin 1)).view.read (Elt F) (m ((d : Thread nD τ).loc main_arg1))
def bs (d : Dev nD) : (cc0_stg2_0 : Ref sig .tc).ty.Contents (Elt F) :=
  (win0_2.blk (0 : Fin 1)).view.read (Elt F) (m ((d : Thread nD τ).loc main_arg2))

/-- What device `d`'s two exchange buffers hold once every landing is in, and its result block. -/
def C1v (d : Dev nD) : Buf (Elt F) ((d : Thread nD τ).loc cc0_scratch0) := KVal.C1 (xs m) d
def C2v (d : Dev nD) : Buf (Elt F) ((d : Thread nD τ).loc cc0_scratch1) := KVal.C2 (xs m) d
def outv (d : Dev nD) : (cc0_stg3_0 : Ref sig .tc).ty.Contents (Elt F) := KVal.OUT (xs m) (gs m) (bs m) d

/-- Slot `f` of device `d`'s first exchange buffer at share `q`, the buffer's contents `h`; likewise the second. -/
def set1 (d : Dev nD) (f : Fin 4) : Finset (Idx ((d : Thread nD τ).loc cc0_scratch0)) := (sl1 f).view.set
def set2 (d : Dev nD) (e : Fin 8) : Finset (Idx ((d : Thread nD τ).loc cc0_scratch1)) := (sl2 e).view.set
def p1 (d : Dev nD) (f : Fin 4) (q : PosShare TreeShare) (h : Buf (Elt F) ((d : Thread nD τ).loc cc0_scratch0)) : sProp 𝕄 :=
  ((d : Thread nD τ).loc cc0_scratch0) ↦[set1 d f]{q} h
def p2 (d : Dev nD) (e : Fin 8) (q : PosShare TreeShare) (h : Buf (Elt F) ((d : Thread nD τ).loc cc0_scratch1)) : sProp 𝕄 :=
  ((d : Thread nD τ).loc cc0_scratch1) ↦[set2 d e]{q} h
omit [FloatOps F] in
theorem p1_eq (d : Dev nD) (f : Fin 4) (q : PosShare TreeShare) (h : Buf (Elt F) ((d : Thread nD τ).loc cc0_scratch0)) :
    p1 d f q h = ((sl1 f).view.loc (d : Thread nD τ) ↦[(sl1 f).view.set]{q} h : sProp 𝕄) := rfl
omit [FloatOps F] in
theorem p2_eq (d : Dev nD) (e : Fin 8) (q : PosShare TreeShare) (h : Buf (Elt F) ((d : Thread nD τ).loc cc0_scratch1)) :
    p2 d e q h = ((sl2 e).view.loc (d : Thread nD τ) ↦[(sl2 e).view.set]{q} h : sProp 𝕄) := rfl

omit [FloatOps F] in
instance p1_storable (d : Dev nD) (f : Fin 4) (q) (h) : BI.Storable (upEmb : UEmb _ 𝕄) (p1 (F := F) d f q h) := by unfold p1; infer_instance
omit [FloatOps F] in
instance p2_storable (d : Dev nD) (e : Fin 8) (q) (h) : BI.Storable (upEmb : UEmb _ 𝕄) (p2 (F := F) d e q h) := by unfold p2; infer_instance

/-- A slot's transfer credit. -/
abbrev NA : ℕ := (sl1 0).view.dmaCredit
abbrev NB : ℕ := (sl2 0).view.dmaCredit
theorem NA_pos : 0 < NA := View.dmaCredit_pos _ (by decide)
theorem NB_pos : 0 < NB := View.dmaCredit_pos _ (by decide)
theorem amt1 (f : Fin 4) (s : DmaSem sig) : (sl1 f).view.amount (.dma s) = NA := rfl
theorem amt2 (e : Fin 8) (s : DmaSem sig) : (sl2 e).view.amount (.dma s) = NB := rfl

/-! ## The schedule -/

/-- The role of a semaphore, if it is one of the exchange's. -/
def ckOf (s : SemLoc sig) : Option CK := if h : ∃ k, csem k = s then some h.choose else none
theorem ckOf_csem (k : CK) : ckOf (csem k) = some k := by
  unfold ckOf; rw [dif_pos ⟨k, rfl⟩]; exact congrArg some (csem_injective (Exists.choose_spec (⟨k, rfl⟩ : ∃ k', csem k' = csem k)))

/-- Duty `i` of a cell with three (seven) duties, among the eight duty names. -/
abbrev d3 (i : Fin 3) : Fin 8 := i.castLE (by decide)
abbrev d7 (i : Fin 7) : Fin 8 := i.castLE (by decide)

def dutiesOf : Option CK → Finset (Fin 8)
  | some .bar => Finset.univ.map ⟨d3, Fin.castLE_injective _⟩
  | some .pl => Finset.univ.map ⟨d7, Fin.castLE_injective _⟩
  | some _ => {0}
  | none => ∅

def amountOf : Option CK → ℕ
  | some (.s1 _) => NA | some (.r1 _) => NA | some (.s2 _) => NB | some (.r2 _) => NB | _ => 1

def payloadOf (c : Dev nD) : Option CK → Fin 8 → sProp 𝕄
  | some .bar, d => if h : d.val < 3 then iprop(∃ fd, p1 (pz c ⟨d.val, h⟩) (Fin.succ ⟨d.val, h⟩) fullShare fd) else iprop(emp)
  | some .pl, d => if h : d.val < 7 then iprop(∃ fd, p2 (pp c ⟨d.val, h⟩) (Fin.succ ⟨d.val, h⟩) fullShare fd) else iprop(emp)
  | some (.s1 i), _ => p1 c 0 (shareTok fullShare 3 i) (C1v m c)
  | some (.r1 i), _ => p1 c i.succ fullShare (C1v m c)
  | some (.s2 i), _ => p2 c 0 (shareTok fullShare 7 i) (C2v m c)
  | some (.r2 i), _ => p2 c i.succ fullShare (C2v m c)
  | none, _ => iprop(emp)

def sched : Rounds.Schedule (GSem nD τ sig) (Fin 8) 𝕄 where
  duties g r := if r = 0 ∧ g.1.2 = .tc then dutiesOf (ckOf g.2) else ∅
  unitless _ := False
  amount g _ _ := amountOf (ckOf g.2)
  payload g _ d := payloadOf m g.1.1 (ckOf g.2) d
  amount_pos g _ _ _ := by
    unfold amountOf; split <;> first | exact NA_pos | exact NB_pos | exact Nat.one_pos

instance sched_payload_storable (g : GSem nD τ sig) (r : ℕ) (d : Fin 8) :
    BI.Storable (upEmb : UEmb _ 𝕄) ((sched (F := F) m).payload g r d) := by
  show BI.Storable upEmb (payloadOf m g.1.1 (ckOf g.2) d)
  unfold payloadOf
  (repeat' split) <;> infer_instance

/-! ## The schedule's tables, cell by cell -/

section Tables
variable (c : Dev nD)

theorem duties_bar : (sched (F := F) m).duties (cell c .bar) 0 = Finset.univ.map ⟨d3, Fin.castLE_injective _⟩ := by
  dsimp only [sched]; rw [ckOf_csem]; exact if_pos ⟨rfl, rfl⟩
theorem duties_pl : (sched (F := F) m).duties (cell c .pl) 0 = Finset.univ.map ⟨d7, Fin.castLE_injective _⟩ := by
  dsimp only [sched]; rw [ckOf_csem]; exact if_pos ⟨rfl, rfl⟩
theorem duties_s1 (i : Fin 3) : (sched (F := F) m).duties (cell c (.s1 i)) 0 = {0} := by
  dsimp only [sched]; rw [ckOf_csem]; exact if_pos ⟨rfl, rfl⟩
theorem duties_r1 (i : Fin 3) : (sched (F := F) m).duties (cell c (.r1 i)) 0 = {0} := by
  dsimp only [sched]; rw [ckOf_csem]; exact if_pos ⟨rfl, rfl⟩
theorem duties_s2 (i : Fin 7) : (sched (F := F) m).duties (cell c (.s2 i)) 0 = {0} := by
  dsimp only [sched]; rw [ckOf_csem]; exact if_pos ⟨rfl, rfl⟩
theorem duties_r2 (i : Fin 7) : (sched (F := F) m).duties (cell c (.r2 i)) 0 = {0} := by
  dsimp only [sched]; rw [ckOf_csem]; exact if_pos ⟨rfl, rfl⟩
theorem duties_later (g : GSem nD τ sig) : ∀ r, 1 ≤ r → (sched (F := F) m).duties g r = ∅ := by
  intro r hr; dsimp only [sched]; exact if_neg fun h => by have := h.1; omega

theorem amount_bar (d : Fin 8) : (sched (F := F) m).amount (cell c .bar) 0 d = 1 := by
  dsimp only [sched]; rw [ckOf_csem]; rfl
theorem amount_pl (d : Fin 8) : (sched (F := F) m).amount (cell c .pl) 0 d = 1 := by
  dsimp only [sched]; rw [ckOf_csem]; rfl
theorem amount_s1 (i : Fin 3) (d : Fin 8) : (sched (F := F) m).amount (cell c (.s1 i)) 0 d = NA := by
  dsimp only [sched]; rw [ckOf_csem]; rfl
theorem amount_r1 (i : Fin 3) (d : Fin 8) : (sched (F := F) m).amount (cell c (.r1 i)) 0 d = NA := by
  dsimp only [sched]; rw [ckOf_csem]; rfl
theorem amount_s2 (i : Fin 7) (d : Fin 8) : (sched (F := F) m).amount (cell c (.s2 i)) 0 d = NB := by
  dsimp only [sched]; rw [ckOf_csem]; rfl
theorem amount_r2 (i : Fin 7) (d : Fin 8) : (sched (F := F) m).amount (cell c (.r2 i)) 0 d = NB := by
  dsimp only [sched]; rw [ckOf_csem]; rfl

theorem expect_bar : (sched (F := F) m).expect (cell c .bar) 0 = 3 := by
  unfold Schedule.expect Schedule.amountOf
  rw [duties_bar, Finset.sum_congr rfl fun d _ => amount_bar m c d, Finset.sum_const, Finset.card_map, Finset.card_univ, Fintype.card_fin, smul_eq_mul]
theorem expect_pl : (sched (F := F) m).expect (cell c .pl) 0 = 7 := by
  unfold Schedule.expect Schedule.amountOf
  rw [duties_pl, Finset.sum_congr rfl fun d _ => amount_pl m c d, Finset.sum_const, Finset.card_map, Finset.card_univ, Fintype.card_fin, smul_eq_mul]
theorem expect_s1 (i : Fin 3) : (sched (F := F) m).expect (cell c (.s1 i)) 0 = NA := by
  unfold Schedule.expect Schedule.amountOf; rw [duties_s1, Finset.sum_singleton, amount_s1]
theorem expect_r1 (i : Fin 3) : (sched (F := F) m).expect (cell c (.r1 i)) 0 = NA := by
  unfold Schedule.expect Schedule.amountOf; rw [duties_r1, Finset.sum_singleton, amount_r1]
theorem expect_s2 (i : Fin 7) : (sched (F := F) m).expect (cell c (.s2 i)) 0 = NB := by
  unfold Schedule.expect Schedule.amountOf; rw [duties_s2, Finset.sum_singleton, amount_s2]
theorem expect_r2 (i : Fin 7) : (sched (F := F) m).expect (cell c (.r2 i)) 0 = NB := by
  unfold Schedule.expect Schedule.amountOf; rw [duties_r2, Finset.sum_singleton, amount_r2]

theorem payload_bar (i : Fin 3) : (sched (F := F) m).payload (cell c .bar) 0 (d3 i) = iprop(∃ fd, p1 (pz c i) i.succ fullShare fd) := by
  dsimp only [sched]; rw [ckOf_csem]; exact dif_pos (show (d3 i).val < 3 from i.isLt)
theorem payload_pl (i : Fin 7) : (sched (F := F) m).payload (cell c .pl) 0 (d7 i) = iprop(∃ fd, p2 (pp c i) i.succ fullShare fd) := by
  dsimp only [sched]; rw [ckOf_csem]; exact dif_pos (show (d7 i).val < 7 from i.isLt)
theorem payload_s1 (i : Fin 3) (d : Fin 8) : (sched (F := F) m).payload (cell c (.s1 i)) 0 d = p1 c 0 (shareTok fullShare 3 i) (C1v m c) := by
  dsimp only [sched]; rw [ckOf_csem]; rfl
theorem payload_r1 (i : Fin 3) (d : Fin 8) : (sched (F := F) m).payload (cell c (.r1 i)) 0 d = p1 c i.succ fullShare (C1v m c) := by
  dsimp only [sched]; rw [ckOf_csem]; rfl
theorem payload_s2 (i : Fin 7) (d : Fin 8) : (sched (F := F) m).payload (cell c (.s2 i)) 0 d = p2 c 0 (shareTok fullShare 7 i) (C2v m c) := by
  dsimp only [sched]; rw [ckOf_csem]; rfl
theorem payload_r2 (i : Fin 7) (d : Fin 8) : (sched (F := F) m).payload (cell c (.r2 i)) 0 d = p2 c i.succ fullShare (C2v m c) := by
  dsimp only [sched]; rw [ckOf_csem]; rfl

/-- The whole round of each cell, no duty taken yet: what its last wait hands the owner. -/
theorem rest_bar : bigSep ((sched (F := F) m).duties (cell c .bar) 0 \ ∅) (fun d => (sched (F := F) m).payload (cell c .bar) 0 d)
    = bigSep Finset.univ (fun i : Fin 3 => iprop(∃ fd, p1 (pz c i) i.succ fullShare fd)) := by
  rw [Finset.sdiff_empty, duties_bar]
  exact Finset.fold_map.trans (bigSep_congr fun i _ => payload_bar m c i)
theorem rest_pl : bigSep ((sched (F := F) m).duties (cell c .pl) 0 \ ∅) (fun d => (sched (F := F) m).payload (cell c .pl) 0 d)
    = bigSep Finset.univ (fun i : Fin 7 => iprop(∃ fd, p2 (pp c i) i.succ fullShare fd)) := by
  rw [Finset.sdiff_empty, duties_pl]
  exact Finset.fold_map.trans (bigSep_congr fun i _ => payload_pl m c i)
theorem rest_s1 (i : Fin 3) : bigSep ((sched (F := F) m).duties (cell c (.s1 i)) 0 \ ∅) (fun d => (sched (F := F) m).payload (cell c (.s1 i)) 0 d)
    = p1 c 0 (shareTok fullShare 3 i) (C1v m c) := by
  rw [Finset.sdiff_empty, duties_s1, bigSep_singleton, payload_s1]
theorem rest_r1 (i : Fin 3) : bigSep ((sched (F := F) m).duties (cell c (.r1 i)) 0 \ ∅) (fun d => (sched (F := F) m).payload (cell c (.r1 i)) 0 d)
    = p1 c i.succ fullShare (C1v m c) := by
  rw [Finset.sdiff_empty, duties_r1, bigSep_singleton, payload_r1]
theorem rest_s2 (i : Fin 7) : bigSep ((sched (F := F) m).duties (cell c (.s2 i)) 0 \ ∅) (fun d => (sched (F := F) m).payload (cell c (.s2 i)) 0 d)
    = p2 c 0 (shareTok fullShare 7 i) (C2v m c) := by
  rw [Finset.sdiff_empty, duties_s2, bigSep_singleton, payload_s2]
theorem rest_r2 (i : Fin 7) : bigSep ((sched (F := F) m).duties (cell c (.r2 i)) 0 \ ∅) (fun d => (sched (F := F) m).payload (cell c (.r2 i)) 0 d)
    = p2 c i.succ fullShare (C2v m c) := by
  rw [Finset.sdiff_empty, duties_r2, bigSep_singleton, payload_r2]

end Tables

end Cert.KernelIdeal.LNP

end
-- ==== Proof.Owed.lean ====
/-
  What each device owes its peers when the kernel starts — a unit on each peer's entry semaphore, a slot's credit on
  each peer's receive semaphore — and the levels that order the waits: a device waits on a semaphore only while
  everything it still owes lies strictly above it.
-/
import proofs.«900545_g7700000000000546_dist_layernorm_colshard_i_m768_n512_v7x_i32_f32_1_alg».proof.Proof.Gen.KernelIdeal
import proofs.«900545_g7700000000000546_dist_layernorm_colshard_i_m768_n512_v7x_i32_f32_1_alg».proof.Proof.Gen.KernelIdeal.Skeleton
import proofs.«900545_g7700000000000546_dist_layernorm_colshard_i_m768_n512_v7x_i32_f32_1_alg».proof.Proof.Gen.KernelIdeal.Launch
import proofs.«900545_g7700000000000546_dist_layernorm_colshard_i_m768_n512_v7x_i32_f32_1_alg».proof.Proof.Gen.KernelIdeal.Points
import proofs.«900545_g7700000000000546_dist_layernorm_colshard_i_m768_n512_v7x_i32_f32_1_alg».proof.Proof.KVal
import proofs.«900545_g7700000000000546_dist_layernorm_colshard_i_m768_n512_v7x_i32_f32_1_alg».proof.Proof.Sched
import Idealize.ShloMosaic.Lib.Pipeline.Launch
import Idealize.ShloMosaic.Lib.Pipeline.Kit
import Idealize.ShloMosaic.Lib.Tactic

noncomputable section

namespace Cert.KernelIdeal.LNP

open Cert.KernelIdeal Cert.KernelIdeal.Gen Cert.LN

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What each device owes at launch; the levels -/

/-- Device `c` owes each peer's entry semaphore a unit and each peer's receive semaphore a slot's credit. The summands
    stand in the reverse of the order the body pays them, so that each payment takes the last one off. -/
def owedR2 (c : Dev nD) : ℕ → CellTallies nD τ sig Unit
  | 0 => 0
  | k + 1 => owedR2 c k + (if h : 6 - k < 7 then tallyAt (cell (pp c ⟨6 - k, h⟩) (.r2 ⟨6 - k, h⟩)) () NB else 0)
def owedR1 (c : Dev nD) : ℕ → CellTallies nD τ sig Unit
  | 0 => owedR2 c 7
  | k + 1 => owedR1 c k + (if h : 2 - k < 3 then tallyAt (cell (pz c ⟨2 - k, h⟩) (.r1 ⟨2 - k, h⟩)) () NA else 0)
def owedPl (c : Dev nD) : ℕ → CellTallies nD τ sig Unit
  | 0 => owedR1 c 3
  | k + 1 => owedPl c k + (if h : 6 - k < 7 then tallyAt (cell (pp c ⟨6 - k, h⟩) .pl) () 1 else 0)
def owedBar (c : Dev nD) : ℕ → CellTallies nD τ sig Unit
  | 0 => owedPl c 7
  | k + 1 => owedBar c k + (if h : 2 - k < 3 then tallyAt (cell (pz c ⟨2 - k, h⟩) .bar) () 1 else 0)
def O₀ (c : Dev nD) : CellTallies nD τ sig Unit := owedBar c 3

/-- A sum of tallies is positive at a cell only where a summand is. -/
theorem pos_of_add_pos {A B : CellTallies nD τ sig Unit} {g : GSem nD τ sig} {u : Unit} (h : 0 < (A + B) g u) :
    0 < A g u ∨ 0 < B g u := by
  rw [Pi.add_apply, Finsupp.add_apply] at h; omega

/-- A one-cell tally is positive only at its cell. -/
theorem cell_of_tallyAt_pos {g' g : GSem nD τ sig} {k : ℕ} {u : Unit} (h : 0 < tallyAt g' () k g u) : g = g' := by
  rw [tallyAt_apply] at h
  by_contra hn
  rw [if_neg (fun h' => hn h'.1)] at h
  exact Nat.lt_irrefl 0 h

/-- Nothing is owed where the tallies are zero. -/
theorem not_pos_zero {g : GSem nD τ sig} {u : Unit} (h : 0 < (0 : CellTallies nD τ sig Unit) g u) : False := by
  rw [Pi.zero_apply, Finsupp.zero_apply] at h; exact Nat.lt_irrefl 0 h

/-- The peeling steps, payment by payment (`j` the payment's index in program order). -/
theorem owedBar_peel (c : Dev nD) (j : Fin 3) : owedBar c (3 - j.val) = owedBar c (2 - j.val) + tallyAt (cell (pz c j) .bar) () 1 := by
  fin_cases j <;> rfl
theorem owedPl_peel (c : Dev nD) (j : Fin 7) : owedPl c (7 - j.val) = owedPl c (6 - j.val) + tallyAt (cell (pp c j) .pl) () 1 := by
  fin_cases j <;> rfl
theorem owedR1_peel (c : Dev nD) (j : Fin 3) : owedR1 c (3 - j.val) = owedR1 c (2 - j.val) + tallyAt (cell (pz c j) (.r1 j)) () NA := by
  fin_cases j <;> rfl
theorem owedR2_peel (c : Dev nD) (j : Fin 7) : owedR2 c (7 - j.val) = owedR2 c (6 - j.val) + tallyAt (cell (pp c j) (.r2 j)) () NB := by
  fin_cases j <;> rfl

/-- The second exchange's receive credits lie on low-bit peers' receive semaphores. -/
theorem owedR2_pos' (c : Dev nD) : ∀ (k : ℕ) {g : GSem nD τ sig} {u : Unit}, 0 < owedR2 c k g u → ∃ i, g = cell (pp c i) (.r2 i)
  | 0, _, _, h => (not_pos_zero h).elim
  | k + 1, _, _, h => by
    rcases pos_of_add_pos (A := owedR2 c k) h with h | h
    · exact owedR2_pos' c k h
    · by_cases hk : 6 - k < 7
      · rw [dif_pos hk] at h; exact ⟨⟨6 - k, hk⟩, cell_of_tallyAt_pos h⟩
      · rw [dif_neg hk] at h; exact (not_pos_zero h).elim

/-- With the first exchange's receive credits added: a high-bit peer's receive semaphore, or the above. -/
theorem owedR1_pos' (c : Dev nD) : ∀ (k : ℕ) {g : GSem nD τ sig} {u : Unit}, 0 < owedR1 c k g u →
    (∃ i, g = cell (pz c i) (.r1 i)) ∨ (∃ i, g = cell (pp c i) (.r2 i))
  | 0, _, _, h => Or.inr (owedR2_pos' c 7 h)
  | k + 1, _, _, h => by
    rcases pos_of_add_pos (A := owedR1 c k) h with h | h
    · exact owedR1_pos' c k h
    · by_cases hk : 2 - k < 3
      · rw [dif_pos hk] at h; exact Or.inl ⟨⟨2 - k, hk⟩, cell_of_tallyAt_pos h⟩
      · rw [dif_neg hk] at h; exact (not_pos_zero h).elim

/-- With the low-bit entry units added. -/
theorem owedPl_pos' (c : Dev nD) : ∀ (k : ℕ) {g : GSem nD τ sig} {u : Unit}, 0 < owedPl c k g u →
    (∃ i, g = cell (pp c i) .pl) ∨ (∃ i, g = cell (pz c i) (.r1 i)) ∨ (∃ i, g = cell (pp c i) (.r2 i))
  | 0, _, _, h => Or.inr (owedR1_pos' c 3 h)
  | k + 1, _, _, h => by
    rcases pos_of_add_pos (A := owedPl c k) h with h | h
    · exact owedPl_pos' c k h
    · by_cases hk : 6 - k < 7
      · rw [dif_pos hk] at h; exact Or.inl ⟨⟨6 - k, hk⟩, cell_of_tallyAt_pos h⟩
      · rw [dif_neg hk] at h; exact (not_pos_zero h).elim

/-- With the high-bit entry units added. -/
theorem owedBar_pos' (c : Dev nD) : ∀ (k : ℕ) {g : GSem nD τ sig} {u : Unit}, 0 < owedBar c k g u →
    (∃ i, g = cell (pz c i) .bar) ∨ (∃ i, g = cell (pp c i) .pl) ∨ (∃ i, g = cell (pz c i) (.r1 i)) ∨ (∃ i, g = cell (pp c i) (.r2 i))
  | 0, _, _, h => Or.inr (owedPl_pos' c 7 h)
  | k + 1, _, _, h => by
    rcases pos_of_add_pos (A := owedBar c k) h with h | h
    · exact owedBar_pos' c k h
    · by_cases hk : 2 - k < 3
      · rw [dif_pos hk] at h; exact Or.inl ⟨⟨2 - k, hk⟩, cell_of_tallyAt_pos h⟩
      · rw [dif_neg hk] at h; exact (not_pos_zero h).elim

/-- Where a device owes anything: on a peer's entry semaphores or receive semaphores. -/
theorem O₀_pos {c : Dev nD} {g : GSem nD τ sig} {u : Unit} (h : 0 < O₀ c g u) :
    (∃ i, g = cell (pz c i) .bar) ∨ (∃ i, g = cell (pp c i) .pl) ∨ (∃ i, g = cell (pz c i) (.r1 i)) ∨ (∃ i, g = cell (pp c i) (.r2 i)) :=
  owedBar_pos' c 3 h
theorem owedR1_pos {c : Dev nD} {k : ℕ} {g : GSem nD τ sig} {u : Unit} (h : 0 < owedR1 c k g u) :
    (∃ i, g = cell (pz c i) (.r1 i)) ∨ (∃ i, g = cell (pp c i) (.r2 i)) :=
  owedR1_pos' c k h
theorem owedR2_pos {c : Dev nD} {k : ℕ} {g : GSem nD τ sig} {u : Unit} (h : 0 < owedR2 c k g u) :
    ∃ i, g = cell (pp c i) (.r2 i) :=
  owedR2_pos' c k h

def L (g : GSem nD τ sig) : Finset Unit := if g.1.2 = .tc then {()} else ∅
/-- Entry semaphores at 1, first-exchange receives at 2, second-exchange receives at 3, everything else (staging, sends) at 0. -/
def lv (g : GSem nD τ sig) (_ : Unit) : ℕ :=
  match ckOf g.2 with
  | some .bar => 1 | some .pl => 1 | some (.r1 _) => 2 | some (.r2 _) => 3 | _ => 0

theorem L_of_ne (g : GSem nD τ sig) (h : g.1.2 ≠ .tc) : L g = ∅ := if_neg h
theorem L_tc (c : Dev nD) (sm : SemLoc sig) : L ((c : Thread nD τ), sm) = {()} := if_pos rfl

/-- Every index of one of the exchange's cells is levelled. -/
theorem mem_L_cell (d : Dev nD) (k : CK) (u : Unit) : u ∈ L (cell d k) := by
  rw [L_tc]; exact Finset.mem_singleton_self _

/-- The level of one of the exchange's cells, role by role. -/
theorem lv_cell (d : Dev nD) (k : CK) (u : Unit) :
    lv (cell d k) u = match k with | .bar => 1 | .pl => 1 | .r1 _ => 2 | .r2 _ => 3 | _ => 0 := by
  show (match ckOf (csem k) with | some .bar => 1 | some .pl => 1 | some (.r1 _) => 2 | some (.r2 _) => 3 | _ => 0) = _
  rw [ckOf_csem]
  cases k <;> rfl
theorem lv_bar (d : Dev nD) (u : Unit) : lv (cell d .bar) u = 1 := lv_cell d .bar u
theorem lv_pl (d : Dev nD) (u : Unit) : lv (cell d .pl) u = 1 := lv_cell d .pl u
theorem lv_s1 (d : Dev nD) (i : Fin 3) (u : Unit) : lv (cell d (.s1 i)) u = 0 := lv_cell d (.s1 i) u
theorem lv_r1 (d : Dev nD) (i : Fin 3) (u : Unit) : lv (cell d (.r1 i)) u = 2 := lv_cell d (.r1 i) u
theorem lv_r2 (d : Dev nD) (i : Fin 7) (u : Unit) : lv (cell d (.r2 i)) u = 3 := lv_cell d (.r2 i) u

/-- The one pair a wait names is levelled. -/
theorem wait_mem_L (c : Dev nD) (sm : SemLoc sig) :
    ∀ p ∈ ({(sm, ())} : Waits sig Unit), p.2 ∈ L ((c : Thread nD τ), p.1) :=
  fun p hp => by rw [Finset.mem_singleton.mp hp, L_tc]; exact Finset.mem_singleton_self _

/-- Everything owed after the entry signals is levelled and lies above level 1. -/
theorem owedR1_mem_L (c : Dev nD) (g : GSem nD τ sig) (u : Unit) (hg : 0 < owedR1 c 3 g u) : u ∈ L g := by
  rcases owedR1_pos hg with ⟨i, rfl⟩ | ⟨i, rfl⟩ <;> exact mem_L_cell _ _ _
theorem owedR1_above (c : Dev nD) (g : GSem nD τ sig) (u : Unit) (hg : 0 < owedR1 c 3 g u) : 1 < lv g u := by
  rcases owedR1_pos hg with ⟨i, rfl⟩ | ⟨i, rfl⟩
  · rw [lv_r1]; decide
  · rw [lv_r2]; decide

/-- Everything owed after the first exchange is levelled and lies above level 2. -/
theorem owedR2_mem_L (c : Dev nD) (g : GSem nD τ sig) (u : Unit) (hg : 0 < owedR2 c 7 g u) : u ∈ L g := by
  obtain ⟨i, rfl⟩ := owedR2_pos hg; exact mem_L_cell _ _ _
theorem owedR2_above (c : Dev nD) (g : GSem nD τ sig) (u : Unit) (hg : 0 < owedR2 c 7 g u) : 2 < lv g u := by
  obtain ⟨i, rfl⟩ := owedR2_pos hg; rw [lv_r2]; decide

/-- A wait on a staging semaphore (none of the exchange's), owing everything or nothing. -/
theorem mayWait_stage (c : Dev nD) (q : DmaSem sig) (hq : ckOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (wait_mem_L c _)
      (fun g u hg => by
        rcases O₀_pos hg with ⟨i, rfl⟩ | ⟨i, rfl⟩ | ⟨i, rfl⟩ | ⟨i, rfl⟩ <;> exact mem_L_cell _ _ _)
      (fun p hp => by
        rw [Finset.mem_singleton.mp hp]
        show (match ckOf (SemLoc.dma q) with | some .bar => 1 | some .pl => 1 | some (.r1 _) => 2 | some (.r2 _) => 3 | _ => 0) ≤ 0
        rw [hq])
      (fun g u hg => by
        rcases O₀_pos hg with ⟨i, rfl⟩ | ⟨i, rfl⟩ | ⟨i, rfl⟩ | ⟨i, rfl⟩
        · rw [lv_bar]; decide
        · rw [lv_pl]; decide
        · rw [lv_r1]; decide
        · rw [lv_r2]; decide)
  · rw [MayWait_zero]; iintro -; iempintro
/-- The wait on the high-bit entry semaphore: every signal sent, every receive credit still owed. -/
theorem mayWait_bar (c : Dev nD) : (levAts L lv : sProp 𝕄) ⊢ MayWait (c : Thread nD τ) (.reg barS) () (owedR1 c 3) :=
  MayOwe.of_cut (L := L) (lev := lv) 1 (wait_mem_L c _) (owedR1_mem_L c)
    (fun p hp => by rw [Finset.mem_singleton.mp hp]; exact le_of_eq (lv_bar c ()))
    (owedR1_above c)
/-- The first exchange's waits and the low-bit entry wait: the second exchange's receive credits still owed. -/
theorem mayWait_s1 (c : Dev nD) (i : Fin 3) : (levAts L lv : sProp 𝕄) ⊢ MayWait (c : Thread nD τ) (.dma (sd1 i)) () (owedR2 c 7) :=
  MayOwe.of_cut (L := L) (lev := lv) 2 (wait_mem_L c _) (owedR2_mem_L c)
    (fun p hp => by rw [Finset.mem_singleton.mp hp]; exact le_of_eq_of_le (lv_s1 c i ()) (by decide))
    (owedR2_above c)
theorem mayWait_r1 (c : Dev nD) (i : Fin 3) : (levAts L lv : sProp 𝕄) ⊢ MayWait (c : Thread nD τ) (.dma (rc1 i)) () (owedR2 c 7) :=
  MayOwe.of_cut (L := L) (lev := lv) 2 (wait_mem_L c _) (owedR2_mem_L c)
    (fun p hp => by rw [Finset.mem_singleton.mp hp]; exact le_of_eq (lv_r1 c i ()))
    (owedR2_above c)
theorem mayWait_pl (c : Dev nD) : (levAts L lv : sProp 𝕄) ⊢ MayWait (c : Thread nD τ) (.reg plS) () (owedR2 c 7) :=
  MayOwe.of_cut (L := L) (lev := lv) 2 (wait_mem_L c _) (owedR2_mem_L c)
    (fun p hp => by rw [Finset.mem_singleton.mp hp]; exact le_of_eq_of_le (lv_pl c ()) (by decide))
    (owedR2_above c)

end Cert.KernelIdeal.LNP

end
-- ==== Proof.Ghost.lean ====
/-
  What a device's thread holds when its kernel starts and when it ends, and the pipeline's proof data.

  At the start: every semaphore's invariant and that each is at its first round (shared by all), the device's
  position on its own twenty-two semaphores, the one-shot tokens of the twenty signals and twenty transfer duties it
  pays, the credit of what its peers owe it, and its two exchange buffers at arbitrary contents. At the end: the two
  exchange buffers back whole, its own semaphores closed at zero, and its result block `outv`.
-/
import proofs.«900545_g7700000000000546_dist_layernorm_colshard_i_m768_n512_v7x_i32_f32_1_alg».proof.Proof.Gen.KernelIdeal
import proofs.«900545_g7700000000000546_dist_layernorm_colshard_i_m768_n512_v7x_i32_f32_1_alg».proof.Proof.Gen.KernelIdeal.Skeleton
import proofs.«900545_g7700000000000546_dist_layernorm_colshard_i_m768_n512_v7x_i32_f32_1_alg».proof.Proof.Gen.KernelIdeal.Launch
import proofs.«900545_g7700000000000546_dist_layernorm_colshard_i_m768_n512_v7x_i32_f32_1_alg».proof.Proof.Gen.KernelIdeal.Points
import proofs.«900545_g7700000000000546_dist_layernorm_colshard_i_m768_n512_v7x_i32_f32_1_alg».proof.Proof.KVal
import proofs.«900545_g7700000000000546_dist_layernorm_colshard_i_m768_n512_v7x_i32_f32_1_alg».proof.Proof.Sched
import proofs.«900545_g7700000000000546_dist_layernorm_colshard_i_m768_n512_v7x_i32_f32_1_alg».proof.Proof.Owed
import Idealize.ShloMosaic.Lib.Pipeline.Launch
import Idealize.ShloMosaic.Lib.Pipeline.Kit
import Idealize.ShloMosaic.Lib.Tactic

noncomputable section

namespace Cert.KernelIdeal.LNP

open Cert.KernelIdeal Cert.KernelIdeal.Gen Cert.LN

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.Transfers (shareTok shareDrop)

local notation "𝕄" => MT nD τ sig Unit (Elt F) ℕ UU ℕ

variable (m : (ℓ : Loc nD τ sig) → Buf (Elt F) ℓ) (ρ : Dev nD → PrngReg)

/-! ## The ghost state -/

/-- Shared by every device: each semaphore's invariant under the name the launch gave it, and that round 0 of each is reached. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

/-- Device `c`'s position on each of its own semaphores. -/
def posAll (c : Dev nD) : sProp 𝕄 := bigSep Finset.univ fun k : CK => atPos ER (cell c k) 0 ∅ 0

/-- The tokens of the duties device `c` pays: a unit on each peer's entry semaphore, and per transfer its own send
    duty and the peer's receive duty. -/
def payToks (c : Dev nD) : sProp 𝕄 :=
  iprop((bigSep Finset.univ fun i : Fin 3 => dutyTok ER (cell (pz c i) .bar) 0 (d3 i))
    ∗ (bigSep Finset.univ fun i : Fin 7 => dutyTok ER (cell (pp c i) .pl) 0 (d7 i))
    ∗ (bigSep Finset.univ fun i : Fin 3 => iprop(dutyTok ER (cell c (.s1 i)) 0 (0 : Fin 8) ∗ dutyTok ER (cell (pz c i) (.r1 i)) 0 (0 : Fin 8)))
    ∗ (bigSep Finset.univ fun i : Fin 7 => iprop(dutyTok ER (cell c (.s2 i)) 0 (0 : Fin 8) ∗ dutyTok ER (cell (pp c i) (.r2 i)) 0 (0 : Fin 8))))

def ghost (K : Dev nD × CK → ℕ) (c : Dev nD) : sProp 𝕄 := iprop(records m K ∗ posAll c ∗ payToks c)

/-- The credit of what the peers owe device `c`: three and seven entry units, and a slot's credit per landing. -/
def creds (c : Dev nD) : sProp 𝕄 :=
  iprop(cred (tallyAt (cell c .bar) () 3) ∗ cred (tallyAt (cell c .pl) () 7)
    ∗ (bigSep Finset.univ fun i : Fin 3 => cred (tallyAt (cell c (.r1 i)) () NA))
    ∗ (bigSep Finset.univ fun i : Fin 7 => cred (tallyAt (cell c (.r2 i)) () NB)))

def start (c : Dev nD) : sProp 𝕄 := iprop((∃ K, ghost m K c) ∗ creds c ∗ levAts L lv)

/-- The two exchange buffers, whole, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The device's own (scoped) semaphores, every role but the runtime's entry semaphore. -/
def ownK : Finset CK := Finset.univ.erase .bar

def Φ₀ (c : Dev nD) : sProp 𝕄 := iprop(start m c ∗ scr c)
def Φ₁ (c : Dev nD) : sProp 𝕄 := iprop(scr c ∗ bigSep ownK fun k => semVal (cell c k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => gs m c
    | ⟨2, _⟩ => bs m c
    | ⟨3, _⟩ => outv m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m K c ∗ creds c ∗ levAts L lv ∗ scr c)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ
    ∗ stg c cc0_stg0_0 (xs m c) ∗ stg c cc0_stg1_0 (gs m c) ∗ stg c cc0_stg2_0 (bs m c) ∗ stg c cc0_stg3_0 (outv m c))

end Cert.KernelIdeal.LNP

end
-- ==== Proof.Steps.lean ====
/-
  The kinds of step a device's thread takes in the exchange, each stated once for an arbitrary peer index: a unit
  signalled on a peer's entry semaphore, handing over a slot; a wait for the whole round of one of its own
  semaphores; a transfer of its slot 0 into a peer's slot; closing one of its own semaphores at the end.
-/
import proofs.«900545_g7700000000000546_dist_layernorm_colshard_i_m768_n512_v7x_i32_f32_1_alg».proof.Proof.Gen.KernelIdeal
import proofs.«900545_g7700000000000546_dist_layernorm_colshard_i_m768_n512_v7x_i32_f32_1_alg».proof.Proof.Gen.KernelIdeal.Skeleton
import proofs.«900545_g7700000000000546_dist_layernorm_colshard_i_m768_n512_v7x_i32_f32_1_alg».proof.Proof.Gen.KernelIdeal.Launch
import proofs.«900545_g7700000000000546_dist_layernorm_colshard_i_m768_n512_v7x_i32_f32_1_alg».proof.Proof.Gen.KernelIdeal.Points
import proofs.«900545_g7700000000000546_dist_layernorm_colshard_i_m768_n512_v7x_i32_f32_1_alg».proof.Proof.KVal
import proofs.«900545_g7700000000000546_dist_layernorm_colshard_i_m768_n512_v7x_i32_f32_1_alg».proof.Proof.Ghost
import Idealize.ShloMosaic.Lib.Pipeline.Launch
import Idealize.ShloMosaic.Lib.Pipeline.Kit
import Idealize.ShloMosaic.Lib.Tactic

noncomputable section

namespace Cert.KernelIdeal.LNP

open Cert.KernelIdeal Cert.KernelIdeal.Gen Cert.LN

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.Transfers (shareTok shareDrop)

local notation "𝕄" => MT nD τ sig Unit (Elt F) ℕ UU ℕ

variable (m : (ℓ : Loc nD τ sig) → Buf (Elt F) ℓ) (K : Dev nD × CK → ℕ)

theorem inv_at' (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)
omit [FloatOps F] in
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (ck : Dev nD × CK) : records m K ⊢ cellInv ER (sched m) (K ck) (kcell ck) := by
  unfold records
  iintro ⟨#HI, -⟩
  iapply (inv_at' m K ck); iexact HI
theorem reached_at (ck : Dev nD × CK) : records m K ⊢ reached ER (kcell ck) 0 := by
  unfold records
  iintro ⟨-, #HR⟩
  iapply (reached_at' (F := F) ck); iexact HR

/-- Device `c` signals a unit on the entry semaphore of its `i`-th high-bit peer, handing it slot `i + 1` of its
    own first exchange buffer. -/
theorem sig_bar (c : Dev nD) (i : Fin 3) (n : Dev nD) (hn : n = pz c i) (k' : ℕ) (hk' : k' = 1)
    {α : Type} {Q : α → sProp 𝕄} {k : PUnit → Prog (TpuEff nD τ sig (Elt F) Λ₀ .tc) α}
    (O : CellTallies nD τ sig Unit) (W : Waits sig Unit) (fd : Buf (Elt F) ((c : Thread nD τ).loc cc0_scratch0)) :
    iprop(records m K ∗ owes (c : Thread nD τ) (O + tallyAt (cell (pz c i) .bar) () 1) W
        ∗ dutyTok ER (cell (pz c i) .bar) 0 (d3 i) ∗ p1 c i.succ fullShare fd)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn; subst hk'
  iintro ⟨#Hrec, HO, Htok, Hp⟩
  iapply (Rounds.wp_signal 𝒱₀ ER (sched m) (c : Thread nD τ) none (dst := (pz c i : Thread nD τ)) (κ := K (pz c i, .bar))
      (d := d3 i) (by show d3 i ∈ (sched m).duties (cell (pz c i) .bar) 0; rw [duties_bar]; exact Finset.mem_map_of_mem _ (Finset.mem_univ _)) (amount_bar m (pz c i) (d3 i)) () O rfl)
    $$ [HO Htok Hp]
  isplitr; · iapply (inv_at m K (pz c i, .bar)); iexact Hrec
  isplitl [HO]; · iexact HO
  isplitl [Htok]; · iexact Htok
  isplitl [Hp]
  · rw [show (sched m).payload ((pz c i : Thread nD τ), SemLoc.reg barS) 0 (d3 i) = _ from payload_bar m (pz c i) i, pz_pz]; iexists fd; iexact Hp
  · iapply (reached_at m K (pz c i, .bar)); iexact Hrec

/-- Device `c` signals a unit on the entry semaphore of its `i`-th low-bit peer, handing it slot `i + 1` of its
    own second exchange buffer. -/
theorem sig_pl (c : Dev nD) (i : Fin 7) (n : Dev nD) (hn : n = pp c i) (k' : ℕ) (hk' : k' = 1)
    {α : Type} {Q : α → sProp 𝕄} {k : PUnit → Prog (TpuEff nD τ sig (Elt F) Λ₀ .tc) α}
    (O : CellTallies nD τ sig Unit) (W : Waits sig Unit) (fd : Buf (Elt F) ((c : Thread nD τ).loc cc0_scratch1)) :
    iprop(records m K ∗ owes (c : Thread nD τ) (O + tallyAt (cell (pp c i) .pl) () 1) W
        ∗ dutyTok ER (cell (pp c i) .pl) 0 (d7 i) ∗ p2 c i.succ fullShare fd)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) plS k') k) Q) := by
  subst hn; subst hk'
  iintro ⟨#Hrec, HO, Htok, Hp⟩
  iapply (Rounds.wp_signal 𝒱₀ ER (sched m) (c : Thread nD τ) none (dst := (pp c i : Thread nD τ)) (κ := K (pp c i, .pl))
      (d := d7 i) (by show d7 i ∈ (sched m).duties (cell (pp c i) .pl) 0; rw [duties_pl]; exact Finset.mem_map_of_mem _ (Finset.mem_univ _)) (amount_pl m (pp c i) (d7 i)) () O rfl)
    $$ [HO Htok Hp]
  isplitr; · iapply (inv_at m K (pp c i, .pl)); iexact Hrec
  isplitl [HO]; · iexact HO
  isplitl [Htok]; · iexact Htok
  isplitl [Hp]
  · rw [show (sched m).payload ((pp c i : Thread nD τ), SemLoc.reg plS) 0 (d7 i) = _ from payload_pl m (pp c i) i, pp_pp]; iexists fd; iexact Hp
  · iapply (reached_at m K (pp c i, .pl)); iexact Hrec

/-- A wait for the whole round of one of the device's own semaphores: the position moves on and the round's payloads come back. -/
theorem wait_rest (c : Dev nD) (k : CK) {w : TpuEff nD τ sig (Elt F) Λ₀ .tc PUnit} {k' : ℕ}
    (hw : ∀ Kc : PUnit → sProp 𝕄, wpE' (defs₀ (F := F)) 𝒱₀ (c : Thread nD τ) none PendingWaitsCtx.empty Set.univ w Kc = waitSpec (c : Thread nD τ) Set.univ (csem k) k' Kc)
    (hk : 0 + k' = (sched m).expect (cell c k) 0)
    {α : Type} {Q : α → sProp 𝕄} {kk : PUnit → Prog (TpuEff nD τ sig (Elt F) Λ₀ .tc) α}
    (O : CellTallies nD τ sig Unit) (W : Waits sig Unit) :
    iprop(records m K ∗ cred (tallyAt (cell c k) () k') ∗ owes (c : Thread nD τ) O W ∗ MayWait (c : Thread nD τ) (csem k) () O ∗ atPos ER (cell c k) 0 ∅ 0)
      ⊢ iprop(((owes (c : Thread nD τ) O (insert (csem k, ()) W) ∗ atPos ER (cell c k) 1 ∅ 0
              ∗ bigSep ((sched m).duties (cell c k) 0 \ ∅) (fun d => (sched m).payload (cell c k) 0 d))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  iintro ⟨#Hrec, Hc, HO, Hmw, Hat⟩ Hk
  iapply (Rounds.wp_wait_rest_token 𝒱₀ ER (sched m) (c : Thread nD τ) none (κ := K (c, k)) hw (Set.mem_univ _) () (O := O) (W := W) (R := 0) (m := 0) (T := ∅) hk)
    $$ [Hc HO Hmw Hat]
  · isplitr; · iapply (inv_at m K (c, k)); iexact Hrec
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iexact Hpay

/-- At the end the device closes one of its own semaphores: its counter, at zero, is the thread's again. -/
theorem close_own (c : Dev nD) (k : CK) : iprop(records m K ∗ atPos ER (cell c k) 1 ∅ 0) ⊢ iprop(|={Set.univ}=> semVal (cell c k) 0) := by
  iintro ⟨#Hrec, Hat⟩
  iapply (Rounds.cell_close ER (sched m) (Set.mem_univ (K (c, k))) (fun h => h) (R := 0 + 1) (duties_later m (cell c k)))
  isplitr; · iapply (inv_at m K (c, k)); iexact Hrec
  iexact Hat

end Cert.KernelIdeal.LNP

end
-- ==== Proof.Slots.lean ====
/-
  The slots of the two exchange buffers.

  Slot `s` of a buffer is the set of its entries whose first coordinate is `s`; a slot's entry `(a, r)` sits at
  `(s, a, r)`. The slots are pairwise disjoint and cover the buffer, so holding the buffer is holding each slot, and
  what is held of a slot depends on the contents on that slot only. A device's own stores go through three rectangles
  inside slot 0 and leave there the row sums and sums of squares (first buffer) and the sum of the four slots (second
  buffer); a landing writes the receiver's slot `i + 1` with the sender's slot 0, which is what the receiver's
  buffer is to hold there, the receiver's `(i + 1)`-th peer being the sender.
-/
import proofs.«900545_g7700000000000546_dist_layernorm_colshard_i_m768_n512_v7x_i32_f32_1_alg».proof.Proof.Sched
import Idealize.ShloMosaic.Lib.Pipeline.Value
import Idealize.ShloMosaic.Lib.ValueLayout

noncomputable section

namespace Cert.KernelIdeal.LNP

open Cert.KernelIdeal Cert.KernelIdeal.Gen Cert.LN

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Where slot `f` of the first buffer puts its entry `(a, r)`. -/
theorem sl1_emb (f : Fin 4) (a : Fin 2) (r : Fin 768) :
    (sl1 f).view.emb (ix2 a r) = (ix3 f a r : S4x2x768.Idx) := by
  show (rs1 f).emb (Shape.reshapeEquiv squeezes_S1x2x768_S2x768.numel_eq (ix2 a r)) = _
  rw [reshapeEquiv_ix2_1ab]
  funext x
  refine Fin.ext ?_
  match x with
  | ⟨0, _⟩ => show f.val + 1 * 0 = f.val; omega
  | ⟨1, _⟩ => show 0 + 1 * a.val = a.val; omega
  | ⟨2, _⟩ => show 0 + 1 * r.val = r.val; omega

theorem sl2_emb (e : Fin 8) (a : Fin 2) (r : Fin 768) :
    (sl2 e).view.emb (ix2 a r) = (ix3 e a r : S8x2x768.Idx) := by
  show (rs2 e).emb (Shape.reshapeEquiv squeezes_S1x2x768_S2x768.numel_eq (ix2 a r)) = _
  rw [reshapeEquiv_ix2_1ab]
  funext x
  refine Fin.ext ?_
  match x with
  | ⟨0, _⟩ => show e.val + 1 * 0 = e.val; omega
  | ⟨1, _⟩ => show 0 + 1 * a.val = a.val; omega
  | ⟨2, _⟩ => show 0 + 1 * r.val = r.val; omega

theorem set1_eq (c : Dev nD) (s : Fin 4) : set1 c s = (rs1 s).set :=
  (View.set_reshape _ _).trans (View.set_slice_whole _ _)
theorem set2_eq (c : Dev nD) (s : Fin 8) : set2 c s = (rs2 s).set :=
  (View.set_reshape _ _).trans (View.set_slice_whole _ _)

theorem mem_set1 (c : Dev nD) (s : Fin 4) (i : Idx ((c : Thread nD τ).loc cc0_scratch0)) :
    i ∈ set1 c s ↔ (i 0).val = s.val := by
  rw [set1_eq, Rect.mem_set_unit]
  constructor
  · intro h
    have h0 := h 0
    have : (![s.val, 0, 0] : Fin 3 → ℕ) 0 ≤ (i 0).val ∧ (i 0).val < (![s.val, 0, 0] : Fin 3 → ℕ) 0 + 1 := h0
    simp only [Matrix.cons_val_zero] at this
    omega
  · intro h a
    match a with
    | ⟨0, _⟩ => show s.val ≤ (i 0).val ∧ (i 0).val < s.val + 1; omega
    | ⟨1, _⟩ => have h1 : (i 1).val < 2 := (i 1).isLt; show 0 ≤ (i 1).val ∧ (i 1).val < 0 + 2; omega
    | ⟨2, _⟩ => have h2 : (i 2).val < 768 := (i 2).isLt; show 0 ≤ (i 2).val ∧ (i 2).val < 0 + 768; omega

theorem mem_set2 (c : Dev nD) (s : Fin 8) (i : Idx ((c : Thread nD τ).loc cc0_scratch1)) :
    i ∈ set2 c s ↔ (i 0).val = s.val := by
  rw [set2_eq, Rect.mem_set_unit]
  constructor
  · intro h
    have h0 := h 0
    have : (![s.val, 0, 0] : Fin 3 → ℕ) 0 ≤ (i 0).val ∧ (i 0).val < (![s.val, 0, 0] : Fin 3 → ℕ) 0 + 1 := h0
    simp only [Matrix.cons_val_zero] at this
    omega
  · intro h a
    match a with
    | ⟨0, _⟩ => show s.val ≤ (i 0).val ∧ (i 0).val < s.val + 1; omega
    | ⟨1, _⟩ => have h1 : (i 1).val < 2 := (i 1).isLt; show 0 ≤ (i 1).val ∧ (i 1).val < 0 + 2; omega
    | ⟨2, _⟩ => have h2 : (i 2).val < 768 := (i 2).isLt; show 0 ≤ (i 2).val ∧ (i 2).val < 0 + 768; omega

/-! ## A buffer is its slots -/

omit [FloatOps F] in
theorem c1_split (c : Dev nD) (q : PosShare TreeShare) (f : Buf (Elt F) ((c : Thread nD τ).loc cc0_scratch0)) :
    (((c : Thread nD τ).loc cc0_scratch0) ↦{q} f : sProp 𝕄) ⊣⊢ bigSep Finset.univ (fun s : Fin 4 => p1 c s q f) := by
  have hu : (Finset.univ : Finset (Idx ((c : Thread nD τ).loc cc0_scratch0))) = (Finset.univ : Finset (Fin 4)).biUnion (set1 c) := by
    ext i
    simp only [Finset.mem_univ, Finset.mem_biUnion, true_and, true_iff]
    exact ⟨⟨(i 0).val, (show (i 0).val < 4 from (i 0).isLt)⟩, (mem_set1 c _ i).mpr rfl⟩
  have hd : ∀ s ∈ (Finset.univ : Finset (Fin 4)), ∀ s' ∈ (Finset.univ : Finset (Fin 4)), s ≠ s' → Disjoint (set1 c s) (set1 c s') := by
    intro s _ s' _ hne
    rw [Finset.disjoint_left]
    intro i hi hi'
    rw [mem_set1] at hi hi'
    exact hne (Fin.ext (hi.symm.trans hi'))
  exact BiEntails.of_eq ((congrArg (fun I => (pointsTo ((c : Thread nD τ).loc cc0_scratch0) I q f : sProp 𝕄)) hu).trans
    (pointsTo_biUnion _ _ hd))

omit [FloatOps F] in
theorem c2_split (c : Dev nD) (q : PosShare TreeShare) (f : Buf (Elt F) ((c : Thread nD τ).loc cc0_scratch1)) :
    (((c : Thread nD τ).loc cc0_scratch1) ↦{q} f : sProp 𝕄) ⊣⊢ bigSep Finset.univ (fun s : Fin 8 => p2 c s q f) := by
  have hu : (Finset.univ : Finset (Idx ((c : Thread nD τ).loc cc0_scratch1))) = (Finset.univ : Finset (Fin 8)).biUnion (set2 c) := by
    ext i
    simp only [Finset.mem_univ, Finset.mem_biUnion, true_and, true_iff]
    exact ⟨⟨(i 0).val, (show (i 0).val < 8 from (i 0).isLt)⟩, (mem_set2 c _ i).mpr rfl⟩
  have hd : ∀ s ∈ (Finset.univ : Finset (Fin 8)), ∀ s' ∈ (Finset.univ : Finset (Fin 8)), s ≠ s' → Disjoint (set2 c s) (set2 c s') := by
    intro s _ s' _ hne
    rw [Finset.disjoint_left]
    intro i hi hi'
    rw [mem_set2] at hi hi'
    exact hne (Fin.ext (hi.symm.trans hi'))
  exact BiEntails.of_eq ((congrArg (fun I => (pointsTo ((c : Thread nD τ).loc cc0_scratch1) I q f : sProp 𝕄)) hu).trans
    (pointsTo_biUnion _ _ hd))

omit [FloatOps F] in
theorem p1_congr (c : Dev nD) (s : Fin 4) (q : PosShare TreeShare) (f f' : Buf (Elt F) ((c : Thread nD τ).loc cc0_scratch0))
    (h : ∀ i ∈ set1 c s, f i = f' i) : p1 (F := F) c s q f ⊢ p1 c s q f' :=
  Entails.of_eq (pointsTo_congr h)

omit [FloatOps F] in
theorem p2_congr (c : Dev nD) (s : Fin 8) (q : PosShare TreeShare) (f f' : Buf (Elt F) ((c : Thread nD τ).loc cc0_scratch1))
    (h : ∀ i ∈ set2 c s, f i = f' i) : p2 (F := F) c s q f ⊢ p2 c s q f' :=
  Entails.of_eq (pointsTo_congr h)

/-! ## What the buffers hold, slot by slot -/

theorem C1_slot (X : Dev nD → Vec F S768x512 .f32) (d : Dev nD) (f : Fin 4) (a : Fin 2) (r : Fin 768) :
    KVal.C1 X d (ix3 f a r)
      = if a.val = 0 then k0_pay3 (X (xz d f)) (ix3 (0 : Fin 1) (0 : Fin 1) r) else k0_pay4 (X (xz d f)) (ix3 (0 : Fin 1) (0 : Fin 1) r) := rfl

theorem C2_slot (X : Dev nD → Vec F S768x512 .f32) (d : Dev nD) (e : Fin 8) (a : Fin 2) (r : Fin 768) :
    KVal.C2 X d (ix3 e a r) = k0_pay5 (KVal.C1 X (xp d e)) (ix3 (0 : Fin 1) a r) := rfl

theorem land1 (c : Dev nD) (i : Fin 3) (fd : Buf (Elt F) (((pz c i : Dev nD) : Thread nD τ).loc cc0_scratch0)) :
    ∀ j ∈ set1 (pz c i) i.succ,
      ((sl1 i.succ).view.write (Elt F) fd ((sl1 0).view.read (Elt F) (C1v m c)) Finset.univ) j = C1v m (pz c i) j := by
  intro j hj
  obtain ⟨y, rfl⟩ := View.exists_emb_of_mem_set (sl1 i.succ).view hj
  refine (View.write_emb_of_mem (v := (sl1 i.succ).view) (Val := Elt F) fd _ (Finset.mem_univ y)).trans ?_
  refine (cast_eq _ _).trans ?_
  show _root_.cast _ (C1v m c ((sl1 0).view.emb y)) = _
  refine (cast_eq _ _).trans ?_
  obtain ⟨a, r, rfl⟩ : ∃ (a : Fin 2) (r : Fin 768), y = ix2 a r := ⟨y 0, y 1, eq_ix2 y⟩
  refine (congrArg (C1v m c) (sl1_emb 0 a r)).trans ?_
  refine Eq.trans ?_ (congrArg (C1v m (pz c i)) (sl1_emb i.succ a r)).symm
  unfold C1v
  rw [C1_slot, C1_slot, xz_zero, show xz (pz c i) i.succ = c from xz_xz c i.succ]

theorem land2 (c : Dev nD) (i : Fin 7) (fd : Buf (Elt F) (((pp c i : Dev nD) : Thread nD τ).loc cc0_scratch1)) :
    ∀ j ∈ set2 (pp c i) i.succ,
      ((sl2 i.succ).view.write (Elt F) fd ((sl2 0).view.read (Elt F) (C2v m c)) Finset.univ) j = C2v m (pp c i) j := by
  intro j hj
  obtain ⟨y, rfl⟩ := View.exists_emb_of_mem_set (sl2 i.succ).view hj
  refine (View.write_emb_of_mem (v := (sl2 i.succ).view) (Val := Elt F) fd _ (Finset.mem_univ y)).trans ?_
  refine (cast_eq _ _).trans ?_
  show _root_.cast _ (C2v m c ((sl2 0).view.emb y)) = _
  refine (cast_eq _ _).trans ?_
  obtain ⟨a, r, rfl⟩ : ∃ (a : Fin 2) (r : Fin 768), y = ix2 a r := ⟨y 0, y 1, eq_ix2 y⟩
  refine (congrArg (C2v m c) (sl2_emb 0 a r)).trans ?_
  refine Eq.trans ?_ (congrArg (C2v m (pp c i)) (sl2_emb i.succ a r)).symm
  unfold C2v
  rw [C2_slot, C2_slot, xp_zero, show xp (pp c i) i.succ = c from xp_xp c i.succ]

/-! ## The three rectangles a device's own loads and stores go through -/

abbrev rA : Rect S4x2x768 := Rect.unit (s := S4x2x768) ![0, 0, 0] S1x1x768.size inb_S4x2x768_S1x1x768_0_0_0
abbrev rB : Rect S4x2x768 := Rect.unit (s := S4x2x768) ![0, 1, 0] S1x1x768.size inb_S4x2x768_S1x1x768_0_1_0
abbrev rC : Rect S8x2x768 := Rect.unit (s := S8x2x768) ![0, 0, 0] S1x2x768.size inb_S8x2x768_S1x2x768_0_0_0

/-- Each of the three lies in slot 0. -/
theorem rA_sub (c : Dev nD) : rA.set ⊆ set1 c 0 := by
  intro i hi
  rw [Rect.mem_set_unit] at hi
  rw [mem_set1]
  have h0 : (0 : ℕ) ≤ (i 0).val ∧ (i 0).val < 0 + 1 := hi 0
  show (i 0).val = 0
  omega
theorem rB_sub (c : Dev nD) : rB.set ⊆ set1 c 0 := by
  intro i hi
  rw [Rect.mem_set_unit] at hi
  rw [mem_set1]
  have h0 : (0 : ℕ) ≤ (i 0).val ∧ (i 0).val < 0 + 1 := hi 0
  show (i 0).val = 0
  omega
theorem rC_sub (c : Dev nD) : rC.set ⊆ set2 c 0 := by
  intro i hi
  rw [Rect.mem_set_unit] at hi
  rw [mem_set2]
  have h0 : (0 : ℕ) ≤ (i 0).val ∧ (i 0).val < 0 + 1 := hi 0
  show (i 0).val = 0
  omega

theorem subA_load (c : Dev nD) : (c1M : Memref sig .tc .vmem S4x2x768 .f32).view.setOn rA.toLoadRect.set ⊆ set1 c 0 := by
  intro i hi
  obtain ⟨x, hx, rfl⟩ := Finset.mem_map.mp hi
  exact rA_sub c hx
theorem subB_load (c : Dev nD) : (c1M : Memref sig .tc .vmem S4x2x768 .f32).view.setOn rB.toLoadRect.set ⊆ set1 c 0 := by
  intro i hi
  obtain ⟨x, hx, rfl⟩ := Finset.mem_map.mp hi
  exact rB_sub c hx
theorem subC_load (c : Dev nD) : (c2M : Memref sig .tc .vmem S8x2x768 .f32).view.setOn rC.toLoadRect.set ⊆ set2 c 0 := by
  intro i hi
  obtain ⟨x, hx, rfl⟩ := Finset.mem_map.mp hi
  exact rC_sub c hx

theorem subA_store (c : Dev nD) :
    ((c1M : Memref sig .tc .vmem S4x2x768 .f32).access rA : View sig .tc _ _ _).setOn Finset.univ ⊆ set1 c 0 := by
  rw [View.setOn_univ, View.set_slice_whole]; exact rA_sub c
theorem subB_store (c : Dev nD) :
    ((c1M : Memref sig .tc .vmem S4x2x768 .f32).access rB : View sig .tc _ _ _).setOn Finset.univ ⊆ set1 c 0 := by
  rw [View.setOn_univ, View.set_slice_whole]; exact rB_sub c
theorem subC_store (c : Dev nD) :
    ((c2M : Memref sig .tc .vmem S8x2x768 .f32).access rC : View sig .tc _ _ _).setOn Finset.univ ⊆ set2 c 0 := by
  rw [View.setOn_univ, View.set_slice_whole]; exact rC_sub c

/-! ## A device's own stores into slot 0 -/

/-- Where the three rectangles put their entries. -/
theorem accA_emb (u v : Fin 1) (r : Fin 768) :
    ((c1M : Memref sig .tc .vmem S4x2x768 .f32).access rA : View sig .tc _ _ _).emb (ix3 u v r) = (ix3 (0 : Fin 4) (0 : Fin 2) r : S4x2x768.Idx) := by
  funext x
  refine Fin.ext ?_
  have hu : u.val = 0 := by omega
  have hv : v.val = 0 := by omega
  match x with
  | ⟨0, _⟩ => show 0 + 1 * u.val = 0; omega
  | ⟨1, _⟩ => show 0 + 1 * v.val = 0; omega
  | ⟨2, _⟩ => show 0 + 1 * r.val = r.val; omega
theorem accB_emb (u v : Fin 1) (r : Fin 768) :
    ((c1M : Memref sig .tc .vmem S4x2x768 .f32).access rB : View sig .tc _ _ _).emb (ix3 u v r) = (ix3 (0 : Fin 4) (1 : Fin 2) r : S4x2x768.Idx) := by
  funext x
  refine Fin.ext ?_
  have hu : u.val = 0 := by omega
  have hv : v.val = 0 := by omega
  match x with
  | ⟨0, _⟩ => show 0 + 1 * u.val = 0; omega
  | ⟨1, _⟩ => show 1 + 1 * v.val = 1; omega
  | ⟨2, _⟩ => show 0 + 1 * r.val = r.val; omega
theorem accC_emb (u : Fin 1) (a : Fin 2) (r : Fin 768) :
    ((c2M : Memref sig .tc .vmem S8x2x768 .f32).access rC : View sig .tc _ _ _).emb (ix3 u a r) = (ix3 (0 : Fin 8) a r : S8x2x768.Idx) := by
  funext x
  refine Fin.ext ?_
  have hu : u.val = 0 := by omega
  match x with
  | ⟨0, _⟩ => show 0 + 1 * u.val = 0; omega
  | ⟨1, _⟩ => show 0 + 1 * a.val = a.val; omega
  | ⟨2, _⟩ => show 0 + 1 * r.val = r.val; omega

theorem store1_at (c : Dev nD) (f : Buf (Elt F) ((c : Thread nD τ).loc cc0_scratch0)) (a : Fin 2) (r : Fin 768) :
    (((c1M : Memref sig .tc .vmem S4x2x768 .f32).access rB : View sig .tc _ _ _).write (Elt F)
        (((c1M : Memref sig .tc .vmem S4x2x768 .f32).access rA : View sig .tc _ _ _).write (Elt F) f (k0_pay3 (xs m c)) Finset.univ)
        (k0_pay4 (xs m c)) Finset.univ) (ix3 (0 : Fin 4) a r : S4x2x768.Idx)
      = C1v m c (ix3 (0 : Fin 4) a r : S4x2x768.Idx) := by
  unfold C1v
  rw [C1_slot, xz_zero]
  match a with
  | ⟨0, _⟩ =>
    refine Eq.trans ?_ (if_pos rfl).symm
    refine (View.write_of_not_mem (v := ((c1M : Memref sig .tc .vmem S4x2x768 .f32).access rB : View sig .tc _ _ _)) _ _ Finset.univ ?_).trans ?_
    · rw [View.setOn_univ, View.set_slice_whole, Rect.mem_set_unit]
      intro h
      have h1 : (1 : ℕ) ≤ 0 ∧ (0 : ℕ) < 1 + 1 := h 1
      omega
    · refine (congrArg _ (accA_emb 0 0 r).symm).trans ?_
      refine (View.write_emb_of_mem (v := ((c1M : Memref sig .tc .vmem S4x2x768 .f32).access rA : View sig .tc _ _ _)) (Val := Elt F) f _ (Finset.mem_univ _)).trans ?_
      exact cast_eq _ _
  | ⟨1, _⟩ =>
    refine Eq.trans ?_ (if_neg Nat.one_ne_zero).symm
    refine (congrArg _ (accB_emb 0 0 r).symm).trans ?_
    refine (View.write_emb_of_mem (v := ((c1M : Memref sig .tc .vmem S4x2x768 .f32).access rB : View sig .tc _ _ _)) (Val := Elt F) _ _ (Finset.mem_univ _)).trans ?_
    exact cast_eq _ _

theorem store1 (c : Dev nD) (f : Buf (Elt F) ((c : Thread nD τ).loc cc0_scratch0)) :
    ∀ j ∈ set1 c 0,
      (((c1M : Memref sig .tc .vmem S4x2x768 .f32).access rB : View sig .tc _ _ _).write (Elt F)
        (((c1M : Memref sig .tc .vmem S4x2x768 .f32).access rA : View sig .tc _ _ _).write (Elt F) f (k0_pay3 (xs m c)) Finset.univ)
        (k0_pay4 (xs m c)) Finset.univ) j = C1v m c j := by
  intro j hj
  obtain ⟨y, rfl⟩ := View.exists_emb_of_mem_set (sl1 0).view hj
  obtain ⟨a, r, rfl⟩ : ∃ (a : Fin 2) (r : Fin 768), y = ix2 a r := ⟨y 0, y 1, eq_ix2 y⟩
  rw [sl1_emb]
  exact store1_at m c f a r

theorem store2 (c : Dev nD) (f : Buf (Elt F) ((c : Thread nD τ).loc cc0_scratch1)) :
    ∀ j ∈ set2 c 0,
      (((c2M : Memref sig .tc .vmem S8x2x768 .f32).access rC : View sig .tc _ _ _).write (Elt F) f (k0_pay5 (C1v m c)) Finset.univ) j
        = C2v m c j := by
  intro j hj
  obtain ⟨y, rfl⟩ := View.exists_emb_of_mem_set (sl2 0).view hj
  obtain ⟨a, r, rfl⟩ : ∃ (a : Fin 2) (r : Fin 768), y = ix2 a r := ⟨y 0, y 1, eq_ix2 y⟩
  rw [sl2_emb]
  unfold C2v C1v
  rw [C2_slot, xp_zero]
  refine (congrArg _ (accC_emb 0 a r).symm).trans ?_
  refine (View.write_emb_of_mem (v := ((c2M : Memref sig .tc .vmem S8x2x768 .f32).access rC : View sig .tc _ _ _)) (Val := Elt F) f _ (Finset.mem_univ _)).trans ?_
  exact cast_eq _ _

end Cert.KernelIdeal.LNP

end
-- ==== Proof.Sends.lean ====
/-
  The two kinds of transfer a device's thread issues in the exchange, each stated once for an arbitrary peer index:
  its slot 0 of the first exchange buffer into slot i + 1 of its i-th high-bit peer's, and its slot 0 of the second
  into slot i + 1 of its i-th low-bit peer's. The share of slot 0 the transfer reads comes back on the device's own
  send semaphore; the peer's slot, rewritten with what slot 0 held, is handed to the peer on its receive semaphore.
-/
import proofs.«900545_g7700000000000546_dist_layernorm_colshard_i_m768_n512_v7x_i32_f32_1_alg».proof.Proof.Gen.KernelIdeal
import proofs.«900545_g7700000000000546_dist_layernorm_colshard_i_m768_n512_v7x_i32_f32_1_alg».proof.Proof.Gen.KernelIdeal.Skeleton
import proofs.«900545_g7700000000000546_dist_layernorm_colshard_i_m768_n512_v7x_i32_f32_1_alg».proof.Proof.Gen.KernelIdeal.Launch
import proofs.«900545_g7700000000000546_dist_layernorm_colshard_i_m768_n512_v7x_i32_f32_1_alg».proof.Proof.Gen.KernelIdeal.Points
import proofs.«900545_g7700000000000546_dist_layernorm_colshard_i_m768_n512_v7x_i32_f32_1_alg».proof.Proof.KVal
import proofs.«900545_g7700000000000546_dist_layernorm_colshard_i_m768_n512_v7x_i32_f32_1_alg».proof.Proof.Ghost
import proofs.«900545_g7700000000000546_dist_layernorm_colshard_i_m768_n512_v7x_i32_f32_1_alg».proof.Proof.Steps
import Idealize.ShloMosaic.Lib.Pipeline.Launch
import Idealize.ShloMosaic.Lib.Pipeline.Kit
import Idealize.ShloMosaic.Lib.Tactic

noncomputable section

namespace Cert.KernelIdeal.LNP

open Cert.KernelIdeal Cert.KernelIdeal.Gen Cert.LN

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.Transfers (shareTok shareDrop)

local notation "𝕄" => MT nD τ sig Unit (Elt F) ℕ UU ℕ

variable (m : (ℓ : Loc nD τ sig) → Buf (Elt F) ℓ) (K : Dev nD × CK → ℕ)

/-- Device `c` sends slot 0 of its first exchange buffer into slot `i + 1` of its `i`-th high-bit peer's. -/
theorem send1 (c : Dev nD) (i : Fin 3) (n : Dev nD) (hn : n = pz c i)
    {hsc : (sl1 i.succ : Memref sig (Dev.tc n : Thread nD τ).2.kind .vmem S2x768 .f32).view.ref.isScScratch = false}
    {hsrc : (sl1 0 : Memref sig .tc .vmem S2x768 .f32).view.WordExact} {hdst : (sl1 i.succ : Memref sig .tc .vmem S2x768 .f32).view.WordExact}
    {hsem : DmaTarget.Typed .vmem (.dma (rc1 i)) (.remote (Dev.tc n : Thread nD τ) (sl1 i.succ : Memref sig .tc .vmem S2x768 .f32) (.dma (sd1 i)) hsc)}
    {α : Type} {Q : α → sProp 𝕄} {k : PUnit → Prog (TpuEff nD τ sig (Elt F) Λ₀ .tc) α}
    (O : CellTallies nD τ sig Unit) (W : Waits sig Unit) (fd : Buf (Elt F) (((pz c i : Dev nD) : Thread nD τ).loc cc0_scratch0))
    (hland : p1 (pz c i) i.succ fullShare ((sl1 i.succ).view.write (Elt F) fd ((sl1 0).view.read (Elt F) (C1v m c)) Finset.univ)
      ⊢ p1 (pz c i) i.succ fullShare (C1v m (pz c i))) :
    iprop(records m K ∗ p1 c 0 (shareTok fullShare 3 i) (C1v m c) ∗ p1 (pz c i) i.succ fullShare fd
        ∗ owes (c : Thread nD τ) (O + tallyAt (cell (pz c i) (.r1 i)) () NA) W
        ∗ dutyTok ER (cell c (.s1 i)) 0 (0 : Fin 8) ∗ dutyTok ER (cell (pz c i) (.r1 i)) 0 (0 : Fin 8))
      ⊢ iprop(((cred (tallyAt (cell c (.s1 i)) () NA) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sl1 0) (.remote (Dev.tc n : Thread nD τ) (sl1 i.succ) (.dma (sd1 i)) hsc) (.dma (rc1 i)) hsrc hdst hsem) k) Q) := by
  subst hn
  rw [p1_eq c 0, p1_eq (pz c i) i.succ]
  iintro ⟨#Hrec, Hs, Hd, HO, Ht1, Ht2⟩
  iapply (Rounds.wp_send_pointsTo 𝒱₀ ER (sched m) (c : Thread nD τ) none (c' := (pz c i : Thread nD τ))
      (src := sl1 0) (dst := sl1 i.succ) (sS := .dma (sd1 i)) (sem := .dma (rc1 i))
      (q := shareTok fullShare 3 i) (fs := C1v m c) (fd := fd)
      (κ₁ := K (c, .s1 i)) (κ₂ := K (pz c i, .r1 i)) (r₁ := 0) (r₂ := 0) (d₁ := (0 : Fin 8)) (d₂ := (0 : Fin 8))
      (by show (0 : Fin 8) ∈ (sched m).duties (cell c (.s1 i)) 0; rw [duties_s1]; exact Finset.mem_singleton_self _)
      (by show (0 : Fin 8) ∈ (sched m).duties (cell (pz c i) (.r1 i)) 0; rw [duties_r1]; exact Finset.mem_singleton_self _)
      () () NA (amt1 i.succ (rc1 i)) (amount_s1 m c i 0) (amount_r1 m (pz c i) i 0) O rfl (W := W)
      (by show _ ⊢ (sched m).payload (cell c (.s1 i)) 0 (0 : Fin 8); rw [payload_s1]; exact BI.Entails.refl _)
      (by show _ ⊢ (sched m).payload (cell (pz c i) (.r1 i)) 0 (0 : Fin 8); rw [payload_r1]; exact hland))
    $$ [Hs Hd HO Ht1 Ht2]
  isplitr; · iapply (inv_at m K (c, .s1 i)); iexact Hrec
  isplitr; · iapply (inv_at m K (pz c i, .r1 i)); iexact Hrec
  isplitl [Hs]; · iexact Hs
  isplitl [Hd]; · iexact Hd
  isplitl [HO]; · iexact HO
  isplitl [Ht1]; · iexact Ht1
  isplitr; · iapply (reached_at m K (c, .s1 i)); iexact Hrec
  isplitl [Ht2]; · iexact Ht2
  iapply (reached_at m K (pz c i, .r1 i)); iexact Hrec

/-- Device `c` sends slot 0 of its second exchange buffer into slot `i + 1` of its `i`-th low-bit peer's. -/
theorem send2 (c : Dev nD) (i : Fin 7) (n : Dev nD) (hn : n = pp c i)
    {hsc : (sl2 i.succ : Memref sig (Dev.tc n : Thread nD τ).2.kind .vmem S2x768 .f32).view.ref.isScScratch = false}
    {hsrc : (sl2 0 : Memref sig .tc .vmem S2x768 .f32).view.WordExact} {hdst : (sl2 i.succ : Memref sig .tc .vmem S2x768 .f32).view.WordExact}
    {hsem : DmaTarget.Typed .vmem (.dma (rc2 i)) (.remote (Dev.tc n : Thread nD τ) (sl2 i.succ : Memref sig .tc .vmem S2x768 .f32) (.dma (sd2 i)) hsc)}
    {α : Type} {Q : α → sProp 𝕄} {k : PUnit → Prog (TpuEff nD τ sig (Elt F) Λ₀ .tc) α}
    (O : CellTallies nD τ sig Unit) (W : Waits sig Unit) (fd : Buf (Elt F) (((pp c i : Dev nD) : Thread nD τ).loc cc0_scratch1))
    (hland : p2 (pp c i) i.succ fullShare ((sl2 i.succ).view.write (Elt F) fd ((sl2 0).view.read (Elt F) (C2v m c)) Finset.univ)
      ⊢ p2 (pp c i) i.succ fullShare (C2v m (pp c i))) :
    iprop(records m K ∗ p2 c 0 (shareTok fullShare 7 i) (C2v m c) ∗ p2 (pp c i) i.succ fullShare fd
        ∗ owes (c : Thread nD τ) (O + tallyAt (cell (pp c i) (.r2 i)) () NB) W
        ∗ dutyTok ER (cell c (.s2 i)) 0 (0 : Fin 8) ∗ dutyTok ER (cell (pp c i) (.r2 i)) 0 (0 : Fin 8))
      ⊢ iprop(((cred (tallyAt (cell c (.s2 i)) () NB) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sl2 0) (.remote (Dev.tc n : Thread nD τ) (sl2 i.succ) (.dma (sd2 i)) hsc) (.dma (rc2 i)) hsrc hdst hsem) k) Q) := by
  subst hn
  rw [p2_eq c 0, p2_eq (pp c i) i.succ]
  iintro ⟨#Hrec, Hs, Hd, HO, Ht1, Ht2⟩
  iapply (Rounds.wp_send_pointsTo 𝒱₀ ER (sched m) (c : Thread nD τ) none (c' := (pp c i : Thread nD τ))
      (src := sl2 0) (dst := sl2 i.succ) (sS := .dma (sd2 i)) (sem := .dma (rc2 i))
      (q := shareTok fullShare 7 i) (fs := C2v m c) (fd := fd)
      (κ₁ := K (c, .s2 i)) (κ₂ := K (pp c i, .r2 i)) (r₁ := 0) (r₂ := 0) (d₁ := (0 : Fin 8)) (d₂ := (0 : Fin 8))
      (by show (0 : Fin 8) ∈ (sched m).duties (cell c (.s2 i)) 0; rw [duties_s2]; exact Finset.mem_singleton_self _)
      (by show (0 : Fin 8) ∈ (sched m).duties (cell (pp c i) (.r2 i)) 0; rw [duties_r2]; exact Finset.mem_singleton_self _)
      () () NB (amt2 i.succ (rc2 i)) (amount_s2 m c i 0) (amount_r2 m (pp c i) i 0) O rfl (W := W)
      (by show _ ⊢ (sched m).payload (cell c (.s2 i)) 0 (0 : Fin 8); rw [payload_s2]; exact BI.Entails.refl _)
      (by show _ ⊢ (sched m).payload (cell (pp c i) (.r2 i)) 0 (0 : Fin 8); rw [payload_r2]; exact hland))
    $$ [Hs Hd HO Ht1 Ht2]
  isplitr; · iapply (inv_at m K (c, .s2 i)); iexact Hrec
  isplitr; · iapply (inv_at m K (pp c i, .r2 i)); iexact Hrec
  isplitl [Hs]; · iexact Hs
  isplitl [Hd]; · iexact Hd
  isplitl [HO]; · iexact HO
  isplitl [Ht1]; · iexact Ht1
  isplitr; · iapply (reached_at m K (c, .s2 i)); iexact Hrec
  isplitl [Ht2]; · iexact Ht2
  iapply (reached_at m K (pp c i, .r2 i)); iexact Hrec

end Cert.KernelIdeal.LNP

end
-- ==== Proof.Body.lean ====
/-
  One device's thread, stepped from the state the launch gives it to the state it must hand back.
-/
import proofs.«900545_g7700000000000546_dist_layernorm_colshard_i_m768_n512_v7x_i32_f32_1_alg».proof.Proof.Gen.KernelIdeal
import proofs.«900545_g7700000000000546_dist_layernorm_colshard_i_m768_n512_v7x_i32_f32_1_alg».proof.Proof.Gen.KernelIdeal.Skeleton
import proofs.«900545_g7700000000000546_dist_layernorm_colshard_i_m768_n512_v7x_i32_f32_1_alg».proof.Proof.Gen.KernelIdeal.Launch
import proofs.«900545_g7700000000000546_dist_layernorm_colshard_i_m768_n512_v7x_i32_f32_1_alg».proof.Proof.Gen.KernelIdeal.Points
import proofs.«900545_g7700000000000546_dist_layernorm_colshard_i_m768_n512_v7x_i32_f32_1_alg».proof.Proof.KVal
import proofs.«900545_g7700000000000546_dist_layernorm_colshard_i_m768_n512_v7x_i32_f32_1_alg».proof.Proof.Steps
import proofs.«900545_g7700000000000546_dist_layernorm_colshard_i_m768_n512_v7x_i32_f32_1_alg».proof.Proof.Slots
import proofs.«900545_g7700000000000546_dist_layernorm_colshard_i_m768_n512_v7x_i32_f32_1_alg».proof.Proof.Sends
import Idealize.ShloMosaic.Lib.Pipeline.Launch
import Idealize.ShloMosaic.Lib.Pipeline.Kit
import Idealize.ShloMosaic.Lib.Tactic

noncomputable section

namespace Cert.KernelIdeal.LNP

open Cert.KernelIdeal Cert.KernelIdeal.Gen Cert.LN

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.Transfers (shareTok shareDrop pointsTo_toks_split pointsTo_toks_join)

local notation "𝕄" => MT nD τ sig Unit (Elt F) ℕ UU ℕ

variable (m : (ℓ : Loc nD τ sig) → Buf (Elt F) ℓ) (ρ : Dev nD → PrngReg)

/-! ## Opening the conjunctions by role -/

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_CK (Φ : CK → sProp 𝕄) : bigSep Finset.univ Φ
    = iprop(Φ .bar ∗ Φ .pl ∗ Φ (.s1 0) ∗ Φ (.s1 1) ∗ Φ (.s1 2) ∗ Φ (.r1 0) ∗ Φ (.r1 1) ∗ Φ (.r1 2)
        ∗ Φ (.s2 0) ∗ Φ (.s2 1) ∗ Φ (.s2 2) ∗ Φ (.s2 3) ∗ Φ (.s2 4) ∗ Φ (.s2 5) ∗ Φ (.s2 6)
        ∗ Φ (.r2 0) ∗ Φ (.r2 1) ∗ Φ (.r2 2) ∗ Φ (.r2 3) ∗ Φ (.r2 4) ∗ Φ (.r2 5) ∗ Φ (.r2 6)) :=
  bigSep_univ_eq_bigSepL ([CK.bar, CK.pl, CK.s1 0, CK.s1 1, CK.s1 2, CK.r1 0, CK.r1 1, CK.r1 2, CK.s2 0, CK.s2 1, CK.s2 2, CK.s2 3, CK.s2 4, CK.s2 5, CK.s2 6,
    CK.r2 0, CK.r2 1, CK.r2 2, CK.r2 3, CK.r2 4, CK.r2 5, CK.r2 6] : List CK) (by decide) (by decide) Φ

/-! ## Whole-buffer reads and writes -/

abbrev rX : Rect S768x512 := Rect.unit (s := S768x512) ![0, 0] S768x512.size inb_S768x512_S768x512_0_0
abbrev rV : Rect S512 := Rect.unit (s := S512) ![0] S512.size inb_S512_S512_0
abbrev rW1 : Rect S4x2x768 := Rect.unit (s := S4x2x768) ![0, 0, 0] S4x2x768.size inb_S4x2x768_S4x2x768_0_0_0
abbrev rW2 : Rect S8x2x768 := Rect.unit (s := S8x2x768) ![0, 0, 0] S8x2x768.size inb_S8x2x768_S8x2x768_0_0_0

omit [FloatOps F] in
theorem hz1 : (![0] : Fin 1 → Nat) = fun _ => 0 := funext fun a => by fin_cases a; rfl
omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem read_x (f : (cc0_stg0_0 : Ref sig .tc).ty.Contents (Elt F)) : (Memref.whole cc0_stg0_0 : Memref sig .tc .vmem S768x512 .f32).view.readAt (Elt F) rX.toLoadRect f = f :=
  Memref.readAt_unit_zero (Elt F) cc0_stg0_0 hz2 _ f
omit [FloatOps F] in
theorem read_g (f : (cc0_stg1_0 : Ref sig .tc).ty.Contents (Elt F)) : (Memref.whole cc0_stg1_0 : Memref sig .tc .vmem S512 .f32).view.readAt (Elt F) rV.toLoadRect f = f :=
  Memref.readAt_unit_zero (Elt F) cc0_stg1_0 hz1 _ f
omit [FloatOps F] in
theorem read_b (f : (cc0_stg2_0 : Ref sig .tc).ty.Contents (Elt F)) : (Memref.whole cc0_stg2_0 : Memref sig .tc .vmem S512 .f32).view.readAt (Elt F) rV.toLoadRect f = f :=
  Memref.readAt_unit_zero (Elt F) cc0_stg2_0 hz1 _ f
omit [FloatOps F] in
theorem read_c1 (f : (cc0_scratch0 : Ref sig .tc).ty.Contents (Elt F)) : (c1M : Memref sig .tc .vmem S4x2x768 .f32).view.readAt (Elt F) rW1.toLoadRect f = f :=
  Memref.readAt_unit_zero (Elt F) cc0_scratch0 hz3 _ f
omit [FloatOps F] in
theorem read_c2 (f : (cc0_scratch1 : Ref sig .tc).ty.Contents (Elt F)) : (c2M : Memref sig .tc .vmem S8x2x768 .f32).view.readAt (Elt F) rW2.toLoadRect f = f :=
  Memref.readAt_unit_zero (Elt F) cc0_scratch1 hz3 _ f
omit [FloatOps F] in
theorem write_out (f w : (cc0_stg3_0 : Ref sig .tc).ty.Contents (Elt F)) :
    (((Memref.whole cc0_stg3_0 : Memref sig .tc .vmem S768x512 .f32).access rX : View sig .tc _ _ _).write (Elt F) f w Finset.univ) = w :=
  Memref.write_access_unit_zero_univ (Elt F) cc0_stg3_0 hz2 _ f w

/-! ## A slot's points-to, spelt out; and a slot shared among concurrent readers -/

omit [FloatOps F] in
theorem p1_raw (c : Dev nD) (s : Fin 4) (q : PosShare TreeShare) (h : Buf (Elt F) ((c : Thread nD τ).loc cc0_scratch0)) :
    p1 c s q h = ((((c : Thread nD τ).loc cc0_scratch0) ↦[set1 c s]{q} h) : sProp 𝕄) := rfl
omit [FloatOps F] in
theorem p2_raw (c : Dev nD) (s : Fin 8) (q : PosShare TreeShare) (h : Buf (Elt F) ((c : Thread nD τ).loc cc0_scratch1)) :
    p2 c s q h = ((((c : Thread nD τ).loc cc0_scratch1) ↦[set2 c s]{q} h) : sProp 𝕄) := rfl

omit [FloatOps F] in
/-- Slot 0 of the first exchange buffer as a remainder and one share per transfer that reads it. -/
theorem share3 (c : Dev nD) (h : Buf (Elt F) ((c : Thread nD τ).loc cc0_scratch0)) :
    (p1 (F := F) c 0 fullShare h) ⊣⊢ iprop(p1 c 0 (shareDrop fullShare 3) h ∗ p1 c 0 (shareTok fullShare 3 0) h ∗ p1 c 0 (shareTok fullShare 3 1) h ∗ p1 c 0 (shareTok fullShare 3 2) h) := by
  have h3 : ((((c : Thread nD τ).loc cc0_scratch0) ↦[set1 c 0]{fullShare} h : sProp 𝕄) ⊣⊢ _) := Idealize.ShloMosaic.Transfers.pointsTo_toks fullShare 3
  rw [bigSep_fin3] at h3
  exact h3
omit [FloatOps F] in
theorem share7 (c : Dev nD) (h : Buf (Elt F) ((c : Thread nD τ).loc cc0_scratch1)) :
    (p2 (F := F) c 0 fullShare h) ⊣⊢ iprop(p2 c 0 (shareDrop fullShare 7) h ∗ p2 c 0 (shareTok fullShare 7 0) h ∗ p2 c 0 (shareTok fullShare 7 1) h ∗ p2 c 0 (shareTok fullShare 7 2) h
      ∗ p2 c 0 (shareTok fullShare 7 3) h ∗ p2 c 0 (shareTok fullShare 7 4) h ∗ p2 c 0 (shareTok fullShare 7 5) h ∗ p2 c 0 (shareTok fullShare 7 6) h) := by
  have h7 : ((((c : Thread nD τ).loc cc0_scratch1) ↦[set2 c 0]{fullShare} h : sProp 𝕄) ⊣⊢ _) := Idealize.ShloMosaic.Transfers.pointsTo_toks fullShare 7
  rw [bigSep_fin7] at h7
  exact h7

omit [FloatOps F] in
theorem bigSep_ownK (Φ : CK → sProp 𝕄) : bigSep ownK Φ
    = iprop(Φ .pl ∗ Φ (.s1 0) ∗ Φ (.s1 1) ∗ Φ (.s1 2) ∗ Φ (.r1 0) ∗ Φ (.r1 1) ∗ Φ (.r1 2)
        ∗ Φ (.s2 0) ∗ Φ (.s2 1) ∗ Φ (.s2 2) ∗ Φ (.s2 3) ∗ Φ (.s2 4) ∗ Φ (.s2 5) ∗ Φ (.s2 6)
        ∗ Φ (.r2 0) ∗ Φ (.r2 1) ∗ Φ (.r2 2) ∗ Φ (.r2 3) ∗ Φ (.r2 4) ∗ Φ (.r2 5) ∗ Φ (.r2 6)) := by
  unfold ownK
  rw [bigSep_eq_bigSepL_of_eq ([CK.pl, CK.s1 0, CK.s1 1, CK.s1 2, CK.r1 0, CK.r1 1, CK.r1 2, CK.s2 0, CK.s2 1, CK.s2 2, CK.s2 3, CK.s2 4, CK.s2 5, CK.s2 6,
    CK.r2 0, CK.r2 1, CK.r2 2, CK.r2 3, CK.r2 4, CK.r2 5, CK.r2 6] : List CK) (by decide) (by decide)]
  rfl

section Body
variable (K : Dev nD × CK → ℕ)

set_option maxHeartbeats 3200000 in
set_option maxRecDepth 8000 in
/-- The body, rule by rule in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId, bind_assoc, pure_bind]
  simp only [dev1_eq c, dev2_eq c, dev3_eq c, dev4_eq c, dev5_eq c, dev6_eq c, dev7_eq c, dev8_eq c, dev9_eq c, dev10_eq c,
    dev11_eq c, dev12_eq c, dev13_eq c, dev14_eq c, dev15_eq c, dev16_eq c, dev17_eq c, dev18_eq c, dev19_eq c, dev20_eq c]
  unfold bodyPre ghost posAll payToks creds scr
  rw [bigSep_CK, bigSep_fin3, bigSep_fin3, bigSep_fin3, bigSep_fin7, bigSep_fin7, bigSep_fin7]
  iintro ⟨⟨⟨⟨#Hrec,
        ⟨Pbar, Ppl, Ps10, Ps11, Ps12, Pr10, Pr11, Pr12, Ps20, Ps21, Ps22, Ps23, Ps24, Ps25, Ps26, Pr20, Pr21, Pr22, Pr23, Pr24, Pr25, Pr26⟩,
        ⟨Tb0, Tb1, Tb2⟩, ⟨Tp0, Tp1, Tp2, Tp3, Tp4, Tp5, Tp6⟩, ⟨⟨Ts10, Tr10⟩, ⟨Ts11, Tr11⟩, ⟨Ts12, Tr12⟩⟩,
        ⟨⟨Ts20, Tr20⟩, ⟨Ts21, Tr21⟩, ⟨Ts22, Tr22⟩, ⟨Ts23, Tr23⟩, ⟨Ts24, Tr24⟩, ⟨Ts25, Tr25⟩, ⟨Ts26, Tr26⟩⟩⟩,
      ⟨Cbar, Cpl, ⟨Cr10, Cr11, Cr12⟩, ⟨Cr20, Cr21, Cr22, Cr23, Cr24, Cr25, Cr26⟩⟩, #Hlev, ⟨%f1, Hc1⟩, ⟨%f2, Hc2⟩⟩,
    Ho, ⟨%d0, %g0, %hg0, Hx⟩, ⟨%d1, %g1, %hg1, Hg⟩, ⟨%d2, %g2, %hg2, Hb⟩, ⟨%d3', %g3, %hg3, Hout⟩⟩, Hk⟩
  -- the staged inputs hold the device's blocks
  have hx : g0 = xs m c := by rw [hg0]; unfold Dat.before; rw [if_pos (fetch0_0 t₀)]; rfl
  have hg : g1 = gs m c := by rw [hg1]; unfold Dat.before; rw [if_pos (fetch0_1 t₀)]; rfl
  have hb : g2 = bs m c := by rw [hg2]; unfold Dat.before; rw [if_pos (fetch0_2 t₀)]; rfl
  subst hx; subst hg; subst hb
  unfold Dat.owesAt Pipeline.owesWithin
  icases Ho with ⟨%W, %hW, HO⟩
  rw [show (dats m ρ 0 c).owed t₀.castSucc = owedBar c 3 from rfl]
  -- the two exchange buffers cut into their slots
  ihave Hs1 := ((c1_split c fullShare f1).1.trans (Entails.of_eq (bigSep_fin4 _))) $$ Hc1
  icases Hs1 with ⟨A0, A1, A2, A3⟩
  ihave Hs2 := ((c2_split c fullShare f2).1.trans (Entails.of_eq (bigSep_fin8 _))) $$ Hc2
  icases Hs2 with ⟨B0, B1, B2, B3, B4, B5, B6, B7⟩
  -- the three entry signals to the high-bit peers, each handing over a slot of the first exchange buffer
  rw [show owedBar c 3 = owedBar c 2 + tallyAt (cell (pz c 0) .bar) () 1 from owedBar_peel c 0]
  iapply (sig_bar m K c 0 _ rfl (1#32).toNat (by decide) (owedBar c 2) W f1) $$ [HO Tb0 A1]
  · isplitr; · iexact Hrec
    isplitl [HO]; · iexact HO
    isplitl [Tb0]; · iexact Tb0
    iexact A1
  iintro HO
  rw [show owedBar c 2 = owedBar c 1 + tallyAt (cell (pz c 1) .bar) () 1 from owedBar_peel c 1]
  iapply (sig_bar m K c 1 _ rfl (1#32).toNat (by decide) (owedBar c 1) W f1) $$ [HO Tb1 A2]
  · isplitr; · iexact Hrec
    isplitl [HO]; · iexact HO
    isplitl [Tb1]; · iexact Tb1
    iexact A2
  iintro HO
  rw [show owedBar c 1 = owedBar c 0 + tallyAt (cell (pz c 2) .bar) () 1 from owedBar_peel c 2]
  iapply (sig_bar m K c 2 _ rfl (1#32).toNat (by decide) (owedBar c 0) W f1) $$ [HO Tb2 A3]
  · isplitr; · iexact Hrec
    isplitl [HO]; · iexact HO
    isplitl [Tb2]; · iexact Tb2
    iexact A3
  iintro HO
  -- the seven entry signals to the low-bit peers, each handing over a slot of the second exchange buffer
  rw [show owedBar c 0 = owedPl c 6 + tallyAt (cell (pp c 0) .pl) () 1 from owedPl_peel c 0]
  iapply (sig_pl m K c 0 _ rfl (1#32).toNat (by decide) (owedPl c 6) W f2) $$ [HO Tp0 B1]
  · isplitr; · iexact Hrec
    isplitl [HO]; · iexact HO
    isplitl [Tp0]; · iexact Tp0
    iexact B1
  iintro HO
  rw [show owedPl c 6 = owedPl c 5 + tallyAt (cell (pp c 1) .pl) () 1 from owedPl_peel c 1]
  iapply (sig_pl m K c 1 _ rfl (1#32).toNat (by decide) (owedPl c 5) W f2) $$ [HO Tp1 B2]
  · isplitr; · iexact Hrec
    isplitl [HO]; · iexact HO
    isplitl [Tp1]; · iexact Tp1
    iexact B2
  iintro HO
  rw [show owedPl c 5 = owedPl c 4 + tallyAt (cell (pp c 2) .pl) () 1 from owedPl_peel c 2]
  iapply (sig_pl m K c 2 _ rfl (1#32).toNat (by decide) (owedPl c 4) W f2) $$ [HO Tp2 B3]
  · isplitr; · iexact Hrec
    isplitl [HO]; · iexact HO
    isplitl [Tp2]; · iexact Tp2
    iexact B3
  iintro HO
  rw [show owedPl c 4 = owedPl c 3 + tallyAt (cell (pp c 3) .pl) () 1 from owedPl_peel c 3]
  iapply (sig_pl m K c 3 _ rfl (1#32).toNat (by decide) (owedPl c 3) W f2) $$ [HO Tp3 B4]
  · isplitr; · iexact Hrec
    isplitl [HO]; · iexact HO
    isplitl [Tp3]; · iexact Tp3
    iexact B4
  iintro HO
  rw [show owedPl c 3 = owedPl c 2 + tallyAt (cell (pp c 4) .pl) () 1 from owedPl_peel c 4]
  iapply (sig_pl m K c 4 _ rfl (1#32).toNat (by decide) (owedPl c 2) W f2) $$ [HO Tp4 B5]
  · isplitr; · iexact Hrec
    isplitl [HO]; · iexact HO
    isplitl [Tp4]; · iexact Tp4
    iexact B5
  iintro HO
  rw [show owedPl c 2 = owedPl c 1 + tallyAt (cell (pp c 5) .pl) () 1 from owedPl_peel c 5]
  iapply (sig_pl m K c 5 _ rfl (1#32).toNat (by decide) (owedPl c 1) W f2) $$ [HO Tp5 B6]
  · isplitr; · iexact Hrec
    isplitl [HO]; · iexact HO
    isplitl [Tp5]; · iexact Tp5
    iexact B6
  iintro HO
  rw [show owedPl c 1 = owedPl c 0 + tallyAt (cell (pp c 6) .pl) () 1 from owedPl_peel c 6]
  iapply (sig_pl m K c 6 _ rfl (1#32).toNat (by decide) (owedPl c 0) W f2) $$ [HO Tp6 B7]
  · isplitr; · iexact Hrec
    isplitl [HO]; · iexact HO
    isplitl [Tp6]; · iexact Tp6
    iexact B7
  iintro HO
  -- the block of x is read; its row sums and row sums of squares go to the two rows of slot 0
  iapply (wp_load 𝒱₀ (c : Thread nD τ) none Set.univ (m := (Memref.whole cc0_stg0_0 : Memref sig .tc .vmem S768x512 .f32)) (Finset.subset_univ _)) $$ Hx; iintro Hx
  rw [read_x]
  ihave A0 := (Entails.of_eq (p1_raw c 0 fullShare f1)) $$ A0
  iapply (wp_load 𝒱₀ (c : Thread nD τ) none Set.univ (m := (c1M : Memref sig .tc .vmem S4x2x768 .f32)) (S := set1 c 0) (subA_load c)) $$ A0; iintro A0
  iapply (wp_store 𝒱₀ (c : Thread nD τ) none Set.univ (m := (c1M : Memref sig .tc .vmem S4x2x768 .f32)) (r := rA) (Mk := Finset.univ) (S := set1 c 0) (subA_store c)) $$ A0; iintro A0
  iapply (wp_load 𝒱₀ (c : Thread nD τ) none Set.univ (m := (c1M : Memref sig .tc .vmem S4x2x768 .f32)) (S := set1 c 0) (subB_load c)) $$ A0; iintro A0
  iapply (wp_store 𝒱₀ (c : Thread nD τ) none Set.univ (m := (c1M : Memref sig .tc .vmem S4x2x768 .f32)) (r := rB) (Mk := Finset.univ) (S := set1 c 0) (subB_store c)) $$ A0; iintro A0
  ihave A0 := ((Entails.of_eq (p1_raw c 0 fullShare _).symm).trans (p1_congr c 0 fullShare _ (C1v m c) (store1 m c f1))) $$ A0
  -- slot 0 is read by three transfers at once: a share for each
  ihave A0 := (share3 c (C1v m c)).1 $$ A0
  icases A0 with ⟨A0r, Q0, Q1, Q2⟩
  -- the wait for the three high-bit peers' entry signals: each hands over the slot it set aside
  iapply (wait_rest m K c .bar (wpE_semWait_eq 𝒱₀ (c : Thread nD τ) none Set.univ) (by rw [expect_bar]; decide) (owedR1 c 3) W) $$ [Cbar HO Pbar]
  · isplitr; · iexact Hrec
    isplitl [Cbar]; · iexact Cbar
    isplitl [HO]; · iexact HO
    isplitr; · iapply (mayWait_bar c); iexact Hlev
    iexact Pbar
  iintro ⟨HO, Pbar, Hpay⟩
  ihave Hp := (Entails.of_eq ((rest_bar m c).trans (bigSep_fin3 _))) $$ Hpay
  icases Hp with ⟨⟨%e0, D0⟩, ⟨%e1, D1⟩, ⟨%e2, D2⟩⟩
  generalize insert (csem CK.bar, ()) W = W1
  -- the three transfers of slot 0 into the peers' slots
  rw [show owedR1 c 3 = owedR1 c 2 + tallyAt (cell (pz c 0) (.r1 0)) () NA from owedR1_peel c 0]
  iapply (send1 m K c 0 ⟨k0_dev11 c, k0_dev11_lt c⟩ (dev11_eq c) (owedR1 c 2) W1 e0 (p1_congr (pz c 0) (Fin.succ 0) fullShare _ _ (land1 m c 0 e0))) $$ [Q0 D0 HO Ts10 Tr10]
  · isplitr; · iexact Hrec
    isplitl [Q0]; · iexact Q0
    isplitl [D0]; · iexact D0
    isplitl [HO]; · iexact HO
    isplitl [Ts10]; · iexact Ts10
    iexact Tr10
  iintro ⟨Cs10, HO⟩
  rw [show owedR1 c 2 = owedR1 c 1 + tallyAt (cell (pz c 1) (.r1 1)) () NA from owedR1_peel c 1]
  iapply (send1 m K c 1 ⟨k0_dev12 c, k0_dev12_lt c⟩ (dev12_eq c) (owedR1 c 1) W1 e1 (p1_congr (pz c 1) (Fin.succ 1) fullShare _ _ (land1 m c 1 e1))) $$ [Q1 D1 HO Ts11 Tr11]
  · isplitr; · iexact Hrec
    isplitl [Q1]; · iexact Q1
    isplitl [D1]; · iexact D1
    isplitl [HO]; · iexact HO
    isplitl [Ts11]; · iexact Ts11
    iexact Tr11
  iintro ⟨Cs11, HO⟩
  rw [show owedR1 c 1 = owedR1 c 0 + tallyAt (cell (pz c 2) (.r1 2)) () NA from owedR1_peel c 2]
  iapply (send1 m K c 2 ⟨k0_dev13 c, k0_dev13_lt c⟩ (dev13_eq c) (owedR1 c 0) W1 e2 (p1_congr (pz c 2) (Fin.succ 2) fullShare _ _ (land1 m c 2 e2))) $$ [Q2 D2 HO Ts12 Tr12]
  · isplitr; · iexact Hrec
    isplitl [Q2]; · iexact Q2
    isplitl [D2]; · iexact D2
    isplitl [HO]; · iexact HO
    isplitl [Ts12]; · iexact Ts12
    iexact Tr12
  iintro ⟨Cs12, HO⟩
  -- the six waits: each send gives back its share of slot 0, each receive hands over a slot holding a peer's sums
  iapply (wait_rest m K c (.s1 0) (wpE_waitDma2_eq 𝒱₀ (c : Thread nD τ) none Set.univ) (by rw [Nat.zero_add, expect_s1]) (owedR2 c 7) W1) $$ [Cs10 HO Ps10]
  · isplitr; · iexact Hrec
    isplitl [Cs10]; · iexact Cs10
    isplitl [HO]; · iexact HO
    isplitr; · iapply (mayWait_s1 c 0); iexact Hlev
    iexact Ps10
  iintro ⟨HO, Ps10, Hpay⟩
  ihave Q0 := (Entails.of_eq (rest_s1 m c 0)) $$ Hpay
  generalize insert (csem (CK.s1 0), ()) W1 = W2
  iapply (wait_rest m K c (.r1 0) (wpE_waitDma2_eq 𝒱₀ (c : Thread nD τ) none Set.univ) (by rw [Nat.zero_add, expect_r1]) (owedR2 c 7) W2) $$ [Cr10 HO Pr10]
  · isplitr; · iexact Hrec
    isplitl [Cr10]; · iexact Cr10
    isplitl [HO]; · iexact HO
    isplitr; · iapply (mayWait_r1 c 0); iexact Hlev
    iexact Pr10
  iintro ⟨HO, Pr10, Hpay⟩
  ihave R1 := (Entails.of_eq (rest_r1 m c 0)) $$ Hpay
  generalize insert (csem (CK.r1 0), ()) W2 = W3
  iapply (wait_rest m K c (.s1 1) (wpE_waitDma2_eq 𝒱₀ (c : Thread nD τ) none Set.univ) (by rw [Nat.zero_add, expect_s1]) (owedR2 c 7) W3) $$ [Cs11 HO Ps11]
  · isplitr; · iexact Hrec
    isplitl [Cs11]; · iexact Cs11
    isplitl [HO]; · iexact HO
    isplitr; · iapply (mayWait_s1 c 1); iexact Hlev
    iexact Ps11
  iintro ⟨HO, Ps11, Hpay⟩
  ihave Q1 := (Entails.of_eq (rest_s1 m c 1)) $$ Hpay
  generalize insert (csem (CK.s1 1), ()) W3 = W4
  iapply (wait_rest m K c (.r1 1) (wpE_waitDma2_eq 𝒱₀ (c : Thread nD τ) none Set.univ) (by rw [Nat.zero_add, expect_r1]) (owedR2 c 7) W4) $$ [Cr11 HO Pr11]
  · isplitr; · iexact Hrec
    isplitl [Cr11]; · iexact Cr11
    isplitl [HO]; · iexact HO
    isplitr; · iapply (mayWait_r1 c 1); iexact Hlev
    iexact Pr11
  iintro ⟨HO, Pr11, Hpay⟩
  ihave R2 := (Entails.of_eq (rest_r1 m c 1)) $$ Hpay
  generalize insert (csem (CK.r1 1), ()) W4 = W5
  iapply (wait_rest m K c (.s1 2) (wpE_waitDma2_eq 𝒱₀ (c : Thread nD τ) none Set.univ) (by rw [Nat.zero_add, expect_s1]) (owedR2 c 7) W5) $$ [Cs12 HO Ps12]
  · isplitr; · iexact Hrec
    isplitl [Cs12]; · iexact Cs12
    isplitl [HO]; · iexact HO
    isplitr; · iapply (mayWait_s1 c 2); iexact Hlev
    iexact Ps12
  iintro ⟨HO, Ps12, Hpay⟩
  ihave Q2 := (Entails.of_eq (rest_s1 m c 2)) $$ Hpay
  generalize insert (csem (CK.s1 2), ()) W5 = W6
  iapply (wait_rest m K c (.r1 2) (wpE_waitDma2_eq 𝒱₀ (c : Thread nD τ) none Set.univ) (by rw [Nat.zero_add, expect_r1]) (owedR2 c 7) W6) $$ [Cr12 HO Pr12]
  · isplitr; · iexact Hrec
    isplitl [Cr12]; · iexact Cr12
    isplitl [HO]; · iexact HO
    isplitr; · iapply (mayWait_r1 c 2); iexact Hlev
    iexact Pr12
  iintro ⟨HO, Pr12, Hpay⟩
  ihave R3 := (Entails.of_eq (rest_r1 m c 2)) $$ Hpay
  generalize insert (csem (CK.r1 2), ()) W6 = W7
  -- the first exchange buffer is whole again, holding the four devices' sums
  ihave A0 := (share3 c (C1v m c)).2 $$ [A0r Q0 Q1 Q2]
  · isplitl [A0r]; · iexact A0r
    isplitl [Q0]; · iexact Q0
    isplitl [Q1]; · iexact Q1
    iexact Q2
  ihave Hc1 := ((Entails.of_eq (bigSep_fin4 _).symm).trans (c1_split c fullShare (C1v m c)).2) $$ [A0 R1 R2 R3]
  · isplitl [A0]; · iexact A0
    isplitl [R1]; · iexact R1
    isplitl [R2]; · iexact R2
    iexact R3
  iapply (wp_load 𝒱₀ (c : Thread nD τ) none Set.univ (m := (c1M : Memref sig .tc .vmem S4x2x768 .f32)) (Finset.subset_univ _)) $$ Hc1; iintro Hc1
  rw [read_c1]
  -- their sum goes to slot 0 of the second exchange buffer
  ihave B0 := (Entails.of_eq (p2_raw c 0 fullShare f2)) $$ B0
  iapply (wp_load 𝒱₀ (c : Thread nD τ) none Set.univ (m := (c2M : Memref sig .tc .vmem S8x2x768 .f32)) (S := set2 c 0) (subC_load c)) $$ B0; iintro B0
  iapply (wp_store 𝒱₀ (c : Thread nD τ) none Set.univ (m := (c2M : Memref sig .tc .vmem S8x2x768 .f32)) (r := rC) (Mk := Finset.univ) (S := set2 c 0) (subC_store c)) $$ B0; iintro B0
  ihave B0 := ((Entails.of_eq (p2_raw c 0 fullShare _).symm).trans (p2_congr c 0 fullShare _ (C2v m c) (store2 m c f2))) $$ B0
  ihave B0 := (share7 c (C2v m c)).1 $$ B0
  icases B0 with ⟨B0r, U0, U1, U2, U3, U4, U5, U6⟩
  -- the wait for the seven low-bit peers' entry signals: each hands over the slot it set aside
  iapply (wait_rest m K c .pl (wpE_semWait_eq 𝒱₀ (c : Thread nD τ) none Set.univ) (by rw [expect_pl]; decide) (owedR2 c 7) W7) $$ [Cpl HO Ppl]
  · isplitr; · iexact Hrec
    isplitl [Cpl]; · iexact Cpl
    isplitl [HO]; · iexact HO
    isplitr; · iapply (mayWait_pl c); iexact Hlev
    iexact Ppl
  iintro ⟨HO, Ppl, Hpay⟩
  ihave Hp := (Entails.of_eq ((rest_pl m c).trans (bigSep_fin7 _))) $$ Hpay
  icases Hp with ⟨⟨%h0, E0⟩, ⟨%h1, E1⟩, ⟨%h2, E2⟩, ⟨%h3, E3⟩, ⟨%h4, E4⟩, ⟨%h5, E5⟩, ⟨%h6, E6⟩⟩
  generalize insert (csem CK.pl, ()) W7 = W8
  -- the seven transfers of slot 0 into the peers' slots
  rw [show owedR2 c 7 = owedR2 c 6 + tallyAt (cell (pp c 0) (.r2 0)) () NB from owedR2_peel c 0]
  iapply (send2 m K c 0 ⟨k0_dev14 c, k0_dev14_lt c⟩ (dev14_eq c) (owedR2 c 6) W8 h0 (p2_congr (pp c 0) (Fin.succ 0) fullShare _ _ (land2 m c 0 h0))) $$ [U0 E0 HO Ts20 Tr20]
  · isplitr; · iexact Hrec
    isplitl [U0]; · iexact U0
    isplitl [E0]; · iexact E0
    isplitl [HO]; · iexact HO
    isplitl [Ts20]; · iexact Ts20
    iexact Tr20
  iintro ⟨Cs20, HO⟩
  rw [show owedR2 c 6 = owedR2 c 5 + tallyAt (cell (pp c 1) (.r2 1)) () NB from owedR2_peel c 1]
  iapply (send2 m K c 1 ⟨k0_dev15 c, k0_dev15_lt c⟩ (dev15_eq c) (owedR2 c 5) W8 h1 (p2_congr (pp c 1) (Fin.succ 1) fullShare _ _ (land2 m c 1 h1))) $$ [U1 E1 HO Ts21 Tr21]
  · isplitr; · iexact Hrec
    isplitl [U1]; · iexact U1
    isplitl [E1]; · iexact E1
    isplitl [HO]; · iexact HO
    isplitl [Ts21]; · iexact Ts21
    iexact Tr21
  iintro ⟨Cs21, HO⟩
  rw [show owedR2 c 5 = owedR2 c 4 + tallyAt (cell (pp c 2) (.r2 2)) () NB from owedR2_peel c 2]
  iapply (send2 m K c 2 ⟨k0_dev16 c, k0_dev16_lt c⟩ (dev16_eq c) (owedR2 c 4) W8 h2 (p2_congr (pp c 2) (Fin.succ 2) fullShare _ _ (land2 m c 2 h2))) $$ [U2 E2 HO Ts22 Tr22]
  · isplitr; · iexact Hrec
    isplitl [U2]; · iexact U2
    isplitl [E2]; · iexact E2
    isplitl [HO]; · iexact HO
    isplitl [Ts22]; · iexact Ts22
    iexact Tr22
  iintro ⟨Cs22, HO⟩
  rw [show owedR2 c 4 = owedR2 c 3 + tallyAt (cell (pp c 3) (.r2 3)) () NB from owedR2_peel c 3]
  iapply (send2 m K c 3 ⟨k0_dev17 c, k0_dev17_lt c⟩ (dev17_eq c) (owedR2 c 3) W8 h3 (p2_congr (pp c 3) (Fin.succ 3) fullShare _ _ (land2 m c 3 h3))) $$ [U3 E3 HO Ts23 Tr23]
  · isplitr; · iexact Hrec
    isplitl [U3]; · iexact U3
    isplitl [E3]; · iexact E3
    isplitl [HO]; · iexact HO
    isplitl [Ts23]; · iexact Ts23
    iexact Tr23
  iintro ⟨Cs23, HO⟩
  rw [show owedR2 c 3 = owedR2 c 2 + tallyAt (cell (pp c 4) (.r2 4)) () NB from owedR2_peel c 4]
  iapply (send2 m K c 4 ⟨k0_dev18 c, k0_dev18_lt c⟩ (dev18_eq c) (owedR2 c 2) W8 h4 (p2_congr (pp c 4) (Fin.succ 4) fullShare _ _ (land2 m c 4 h4))) $$ [U4 E4 HO Ts24 Tr24]
  · isplitr; · iexact Hrec
    isplitl [U4]; · iexact U4
    isplitl [E4]; · iexact E4
    isplitl [HO]; · iexact HO
    isplitl [Ts24]; · iexact Ts24
    iexact Tr24
  iintro ⟨Cs24, HO⟩
  rw [show owedR2 c 2 = owedR2 c 1 + tallyAt (cell (pp c 5) (.r2 5)) () NB from owedR2_peel c 5]
  iapply (send2 m K c 5 ⟨k0_dev19 c, k0_dev19_lt c⟩ (dev19_eq c) (owedR2 c 1) W8 h5 (p2_congr (pp c 5) (Fin.succ 5) fullShare _ _ (land2 m c 5 h5))) $$ [U5 E5 HO Ts25 Tr25]
  · isplitr; · iexact Hrec
    isplitl [U5]; · iexact U5
    isplitl [E5]; · iexact E5
    isplitl [HO]; · iexact HO
    isplitl [Ts25]; · iexact Ts25
    iexact Tr25
  iintro ⟨Cs25, HO⟩
  rw [show owedR2 c 1 = owedR2 c 0 + tallyAt (cell (pp c 6) (.r2 6)) () NB from owedR2_peel c 6]
  iapply (send2 m K c 6 ⟨k0_dev20 c, k0_dev20_lt c⟩ (dev20_eq c) (owedR2 c 0) W8 h6 (p2_congr (pp c 6) (Fin.succ 6) fullShare _ _ (land2 m c 6 h6))) $$ [U6 E6 HO Ts26 Tr26]
  · isplitr; · iexact Hrec
    isplitl [U6]; · iexact U6
    isplitl [E6]; · iexact E6
    isplitl [HO]; · iexact HO
    isplitl [Ts26]; · iexact Ts26
    iexact Tr26
  iintro ⟨Cs26, HO⟩
  -- the fourteen waits, owing nothing any more: each send gives back its share of slot 0, each receive hands over a slot holding a peer's sum
  iapply (wait_rest m K c (.s2 0) (wpE_waitDma2_eq 𝒱₀ (c : Thread nD τ) none Set.univ) (by rw [Nat.zero_add, expect_s2]) 0 W8) $$ [Cs20 HO Ps20]
  · isplitr; · iexact Hrec
    isplitl [Cs20]; · iexact Cs20
    isplitl [HO]; · iexact HO
    isplitr; · rw [MayWait_zero]; iempintro
    iexact Ps20
  iintro ⟨HO, Ps20, Hpay⟩
  ihave U0 := (Entails.of_eq (rest_s2 m c 0)) $$ Hpay
  generalize insert (csem (CK.s2 0), ()) W8 = W9
  iapply (wait_rest m K c (.r2 0) (wpE_waitDma2_eq 𝒱₀ (c : Thread nD τ) none Set.univ) (by rw [Nat.zero_add, expect_r2]) 0 W9) $$ [Cr20 HO Pr20]
  · isplitr; · iexact Hrec
    isplitl [Cr20]; · iexact Cr20
    isplitl [HO]; · iexact HO
    isplitr; · rw [MayWait_zero]; iempintro
    iexact Pr20
  iintro ⟨HO, Pr20, Hpay⟩
  ihave V0 := (Entails.of_eq (rest_r2 m c 0)) $$ Hpay
  generalize insert (csem (CK.r2 0), ()) W9 = W10
  iapply (wait_rest m K c (.s2 1) (wpE_waitDma2_eq 𝒱₀ (c : Thread nD τ) none Set.univ) (by rw [Nat.zero_add, expect_s2]) 0 W10) $$ [Cs21 HO Ps21]
  · isplitr; · iexact Hrec
    isplitl [Cs21]; · iexact Cs21
    isplitl [HO]; · iexact HO
    isplitr; · rw [MayWait_zero]; iempintro
    iexact Ps21
  iintro ⟨HO, Ps21, Hpay⟩
  ihave U1 := (Entails.of_eq (rest_s2 m c 1)) $$ Hpay
  generalize insert (csem (CK.s2 1), ()) W10 = W11
  iapply (wait_rest m K c (.r2 1) (wpE_waitDma2_eq 𝒱₀ (c : Thread nD τ) none Set.univ) (by rw [Nat.zero_add, expect_r2]) 0 W11) $$ [Cr21 HO Pr21]
  · isplitr; · iexact Hrec
    isplitl [Cr21]; · iexact Cr21
    isplitl [HO]; · iexact HO
    isplitr; · rw [MayWait_zero]; iempintro
    iexact Pr21
  iintro ⟨HO, Pr21, Hpay⟩
  ihave V1 := (Entails.of_eq (rest_r2 m c 1)) $$ Hpay
  generalize insert (csem (CK.r2 1), ()) W11 = W12
  iapply (wait_rest m K c (.s2 2) (wpE_waitDma2_eq 𝒱₀ (c : Thread nD τ) none Set.univ) (by rw [Nat.zero_add, expect_s2]) 0 W12) $$ [Cs22 HO Ps22]
  · isplitr; · iexact Hrec
    isplitl [Cs22]; · iexact Cs22
    isplitl [HO]; · iexact HO
    isplitr; · rw [MayWait_zero]; iempintro
    iexact Ps22
  iintro ⟨HO, Ps22, Hpay⟩
  ihave U2 := (Entails.of_eq (rest_s2 m c 2)) $$ Hpay
  generalize insert (csem (CK.s2 2), ()) W12 = W13
  iapply (wait_rest m K c (.r2 2) (wpE_waitDma2_eq 𝒱₀ (c : Thread nD τ) none Set.univ) (by rw [Nat.zero_add, expect_r2]) 0 W13) $$ [Cr22 HO Pr22]
  · isplitr; · iexact Hrec
    isplitl [Cr22]; · iexact Cr22
    isplitl [HO]; · iexact HO
    isplitr; · rw [MayWait_zero]; iempintro
    iexact Pr22
  iintro ⟨HO, Pr22, Hpay⟩
  ihave V2 := (Entails.of_eq (rest_r2 m c 2)) $$ Hpay
  generalize insert (csem (CK.r2 2), ()) W13 = W14
  iapply (wait_rest m K c (.s2 3) (wpE_waitDma2_eq 𝒱₀ (c : Thread nD τ) none Set.univ) (by rw [Nat.zero_add, expect_s2]) 0 W14) $$ [Cs23 HO Ps23]
  · isplitr; · iexact Hrec
    isplitl [Cs23]; · iexact Cs23
    isplitl [HO]; · iexact HO
    isplitr; · rw [MayWait_zero]; iempintro
    iexact Ps23
  iintro ⟨HO, Ps23, Hpay⟩
  ihave U3 := (Entails.of_eq (rest_s2 m c 3)) $$ Hpay
  generalize insert (csem (CK.s2 3), ()) W14 = W15
  iapply (wait_rest m K c (.r2 3) (wpE_waitDma2_eq 𝒱₀ (c : Thread nD τ) none Set.univ) (by rw [Nat.zero_add, expect_r2]) 0 W15) $$ [Cr23 HO Pr23]
  · isplitr; · iexact Hrec
    isplitl [Cr23]; · iexact Cr23
    isplitl [HO]; · iexact HO
    isplitr; · rw [MayWait_zero]; iempintro
    iexact Pr23
  iintro ⟨HO, Pr23, Hpay⟩
  ihave V3 := (Entails.of_eq (rest_r2 m c 3)) $$ Hpay
  generalize insert (csem (CK.r2 3), ()) W15 = W16
  iapply (wait_rest m K c (.s2 4) (wpE_waitDma2_eq 𝒱₀ (c : Thread nD τ) none Set.univ) (by rw [Nat.zero_add, expect_s2]) 0 W16) $$ [Cs24 HO Ps24]
  · isplitr; · iexact Hrec
    isplitl [Cs24]; · iexact Cs24
    isplitl [HO]; · iexact HO
    isplitr; · rw [MayWait_zero]; iempintro
    iexact Ps24
  iintro ⟨HO, Ps24, Hpay⟩
  ihave U4 := (Entails.of_eq (rest_s2 m c 4)) $$ Hpay
  generalize insert (csem (CK.s2 4), ()) W16 = W17
  iapply (wait_rest m K c (.r2 4) (wpE_waitDma2_eq 𝒱₀ (c : Thread nD τ) none Set.univ) (by rw [Nat.zero_add, expect_r2]) 0 W17) $$ [Cr24 HO Pr24]
  · isplitr; · iexact Hrec
    isplitl [Cr24]; · iexact Cr24
    isplitl [HO]; · iexact HO
    isplitr; · rw [MayWait_zero]; iempintro
    iexact Pr24
  iintro ⟨HO, Pr24, Hpay⟩
  ihave V4 := (Entails.of_eq (rest_r2 m c 4)) $$ Hpay
  generalize insert (csem (CK.r2 4), ()) W17 = W18
  iapply (wait_rest m K c (.s2 5) (wpE_waitDma2_eq 𝒱₀ (c : Thread nD τ) none Set.univ) (by rw [Nat.zero_add, expect_s2]) 0 W18) $$ [Cs25 HO Ps25]
  · isplitr; · iexact Hrec
    isplitl [Cs25]; · iexact Cs25
    isplitl [HO]; · iexact HO
    isplitr; · rw [MayWait_zero]; iempintro
    iexact Ps25
  iintro ⟨HO, Ps25, Hpay⟩
  ihave U5 := (Entails.of_eq (rest_s2 m c 5)) $$ Hpay
  generalize insert (csem (CK.s2 5), ()) W18 = W19
  iapply (wait_rest m K c (.r2 5) (wpE_waitDma2_eq 𝒱₀ (c : Thread nD τ) none Set.univ) (by rw [Nat.zero_add, expect_r2]) 0 W19) $$ [Cr25 HO Pr25]
  · isplitr; · iexact Hrec
    isplitl [Cr25]; · iexact Cr25
    isplitl [HO]; · iexact HO
    isplitr; · rw [MayWait_zero]; iempintro
    iexact Pr25
  iintro ⟨HO, Pr25, Hpay⟩
  ihave V5 := (Entails.of_eq (rest_r2 m c 5)) $$ Hpay
  generalize insert (csem (CK.r2 5), ()) W19 = W20
  iapply (wait_rest m K c (.s2 6) (wpE_waitDma2_eq 𝒱₀ (c : Thread nD τ) none Set.univ) (by rw [Nat.zero_add, expect_s2]) 0 W20) $$ [Cs26 HO Ps26]
  · isplitr; · iexact Hrec
    isplitl [Cs26]; · iexact Cs26
    isplitl [HO]; · iexact HO
    isplitr; · rw [MayWait_zero]; iempintro
    iexact Ps26
  iintro ⟨HO, Ps26, Hpay⟩
  ihave U6 := (Entails.of_eq (rest_s2 m c 6)) $$ Hpay
  generalize insert (csem (CK.s2 6), ()) W20 = W21
  iapply (wait_rest m K c (.r2 6) (wpE_waitDma2_eq 𝒱₀ (c : Thread nD τ) none Set.univ) (by rw [Nat.zero_add, expect_r2]) 0 W21) $$ [Cr26 HO Pr26]
  · isplitr; · iexact Hrec
    isplitl [Cr26]; · iexact Cr26
    isplitl [HO]; · iexact HO
    isplitr; · rw [MayWait_zero]; iempintro
    iexact Pr26
  iintro ⟨HO, Pr26, Hpay⟩
  ihave V6 := (Entails.of_eq (rest_r2 m c 6)) $$ Hpay
  generalize insert (csem (CK.r2 6), ()) W21 = W22
  -- the second exchange buffer is whole again, holding the eight devices' sums
  ihave B0 := (share7 c (C2v m c)).2 $$ [B0r U0 U1 U2 U3 U4 U5 U6]
  · isplitl [B0r]; · iexact B0r
    isplitl [U0]; · iexact U0
    isplitl [U1]; · iexact U1
    isplitl [U2]; · iexact U2
    isplitl [U3]; · iexact U3
    isplitl [U4]; · iexact U4
    isplitl [U5]; · iexact U5
    iexact U6
  ihave Hc2 := ((Entails.of_eq (bigSep_fin8 _).symm).trans (c2_split c fullShare (C2v m c)).2) $$ [B0 V0 V1 V2 V3 V4 V5 V6]
  · isplitl [B0]; · iexact B0
    isplitl [V0]; · iexact V0
    isplitl [V1]; · iexact V1
    isplitl [V2]; · iexact V2
    isplitl [V3]; · iexact V3
    isplitl [V4]; · iexact V4
    isplitl [V5]; · iexact V5
    iexact V6
  iapply (wp_load 𝒱₀ (c : Thread nD τ) none Set.univ (m := (c2M : Memref sig .tc .vmem S8x2x768 .f32)) (Finset.subset_univ _)) $$ Hc2; iintro Hc2
  rw [read_c2]
  -- the device's own semaphores close: their counters, at zero, are the thread's again
  imod (close_own m K c .pl) $$ [Ppl] with Zpl
  · isplitr; · iexact Hrec
    iexact Ppl
  imod (close_own m K c (.s1 0)) $$ [Ps10] with Zs10
  · isplitr; · iexact Hrec
    iexact Ps10
  imod (close_own m K c (.s1 1)) $$ [Ps11] with Zs11
  · isplitr; · iexact Hrec
    iexact Ps11
  imod (close_own m K c (.s1 2)) $$ [Ps12] with Zs12
  · isplitr; · iexact Hrec
    iexact Ps12
  imod (close_own m K c (.r1 0)) $$ [Pr10] with Zr10
  · isplitr; · iexact Hrec
    iexact Pr10
  imod (close_own m K c (.r1 1)) $$ [Pr11] with Zr11
  · isplitr; · iexact Hrec
    iexact Pr11
  imod (close_own m K c (.r1 2)) $$ [Pr12] with Zr12
  · isplitr; · iexact Hrec
    iexact Pr12
  imod (close_own m K c (.s2 0)) $$ [Ps20] with Zs20
  · isplitr; · iexact Hrec
    iexact Ps20
  imod (close_own m K c (.s2 1)) $$ [Ps21] with Zs21
  · isplitr; · iexact Hrec
    iexact Ps21
  imod (close_own m K c (.s2 2)) $$ [Ps22] with Zs22
  · isplitr; · iexact Hrec
    iexact Ps22
  imod (close_own m K c (.s2 3)) $$ [Ps23] with Zs23
  · isplitr; · iexact Hrec
    iexact Ps23
  imod (close_own m K c (.s2 4)) $$ [Ps24] with Zs24
  · isplitr; · iexact Hrec
    iexact Ps24
  imod (close_own m K c (.s2 5)) $$ [Ps25] with Zs25
  · isplitr; · iexact Hrec
    iexact Ps25
  imod (close_own m K c (.s2 6)) $$ [Ps26] with Zs26
  · isplitr; · iexact Hrec
    iexact Ps26
  imod (close_own m K c (.r2 0)) $$ [Pr20] with Zr20
  · isplitr; · iexact Hrec
    iexact Pr20
  imod (close_own m K c (.r2 1)) $$ [Pr21] with Zr21
  · isplitr; · iexact Hrec
    iexact Pr21
  imod (close_own m K c (.r2 2)) $$ [Pr22] with Zr22
  · isplitr; · iexact Hrec
    iexact Pr22
  imod (close_own m K c (.r2 3)) $$ [Pr23] with Zr23
  · isplitr; · iexact Hrec
    iexact Pr23
  imod (close_own m K c (.r2 4)) $$ [Pr24] with Zr24
  · isplitr; · iexact Hrec
    iexact Pr24
  imod (close_own m K c (.r2 5)) $$ [Pr25] with Zr25
  · isplitr; · iexact Hrec
    iexact Pr25
  imod (close_own m K c (.r2 6)) $$ [Pr26] with Zr26
  · isplitr; · iexact Hrec
    iexact Pr26
  -- the scale, the shift and the result block are read; the normalised block is stored
  iapply (wp_load 𝒱₀ (c : Thread nD τ) none Set.univ (m := (Memref.whole cc0_stg1_0 : Memref sig .tc .vmem S512 .f32)) (Finset.subset_univ _)) $$ Hg; iintro Hg
  rw [read_g]
  iapply (wp_load 𝒱₀ (c : Thread nD τ) none Set.univ (m := (Memref.whole cc0_stg2_0 : Memref sig .tc .vmem S512 .f32)) (Finset.subset_univ _)) $$ Hb; iintro Hb
  rw [read_b]
  iapply (wp_load 𝒱₀ (c : Thread nD τ) none Set.univ (m := (Memref.whole cc0_stg3_0 : Memref sig .tc .vmem S768x512 .f32)) (Finset.subset_univ _)) $$ Hout; iintro Hout
  iapply (wp_store 𝒱₀ (c : Thread nD τ) none Set.univ (m := (Memref.whole cc0_stg3_0 : Memref sig .tc .vmem S768x512 .f32)) (r := rX) (Mk := Finset.univ) (Finset.subset_univ _)) $$ Hout; iintro Hout
  rw [write_out, wp_ret]; imodintro
  iapply Hk
  unfold bodyPost Φ₁ scr Dat.owesAt Pipeline.owesWithin
  rw [show (dats m ρ 0 c).owed t₀.succ = 0 from rfl, bigSep_ownK]
  isplitl [Hc1 Hc2 Zpl Zs10 Zs11 Zs12 Zr10 Zr11 Zr12 Zs20 Zs21 Zs22 Zs23 Zs24 Zs25 Zs26 Zr20 Zr21 Zr22 Zr23 Zr24 Zr25 Zr26]
  · isplitl [Hc1 Hc2]
    · isplitl [Hc1]; · iexists _; iexact Hc1
      iexists _; iexact Hc2
    isplitl [Zpl]; · iexact Zpl
    isplitl [Zs10]; · iexact Zs10
    isplitl [Zs11]; · iexact Zs11
    isplitl [Zs12]; · iexact Zs12
    isplitl [Zr10]; · iexact Zr10
    isplitl [Zr11]; · iexact Zr11
    isplitl [Zr12]; · iexact Zr12
    isplitl [Zs20]; · iexact Zs20
    isplitl [Zs21]; · iexact Zs21
    isplitl [Zs22]; · iexact Zs22
    isplitl [Zs23]; · iexact Zs23
    isplitl [Zs24]; · iexact Zs24
    isplitl [Zs25]; · iexact Zs25
    isplitl [Zs26]; · iexact Zs26
    isplitl [Zr20]; · iexact Zr20
    isplitl [Zr21]; · iexact Zr21
    isplitl [Zr22]; · iexact Zr22
    isplitl [Zr23]; · iexact Zr23
    isplitl [Zr24]; · iexact Zr24
    isplitl [Zr25]; · iexact Zr25
    iexact Zr26
  isplitl [HO]
  · iexists W22
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  isplitl [Hb]
  · iexists _; isplitr; · (ipureintro; rfl)
    iexact Hb
  iexists _; isplitr; · (ipureintro; rfl)
  iexact Hout

/-- info: 'Cert.KernelIdeal.LNP.sound_body' depends on axioms: [propext, Classical.choice, Quot.sound] -/
#guard_msgs in #print axioms sound_body

end Body

end Cert.KernelIdeal.LNP

end
-- ==== Proof.BodyOb.lean ====
/-
  The pipeline's body obligation on a device, from a run of the kernel's body.

  The pipeline hands the body the invariant before its one grid point, what the device owes there, and its four
  staging buffers whole; it wants back the invariant after the point, what is owed then, and the four buffers at
  the contents the proof data names. A run of the body from `bodyPre` to `bodyPost`, for every naming of the
  semaphores' invariants and every continuation, is exactly that once the windows' conjunction is written out, a
  whole staging buffer's ownership is read as a points-to on the whole buffer, and the naming is taken out of the
  invariant.
-/
import proofs.«900545_g7700000000000546_dist_layernorm_colshard_i_m768_n512_v7x_i32_f32_1_alg».proof.Proof.Gen.KernelIdeal
import proofs.«900545_g7700000000000546_dist_layernorm_colshard_i_m768_n512_v7x_i32_f32_1_alg».proof.Proof.Gen.KernelIdeal.Skeleton
import proofs.«900545_g7700000000000546_dist_layernorm_colshard_i_m768_n512_v7x_i32_f32_1_alg».proof.Proof.Gen.KernelIdeal.Launch
import proofs.«900545_g7700000000000546_dist_layernorm_colshard_i_m768_n512_v7x_i32_f32_1_alg».proof.Proof.Gen.KernelIdeal.Points
import proofs.«900545_g7700000000000546_dist_layernorm_colshard_i_m768_n512_v7x_i32_f32_1_alg».proof.Proof.KVal
import proofs.«900545_g7700000000000546_dist_layernorm_colshard_i_m768_n512_v7x_i32_f32_1_alg».proof.Proof.Sched
import proofs.«900545_g7700000000000546_dist_layernorm_colshard_i_m768_n512_v7x_i32_f32_1_alg».proof.Proof.Owed
import proofs.«900545_g7700000000000546_dist_layernorm_colshard_i_m768_n512_v7x_i32_f32_1_alg».proof.Proof.Ghost
import Idealize.ShloMosaic.Lib.Pipeline.Launch
import Idealize.ShloMosaic.Lib.Pipeline.Kit
import Idealize.ShloMosaic.Lib.Tactic

noncomputable section

namespace Cert.KernelIdeal.LNP

open Cert.KernelIdeal Cert.KernelIdeal.Gen Cert.LN

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.Transfers (shareTok shareDrop)

local notation "𝕄" => MT nD τ sig Unit (Elt F) ℕ UU ℕ

variable (m : (ℓ : Loc nD τ sig) → Buf (Elt F) ℓ) (ρ : Dev nD → PrngReg)

omit [FloatOps F] in
/-- Owning a whole buffer at contents `X` is a points-to on all of it at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at its one point, the windows written out. -/
def bodyPre' (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
/-- The library's body obligation on device `c`, from a run of the body. -/
theorem body_obligation_of
    (hsound : ∀ (K : Dev nD × CK → ℕ) (c : Dev nD) (Kt : PUnit → sProp 𝕄),
      iprop(bodyPre m ρ K c ∗ (bodyPost m ρ c -∗ Kt ⟨⟩)) ⊢ wp frame (wpE (defs₀ (F := F)) 𝒱₀ c none) Set.univ
        (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          cc0_scratch2 cc0_scratch3 cc0_scratch4 cc0_scratch5 cc0_scratch6) Kt)
    (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6) (fun _ => bodyPost m ρ c)
  unfold bodyPre' Φ₀ start
  iintro ⟨⟨⟨⟨%K, Hg⟩, Hcr, Hlev⟩, Hscr⟩, Ho, H0, H1, H2, H3⟩
  iapply (hsound K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [H0]; · iexact H0
    isplitl [H1]; · iexact H1
    isplitl [H2]; · iexact H2
    iexact H3
  · iintro H; iexact H

end Cert.KernelIdeal.LNP

end
-- ==== Proof.Launch.lean ====
/-
  The launch: from every device's body to the run of the whole mesh.

  The launch element deals every device the state of its own twenty-two semaphores and the one-shot tokens of their
  duties. The tokens are re-dealt to the devices that pay them: the token of duty `i` of a device's high-bit entry
  semaphore and of its `i`-th first-exchange receive semaphore go to its `i`-th high-bit peer, those of its low-bit
  entry semaphore and second-exchange receive semaphores to its low-bit peers; flipping bits is an involution, so
  every device ends with exactly the tokens of what it pays. Every semaphore's invariant is allocated at once, the
  runtime's entry semaphore with the rest. What the peers owe a device sums to its credit: three and seven entry
  units and one slot's credit per landing.
-/
import proofs.«900545_g7700000000000546_dist_layernorm_colshard_i_m768_n512_v7x_i32_f32_1_alg».proof.Proof.Gen.KernelIdeal
import proofs.«900545_g7700000000000546_dist_layernorm_colshard_i_m768_n512_v7x_i32_f32_1_alg».proof.Proof.Gen.KernelIdeal.Skeleton
import proofs.«900545_g7700000000000546_dist_layernorm_colshard_i_m768_n512_v7x_i32_f32_1_alg».proof.Proof.Gen.KernelIdeal.Launch
import proofs.«900545_g7700000000000546_dist_layernorm_colshard_i_m768_n512_v7x_i32_f32_1_alg».proof.Proof.Gen.KernelIdeal.Points
import proofs.«900545_g7700000000000546_dist_layernorm_colshard_i_m768_n512_v7x_i32_f32_1_alg».proof.Proof.KVal
import proofs.«900545_g7700000000000546_dist_layernorm_colshard_i_m768_n512_v7x_i32_f32_1_alg».proof.Proof.Sched
import proofs.«900545_g7700000000000546_dist_layernorm_colshard_i_m768_n512_v7x_i32_f32_1_alg».proof.Proof.Owed
import proofs.«900545_g7700000000000546_dist_layernorm_colshard_i_m768_n512_v7x_i32_f32_1_alg».proof.Proof.Ghost
import Idealize.ShloMosaic.Lib.Pipeline.Launch
import Idealize.ShloMosaic.Lib.Pipeline.Kit
import Idealize.ShloMosaic.Lib.Tactic

noncomputable section

namespace Cert.KernelIdeal.LNP

open Cert.KernelIdeal Cert.KernelIdeal.Gen Cert.LN

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.Transfers (shareTok shareDrop)

local notation "𝕄" => MT nD τ sig Unit (Elt F) ℕ UU ℕ

variable (m : (ℓ : Loc nD τ sig) → Buf (Elt F) ℓ) (ρ : Dev nD → PrngReg)

/-! ## The kernel's own semaphores, as the launch indexes them -/

/-- Every role but the runtime's entry semaphore, listed. -/
def okOf : Fin 21 → CK :=
  ![.pl, .s1 0, .s1 1, .s1 2, .r1 0, .r1 1, .r1 2,
    .s2 0, .s2 1, .s2 2, .s2 3, .s2 4, .s2 5, .s2 6,
    .r2 0, .r2 1, .r2 2, .r2 3, .r2 4, .r2 5, .r2 6]

theorem okOf_injective : Function.Injective okOf := by decide
theorem ownK_eq : ownK = Finset.univ.map ⟨okOf, okOf_injective⟩ := by decide

abbrev osem : Fin 21 → SemLoc sig := fun j => csem (okOf j)

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

/-- One name per token the launch mints for a device: the three and seven duties of its two entry semaphores and the
    one duty of each of its send and receive semaphores. -/
abbrev TK : Type := Fin 3 ⊕ Fin 7 ⊕ Fin 3 ⊕ Fin 3 ⊕ Fin 7 ⊕ Fin 7

def tkRole : TK → CK
  | .inl _ => .bar
  | .inr (.inl _) => .pl
  | .inr (.inr (.inl i)) => .s1 i
  | .inr (.inr (.inr (.inl i))) => .r1 i
  | .inr (.inr (.inr (.inr (.inl i)))) => .s2 i
  | .inr (.inr (.inr (.inr (.inr i)))) => .r2 i
def tkDuty : TK → Fin 8
  | .inl i => d3 i
  | .inr (.inl i) => d7 i
  | _ => 0
theorem tk_injective : Function.Injective (fun j : TK => (tkRole j, tkDuty j)) := by decide

abbrev tokOf (cj : Dev nD × TK) : GSem nD τ sig × ℕ × Fin 8 := (cell cj.1 (tkRole cj.2), 0, tkDuty cj.2)
theorem tokOf_injective : Function.Injective (tokOf : Dev nD × TK → GSem nD τ sig × ℕ × Fin 8) := by
  rintro ⟨c, j⟩ ⟨c', j'⟩ h
  have h1 : (c, tkRole j) = (c', tkRole j') :=
    kcell_injective (show kcell (c, tkRole j) = kcell (c', tkRole j') from congrArg (fun x : GSem nD τ sig × ℕ × Fin 8 => x.1) h)
  have h2 : tkDuty j = tkDuty j' := congrArg (fun x : GSem nD τ sig × ℕ × Fin 8 => x.2.2) h
  have hc : c = c' := congrArg Prod.fst h1
  have hj : j = j' := tk_injective (Prod.ext (congrArg Prod.snd h1) h2)
  rw [hc, hj]
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device `c`'s own semaphores. -/
def toks (c : Dev nD) : sProp 𝕄 :=
  iprop((bigSep Finset.univ fun i : Fin 3 => dutyTok ER (cell c .bar) 0 (d3 i))
    ∗ (bigSep Finset.univ fun i : Fin 7 => dutyTok ER (cell c .pl) 0 (d7 i))
    ∗ (bigSep Finset.univ fun i : Fin 3 => dutyTok ER (cell c (.s1 i)) 0 (0 : Fin 8))
    ∗ (bigSep Finset.univ fun i : Fin 3 => dutyTok ER (cell c (.r1 i)) 0 (0 : Fin 8))
    ∗ (bigSep Finset.univ fun i : Fin 7 => dutyTok ER (cell c (.s2 i)) 0 (0 : Fin 8))
    ∗ (bigSep Finset.univ fun i : Fin 7 => dutyTok ER (cell c (.r2 i)) 0 (0 : Fin 8)))

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

theorem toks_split (c : Dev nD) :
    (bigSep Finset.univ fun j : TK => (dutyTok ER (tokOf (c, j)).1 (tokOf (c, j)).2.1 (tokOf (c, j)).2.2 : sProp 𝕄)) = toks c := by
  unfold toks
  rw [bigSep_univ_sum, bigSep_univ_sum, bigSep_univ_sum, bigSep_univ_sum, bigSep_univ_sum]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_split c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every semaphore's invariant, allocated at once -/

theorem ownSems0_eq (c : Dev nD) :
    (Pipeline.ownSems0 (Ix := Unit) (Name := ℕ) (U := UU) (Lvl := ℕ) (Val := Elt F) (τ := τ) osem c : sProp 𝕄)
      = bigSep ownK fun k => semVal (cell c k) 0 := by
  rw [ownK_eq, bigSep_map]; rfl

/-- The runtime's entry semaphore is the launch's one unscoped semaphore. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_univ_at (fun k : CK => (semVal (kcell (c, k)) 0 : sProp 𝕄)) CK.bar]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ posAll c ∗ payToks c) ⊢ G' m c := by
  unfold G' ghost
  iintro H
  iexists K
  iexact H

/-! ## The tokens re-dealt to the payers -/

/-- Flipping the `i`-th offset's bits, as a bijection of the devices. -/
def pzE (i : Fin 3) : Dev nD ≃ Dev nD := ⟨fun c => pz c i, fun c => pz c i, fun c => pz_pz c i, fun c => pz_pz c i⟩
def ppE (i : Fin 7) : Dev nD ≃ Dev nD := ⟨fun c => pp c i, fun c => pp c i, fun c => pp_pp c i, fun c => pp_pp c i⟩

/-- What every device holds for each offset, every device holds of its peer at that offset. -/
theorem around3 (Φ : Dev nD → Fin 3 → sProp 𝕄) :
    (bigSep Finset.univ fun c : Dev nD => bigSep Finset.univ fun i : Fin 3 => Φ c i)
      = bigSep Finset.univ fun c : Dev nD => bigSep Finset.univ fun i : Fin 3 => Φ (pz c i) i := by
  rw [bigSep_univ_comm, bigSep_univ_comm (fun (c : Dev nD) (i : Fin 3) => Φ (pz c i) i)]
  exact bigSep_congr fun i _ => bigSep_univ_equiv (pzE i) (fun c => Φ c i)
theorem around7 (Φ : Dev nD → Fin 7 → sProp 𝕄) :
    (bigSep Finset.univ fun c : Dev nD => bigSep Finset.univ fun i : Fin 7 => Φ c i)
      = bigSep Finset.univ fun c : Dev nD => bigSep Finset.univ fun i : Fin 7 => Φ (pp c i) i := by
  rw [bigSep_univ_comm, bigSep_univ_comm (fun (c : Dev nD) (i : Fin 7) => Φ (pp c i) i)]
  exact bigSep_congr fun i _ => bigSep_univ_equiv (ppE i) (fun c => Φ c i)

/-- The tokens of every device's own semaphores are the tokens of what every device pays. -/
theorem toks_around : (bigSep Finset.univ fun c : Dev nD => (toks c : sProp 𝕄)) ⊢ bigSep Finset.univ fun c : Dev nD => payToks c := by
  unfold toks payToks
  simp only [bigSep_sep']
  rw [around3 (fun c i => (dutyTok ER (cell c .bar) 0 (d3 i) : sProp 𝕄)), around7 (fun c i => (dutyTok ER (cell c .pl) 0 (d7 i) : sProp 𝕄)),
    around3 (fun c i => (dutyTok ER (cell c (.r1 i)) 0 (0 : Fin 8) : sProp 𝕄)), around7 (fun c i => (dutyTok ER (cell c (.r2 i)) 0 (0 : Fin 8) : sProp 𝕄))]
  iintro ⟨HA, HB, HS1, HR1, HS2, HR2⟩
  isplitl [HA]; · iexact HA
  isplitl [HB]; · iexact HB
  isplitl [HS1 HR1]
  · isplitl [HS1] <;> iassumption
  isplitl [HS2] <;> iassumption

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(posAll c ∗ payToks c) from Entails.of_eq rfl))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes at launch, grouped: a slot's credit to each peer's receive semaphore, a unit to each peer's entry semaphore. -/
theorem O₀_eq : (O₀ : Dev nD → CellTallies nD τ sig Unit) = fun d =>
    (((∑ i : Fin 7, tallyAt (cell (pp d i) (.r2 i)) () NB) + ∑ i : Fin 3, tallyAt (cell (pz d i) (.r1 i)) () NA)
      + ∑ i : Fin 7, tallyAt (cell (pp d i) .pl) () 1) + ∑ i : Fin 3, tallyAt (cell (pz d i) .bar) () 1 := by
  funext d
  rw [Fin.sum_univ_seven, Fin.sum_univ_three, Fin.sum_univ_seven, Fin.sum_univ_three]
  simp only [O₀, owedBar, owedPl, owedR1, owedR2, Nat.sub_zero, Nat.reduceSub, Nat.reduceLT, ↓reduceDIte, zero_add, Fin.reduceFinMk]
  ac_rfl

/-- Three units' credit on one semaphore is the credit of three; likewise seven. -/
theorem cred_three (g : GSem nD τ sig) :
    (bigSep Finset.univ fun _ : Fin 3 => (cred (tallyAt g () 1) : sProp 𝕄)) = cred (tallyAt g () 3) := by
  rw [← Pipeline.cred_finsetSum, Fin.sum_univ_three, tallyAt_add, tallyAt_add]
theorem cred_seven (g : GSem nD τ sig) :
    (bigSep Finset.univ fun _ : Fin 7 => (cred (tallyAt g () 1) : sProp 𝕄)) = cred (tallyAt g () 7) := by
  rw [← Pipeline.cred_finsetSum, Fin.sum_univ_seven, tallyAt_add, tallyAt_add, tallyAt_add, tallyAt_add, tallyAt_add, tallyAt_add]

/-- Offset `i`'s due to device `c` comes from the one peer at that offset. -/
theorem bar_cred (c : Dev nD) :
    (bigSep Finset.univ fun i : Fin 3 => Pipeline.launchCred (fun d => tallyAt (cell (pz d i) .bar) () 1) c : sProp 𝕄) ⊢ cred (tallyAt (cell c .bar) () 3) := by
  rw [← cred_three]
  exact bigSep_mono fun i _ => Pipeline.launchCred_tallyAt (csem .bar) (fun d => pz d i) (fun d => pz d i) (fun d => pz_pz d i) (fun d => pz_pz d i) () 1 c
theorem pl_cred (c : Dev nD) :
    (bigSep Finset.univ fun i : Fin 7 => Pipeline.launchCred (fun d => tallyAt (cell (pp d i) .pl) () 1) c : sProp 𝕄) ⊢ cred (tallyAt (cell c .pl) () 7) := by
  rw [← cred_seven]
  exact bigSep_mono fun i _ => Pipeline.launchCred_tallyAt (csem .pl) (fun d => pp d i) (fun d => pp d i) (fun d => pp_pp d i) (fun d => pp_pp d i) () 1 c
theorem r1_cred (c : Dev nD) :
    (bigSep Finset.univ fun i : Fin 3 => Pipeline.launchCred (fun d => tallyAt (cell (pz d i) (.r1 i)) () NA) c : sProp 𝕄)
      ⊢ bigSep Finset.univ fun i : Fin 3 => cred (tallyAt (cell c (.r1 i)) () NA) :=
  bigSep_mono fun i _ => Pipeline.launchCred_tallyAt (csem (.r1 i)) (fun d => pz d i) (fun d => pz d i) (fun d => pz_pz d i) (fun d => pz_pz d i) () NA c
theorem r2_cred (c : Dev nD) :
    (bigSep Finset.univ fun i : Fin 7 => Pipeline.launchCred (fun d => tallyAt (cell (pp d i) (.r2 i)) () NB) c : sProp 𝕄)
      ⊢ bigSep Finset.univ fun i : Fin 7 => cred (tallyAt (cell c (.r2 i)) () NB) :=
  bigSep_mono fun i _ => Pipeline.launchCred_tallyAt (csem (.r2 i)) (fun d => pp d i) (fun d => pp d i) (fun d => pp_pp d i) (fun d => pp_pp d i) () NB c

/-- The peers' dues to device `c`, summed. -/
theorem creds_intro (c : Dev nD) : (Pipeline.launchCred O₀ c : sProp 𝕄) ⊢ creds c := by
  rw [O₀_eq, Pipeline.launchCred_add, Pipeline.launchCred_add, Pipeline.launchCred_add,
    Pipeline.launchCred_sum, Pipeline.launchCred_sum, Pipeline.launchCred_sum, Pipeline.launchCred_sum]
  unfold creds
  iintro ⟨⟨⟨HR2, HR1⟩, HPL⟩, HBAR⟩
  isplitl [HBAR]
  · iapply (bar_cred (F := F) c); iexact HBAR
  isplitl [HPL]
  · iapply (pl_cred (F := F) c); iexact HPL
  isplitl [HR1]
  · iapply (r1_cred (F := F) c); iexact HR1
  iapply (r2_cred (F := F) c); iexact HR2

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scr
  iintro ⟨Hr, Hz⟩
  isplitr; · iempintro
  isplitl [Hz]; · iexact Hz
  iexact Hr

/-- A semaphore that is none of the exchange's has no role. -/
theorem ckOf_none {s : SemLoc sig} (h : ∀ k, csem k ≠ s) : ckOf s = none := dif_neg (fun ⟨k, hk⟩ => h k hk)

theorem waits (c : Dev nD) : (levAts L lv : sProp 𝕄) ⊢ Pipeline.cellsWaits cfgs (dats m ρ) () 0 c :=
  Pipeline.cellsWaits_intro cfgs (dats m ρ) () 0 c fun w s t =>
    mayWait_stage c _ (ckOf_none (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: if every
    device's body meets its obligation, every weakly fair execution terminates and every final state has each
    device's four arrays at the pipeline's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.LNP.run_main' depends on axioms: [propext, Classical.choice, Quot.sound] -/
#guard_msgs in #print axioms run_main

end Cert.KernelIdeal.LNP

end
-- ==== Proof.Final.lean ====
/-
  What the run leaves, read as the claim needs it.

  The pipeline's one point stages every array whole, so a window's block is its array; the three argument arrays are
  never written back and end as they began; the result array ends holding what the body left in its staging buffer,
  the devices' form of every device's argument blocks.
-/
import proofs.«900545_g7700000000000546_dist_layernorm_colshard_i_m768_n512_v7x_i32_f32_1_alg».proof.Proof.Launch

noncomputable section

namespace Cert.KernelIdeal.LNP

open Cert.KernelIdeal Cert.KernelIdeal.Gen Cert.LN

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The final arrays -/

/-- A window's block is its whole array. -/
theorem xs_eq (c : Dev nD) : xs m c = m ((c : Thread nD τ).loc main_arg0) :=
  Memref.read_access_unit_zero (Elt F) main_arg0 (funext fun a => Nat.zero_mul _) _ _
theorem gs_eq (c : Dev nD) : gs m c = m ((c : Thread nD τ).loc main_arg1) :=
  Memref.read_access_unit_zero (Elt F) main_arg1 (funext fun a => Nat.zero_mul _) _ _
theorem bs_eq (c : Dev nD) : bs m c = m ((c : Thread nD τ).loc main_arg2) :=
  Memref.read_access_unit_zero (Elt F) main_arg2 (funext fun a => Nat.zero_mul _) _ _

/-- The three argument arrays end as they began. -/
theorem finalA_0 (c : Dev nD) : finalA m ρ c (0 : Fin 4) = m ((c : Thread nD τ).loc main_arg0) :=
  (dats (F := F) m ρ 0 c).arrAt_in (0 : Fin 4) rfl _
theorem finalA_1 (c : Dev nD) : finalA m ρ c (1 : Fin 4) = m ((c : Thread nD τ).loc main_arg1) :=
  (dats (F := F) m ρ 0 c).arrAt_in (1 : Fin 4) rfl _
theorem finalA_2 (c : Dev nD) : finalA m ρ c (2 : Fin 4) = m ((c : Thread nD τ).loc main_arg2) :=
  (dats (F := F) m ρ 0 c).arrAt_in (2 : Fin 4) rfl _

/-- The result array ends holding what the body left in its staging buffer: the one point writes the whole array back. -/
theorem finalA_3 (c : Dev nD) : finalA m ρ c (3 : Fin 4) = outv m c := by
  have h := (dats (F := F) m ρ 0 c).arrAt_succ (3 : Fin 4) t₀
  rw [flush0_3 t₀, if_pos rfl] at h
  refine (show finalA m ρ c (3 : Fin 4) = (dats (F := F) m ρ 0 c).arrAt (3 : Fin 4) (t₀.val + 1) from rfl).trans (h.trans ?_)
  exact Memref.write_access_unit_zero_univ (Elt F) main_v1 (funext fun a => Nat.zero_mul _) _ _ _

/-- The result block as a function of every device's argument blocks as launched. -/
theorem outv_eq (c : Dev nD) :
    outv m c = KVal.OUT (fun d => m ((d : Thread nD τ).loc main_arg0)) (fun d => m ((d : Thread nD τ).loc main_arg1)) (fun d => m ((d : Thread nD τ).loc main_arg2)) c := by
  unfold outv
  rw [show xs m = fun d : Dev nD => m ((d : Thread nD τ).loc main_arg0) from funext (xs_eq m),
    show gs m = fun d : Dev nD => m ((d : Thread nD τ).loc main_arg1) from funext (gs_eq m),
    show bs m = fun d : Dev nD => m ((d : Thread nD τ).loc main_arg2) from funext (bs_eq m)]

/-- From any memory with zero counters: if every device's body meets its obligation, every weakly fair execution
    terminates, each device's result buffer holding the devices' form of every device's argument blocks, its
    argument buffers unchanged. -/
theorem run (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = KVal.OUT (fun d => m ((d.tc : Thread nD τ).loc main_arg0)) (fun d => m ((d.tc : Thread nD τ).loc main_arg1)) (fun d => m ((d.tc : Thread nD τ).loc main_arg2)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c (3 : Fin 4)).trans (finalA_3 m ρ c)).trans (outv_eq m c),
        (h c (0 : Fin 4)).trans (finalA_0 m ρ c),
        (h c (1 : Fin 4)).trans (finalA_1 m ρ c),
        (h c (2 : Fin 4)).trans (finalA_2 m ρ c)⟩)
    (run_main m ρ hbody)

/-- info: 'Cert.KernelIdeal.LNP.run' depends on axioms: [propext, Classical.choice, Quot.sound] -/
#guard_msgs in #print axioms run

end Cert.KernelIdeal.LNP

end
-- ==== Proof.lean ====
/-
  The certificate of a column-sharded layer normalisation on 32 devices against its one-device reference.

  Each device holds 512 of the 16384 columns. The kernel sums its columns of every row (and their squares), adds
  the sums of the three peers whose position differs in the two high bits, then adds what the seven peers that
  differ in the three low bits obtained the same way: every device ends with the whole rows' sums. From them it takes
  the mean, the variance as the mean of squares minus the squared mean, and normalises its block with the reciprocal
  square root. The reference takes the two-pass mean and variance of the whole rows and divides by the square root.
  On finite entries the two are one function of the inputs; the devices meet only through entry signals and
  transfers whose landings are each waited for before they are read.

  The run of one device's thread is proved once, for any float instance, and used at the word level and on the
  extended reals; the launch puts the 32 threads together; the value of each device's result block is read against
  the reference's result at the same entries.
-/
import proofs.«900545_g7700000000000546_dist_layernorm_colshard_i_m768_n512_v7x_i32_f32_1_alg».proof.Defs
import proofs.«900545_g7700000000000546_dist_layernorm_colshard_i_m768_n512_v7x_i32_f32_1_alg».proof.Proof.Assemble
import proofs.«900545_g7700000000000546_dist_layernorm_colshard_i_m768_n512_v7x_i32_f32_1_alg».proof.Proof.Body
import proofs.«900545_g7700000000000546_dist_layernorm_colshard_i_m768_n512_v7x_i32_f32_1_alg».proof.Proof.BodyOb
import proofs.«900545_g7700000000000546_dist_layernorm_colshard_i_m768_n512_v7x_i32_f32_1_alg».proof.Proof.Final
import proofs.«900545_g7700000000000546_dist_layernorm_colshard_i_m768_n512_v7x_i32_f32_1_alg».proof.Proof.Bits.Body
import proofs.«900545_g7700000000000546_dist_layernorm_colshard_i_m768_n512_v7x_i32_f32_1_alg».proof.Proof.Bits.BodyOb
import proofs.«900545_g7700000000000546_dist_layernorm_colshard_i_m768_n512_v7x_i32_f32_1_alg».proof.Proof.Bits.Final

noncomputable section

namespace Cert.Proof

open Idealize.ShloMosaic Idealize.SL.Sem

/-- The kernel's run on the extended reals: every device's result block is the normalised block. -/
theorem runI : Cert.Assemble.HRunI := fun m ρ =>
  Cert.KernelIdeal.LNP.run m ρ fun c =>
    Cert.KernelIdeal.LNP.body_obligation_of m ρ (fun K c Kt => Cert.KernelIdeal.LNP.sound_body m ρ K c Kt) c

/-- The kernel's run at the word level: it ends and leaves its arguments as they were. -/
theorem runB : Cert.Assemble.HRunB := fun m ρ =>
  (θ_run (Cert.Kernel.defs (F := Bits)) _ _).mono (fun _ h c => (h c).2)
    (Cert.Kernel.LNP.run m ρ fun c =>
      Cert.Kernel.LNP.body_obligation_of m ρ (fun K c Kt => Cert.Kernel.LNP.sound_body m ρ K c Kt) c)

theorem claim : Cert.Claim := Cert.Assemble.claim runB runI

end Cert.Proof

end
